-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S4096x1024 : Shape := ⟨2, ![4096, 1024]⟩
abbrev S4096 : Shape := ⟨1, ![4096]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S4096 .f32) (main_arg8 : FVec F S4096 .f32) (main_arg9 : FVec F S1024 .f32) (main_arg10 : FVec F S1024 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S4096x1024 .f32) (main_arg5 : FVec F S4096 .f32) (main_arg6 : FVec F S4096 .f32) (main_arg7 : FVec F S4096 .f32) (main_arg8 : FVec F S4096 .f32) (main_arg9 : FVec F S1024 .f32) (main_arg10 : FVec F S1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x1024 .f32) (main_arg1 : FVec F S8192x1024 .f32) (main_arg2 : FVec F S8192x1024 .f32) (main_arg3 : FVec F S4096x1024 .f32) (main_arg4 : FVec F S4096x1024 .f32) (main_arg5 : FVec F S4096 .f32) (main_arg6 : FVec F S4096 .f32) (main_arg7 : FVec F S4096 .f32) (main_arg8 : FVec F S4096 .f32) (main_arg9 : FVec F S1024 .f32) (main_arg10 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_arg8 main_arg9 main_arg10 main_v13 main_v16
-- ==== Kernel.lean ====
abbrev S8192x1024 : Shape := ⟨2, ![8192, 1024]⟩
abbrev S4096x1024 : Shape := ⟨2, ![4096, 1024]⟩
abbrev S4096 : Shape := ⟨1, ![4096]⟩
abbrev S1024 : Shape := ⟨1, ![1024]⟩
abbrev S1024x4096 : Shape := ⟨2, ![1024, 4096]⟩
abbrev S1x4096 : Shape := ⟨2, ![1, 4096]⟩
abbrev S1x1024 : Shape := ⟨2, ![1, 1024]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩

abbrev nBuf : Space → Nat
  | .hbm => 23
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4096x1024, .f32⟩
  | .hbm, ⟨4, _⟩ => ⟨S4096x1024, .f32⟩
  | .hbm, ⟨5, _⟩ => ⟨S4096, .f32⟩
  | .hbm, ⟨6, _⟩ => ⟨S4096, .f32⟩
  | .hbm, ⟨7, _⟩ => ⟨S4096, .f32⟩
  | .hbm, ⟨8, _⟩ => ⟨S4096, .f32⟩
  | .hbm, ⟨9, _⟩ => ⟨S1024, .f32⟩
  | .hbm, ⟨10, _⟩ => ⟨S1024, .f32⟩
  | .hbm, ⟨11, _⟩ => ⟨S1024x4096, .f32⟩
  | .hbm, ⟨12, _⟩ => ⟨S1024x4096, .bf16⟩
  | .hbm, ⟨13, _⟩ => ⟨S1024x4096, .f32⟩
  | .hbm, ⟨14, _⟩ => ⟨S1024x4096, .bf16⟩
  | .hbm, ⟨15, _⟩ => ⟨S1x4096, .f32⟩
  | .hbm, ⟨16, _⟩ => ⟨S1x4096, .f32⟩
  | .hbm, ⟨17, _⟩ => ⟨S1x4096, .f32⟩
  | .hbm, ⟨18, _⟩ => ⟨S1x4096, .f32⟩
  | .hbm, ⟨19, _⟩ => ⟨S1x1024, .f32⟩
  | .hbm, ⟨20, _⟩ => ⟨S1x1024, .f32⟩
  | .hbm, ⟨21, _⟩ => ⟨S8192x1024, .f32⟩
  | .hbm, ⟨22, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S1x4096, .f32⟩
  | .local _ .vmem, ⟨10, _⟩ => ⟨S1x4096, .f32⟩
  | .local _ .vmem, ⟨11, _⟩ => ⟨S1x4096, .f32⟩
  | .local _ .vmem, ⟨12, _⟩ => ⟨S1x1024, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  transposes_S4096x1024_S1024x4096_1_0 : S4096x1024.Transposes [1, 0] S1024x4096
  bitsLt_bf16_f32 : FTy.bits .bf16 < FTy.bits .f32
  shapeCasts_S4096_S1x4096 : S4096.ShapeCasts S1x4096
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  reduces_S256x4096_S256 : S256x4096.Reduces [1] S256
  shapeCasts_S256_S256x1 : S256.ShapeCasts S256x1
  broadcasts_S256x1_S256x4096 : S256x1.Broadcasts S256x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reduces_S256x1024_S256 : S256x1024.Reduces [1] S256
  broadcasts_S256x1_S256x1024 : S256x1.Broadcasts S256x1024
  broadcasts_S1x1024_S256x1024 : S1x1024.Broadcasts S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x4096.size a ≤ S1x4096.size a
  hwx0_7 : ∀ i : grid0.Coords, EltTy.bits .f32 = 32 ∨ (Rect.block (s := S1x4096) S1x4096.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x4096.size a ≤ S1x4096.size a
  hwx0_8 : ∀ i : grid0.Coords, EltTy.bits .f32 = 32 ∨ (Rect.block (s := S1x4096) S1x4096.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x1024.size a ≤ S8192x1024.size a
  hwx0_11 : ∀ i : grid0.Coords, EltTy.bits .f32 = 32 ∨ (Rect.block (s := S8192x1024) S256x1024.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x1024.size a ≤ S8192x1024.size a
  hwx0_12 : ∀ i : grid0.Coords, EltTy.bits .f32 = 32 ∨ (Rect.block (s := S8192x1024) S256x1024.size (cc0_transform_12 i) (hinb0_12 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x4096.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v10_0) S256x1024.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v10_1) S256x1024.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S4096x1024 : Shape := ⟨2, ![4096, 1024]⟩
abbrev S4096 : Shape := ⟨1, ![4096]⟩
abbrev S1024 : Shape := ⟨1, ![1024]⟩
abbrev S1024x4096 : Shape := ⟨2, ![1024, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S1x1024 : Shape := ⟨2, ![1, 1024]⟩

abbrev nBuf : Space → Nat
  | .hbm => 182
  | .vmem => 0
  | .smem => 0
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S4096x1024, .f32⟩
  | 4 => ⟨S4096x1024, .f32⟩
  | 5 => ⟨S4096, .f32⟩
  | 6 => ⟨S4096, .f32⟩
  | 7 => ⟨S4096, .f32⟩
  | 8 => ⟨S4096, .f32⟩
  | 9 => ⟨S1024, .f32⟩
  | 10 => ⟨S1024, .f32⟩
  | 11 => ⟨S1024x4096, .f32⟩
  | 12 => ⟨S8192x4096, .f32⟩
  | 13 => ⟨S_, .f32⟩
  | 14 => ⟨S8192, .f32⟩
  | 15 => ⟨S8192x1, .f32⟩
  | 16 => ⟨S_, .f32⟩
  | 17 => ⟨S8192x1, .f32⟩
  | 18 => ⟨S8192x1, .f32⟩
  | 19 => ⟨S_, .i32⟩
  | 20 => ⟨S_, .f32⟩
  | 21 => ⟨S8192, .f32⟩
  | 22 => ⟨S8192x1, .f32⟩
  | 23 => ⟨S_, .f32⟩
  | 24 => ⟨S8192x1, .f32⟩
  | 25 => ⟨S8192x1, .f32⟩
  | 26 => ⟨S8192x4096, .f32⟩
  | 27 => ⟨S8192x4096, .f32⟩
  | 28 => ⟨S8192x4096, .f32⟩
  | 29 => ⟨S_, .f32⟩
  | 30 => ⟨S_, .f32⟩
  | 31 => ⟨S_, .f32⟩
  | 32 => ⟨S_, .f32⟩
  | 33 => ⟨S8192, .f32⟩
  | 34 => ⟨S8192x1, .f32⟩
  | 35 => ⟨S8192x1, .f32⟩
  | 36 => ⟨S8192x1, .f32⟩
  | 37 => ⟨S_, .f32⟩
  | 38 => ⟨S_, .i1⟩
  | 39 => ⟨S_, .f32⟩
  | 40 => ⟨S_, .f32⟩
  | 41 => ⟨S8192x1, .f32⟩
  | 42 => ⟨S8192x1, .f32⟩
  | 43 => ⟨S8192x4096, .f32⟩
  | 44 => ⟨S8192x4096, .f32⟩
  | 45 => ⟨S_, .f32⟩
  | 46 => ⟨S8192x1, .f32⟩
  | 47 => ⟨S8192x1, .f32⟩
  | 48 => ⟨S8192x1, .f32⟩
  | 49 => ⟨S8192x4096, .f32⟩
  | 50 => ⟨S8192x4096, .f32⟩
  | 51 => ⟨S1x4096, .f32⟩
  | 52 => ⟨S8192x4096, .f32⟩
  | 53 => ⟨S8192x4096, .f32⟩
  | 54 => ⟨S1x4096, .f32⟩
  | 55 => ⟨S8192x4096, .f32⟩
  | 56 => ⟨S8192x4096, .f32⟩
  | 57 => ⟨S1024x4096, .f32⟩
  | 58 => ⟨S8192x4096, .f32⟩
  | 59 => ⟨S_, .f32⟩
  | 60 => ⟨S8192, .f32⟩
  | 61 => ⟨S8192x1, .f32⟩
  | 62 => ⟨S_, .f32⟩
  | 63 => ⟨S8192x1, .f32⟩
  | 64 => ⟨S8192x1, .f32⟩
  | 65 => ⟨S_, .i32⟩
  | 66 => ⟨S_, .f32⟩
  | 67 => ⟨S8192, .f32⟩
  | 68 => ⟨S8192x1, .f32⟩
  | 69 => ⟨S_, .f32⟩
  | 70 => ⟨S8192x1, .f32⟩
  | 71 => ⟨S8192x1, .f32⟩
  | 72 => ⟨S8192x4096, .f32⟩
  | 73 => ⟨S8192x4096, .f32⟩
  | 74 => ⟨S8192x4096, .f32⟩
  | 75 => ⟨S_, .f32⟩
  | 76 => ⟨S_, .f32⟩
  | 77 => ⟨S_, .f32⟩
  | 78 => ⟨S_, .f32⟩
  | 79 => ⟨S8192, .f32⟩
  | 80 => ⟨S8192x1, .f32⟩
  | 81 => ⟨S8192x1, .f32⟩
  | 82 => ⟨S8192x1, .f32⟩
  | 83 => ⟨S_, .f32⟩
  | 84 => ⟨S_, .i1⟩
  | 85 => ⟨S_, .f32⟩
  | 86 => ⟨S_, .f32⟩
  | 87 => ⟨S8192x1, .f32⟩
  | 88 => ⟨S8192x1, .f32⟩
  | 89 => ⟨S8192x4096, .f32⟩
  | 90 => ⟨S8192x4096, .f32⟩
  | 91 => ⟨S_, .f32⟩
  | 92 => ⟨S8192x1, .f32⟩
  | 93 => ⟨S8192x1, .f32⟩
  | 94 => ⟨S8192x1, .f32⟩
  | 95 => ⟨S8192x4096, .f32⟩
  | 96 => ⟨S8192x4096, .f32⟩
  | 97 => ⟨S1x4096, .f32⟩
  | 98 => ⟨S8192x4096, .f32⟩
  | 99 => ⟨S8192x4096, .f32⟩
  | 100 => ⟨S1x4096, .f32⟩
  | 101 => ⟨S8192x4096, .f32⟩
  | 102 => ⟨S8192x4096, .f32⟩
  | 103 => ⟨S8192x4096, .f32⟩
  | 104 => ⟨S8192x1024, .f32⟩
  | 105 => ⟨S8192x1024, .f32⟩
  | 106 => ⟨S8192x1024, .f32⟩
  | 107 => ⟨S8192x1024, .f32⟩
  | 108 => ⟨S8192x1024, .f32⟩
  | 109 => ⟨S8192x1024, .f32⟩
  | 110 => ⟨S_, .f32⟩
  | 111 => ⟨S8192x1024, .f32⟩
  | 112 => ⟨S8192x1024, .f32⟩
  | 113 => ⟨S_, .f32⟩
  | 114 => ⟨S8192x1024, .f32⟩
  | 115 => ⟨S8192x1024, .f32⟩
  | 116 => ⟨S8192x1024, .f32⟩
  | 117 => ⟨S8192x1024, .f32⟩
  | 118 => ⟨S_, .f32⟩
  | 119 => ⟨S8192x1024, .f32⟩
  | 120 => ⟨S8192x1024, .f32⟩
  | 121 => ⟨S_, .f32⟩
  | 122 => ⟨S8192x1024, .f32⟩
  | 123 => ⟨S8192x1024, .f32⟩
  | 124 => ⟨S8192x1024, .f32⟩
  | 125 => ⟨S8192x1024, .f32⟩
  | 126 => ⟨S8192x1024, .f32⟩
  | 127 => ⟨S_, .f32⟩
  | _ => ⟨S8192x1024, .f32⟩

abbrev hbmTy0_1 (i : Nat) : BufTy := match i % 128 with
  | 0 => ⟨S8192x1024, .f32⟩
  | 1 => ⟨S8192x1024, .f32⟩
  | 2 => ⟨S_, .f32⟩
  | 3 => ⟨S8192x1024, .f32⟩
  | 4 => ⟨S8192x1024, .f32⟩
  | 5 => ⟨S8192x1024, .f32⟩
  | 6 => ⟨S8192x1024, .f32⟩
  | 7 => ⟨S8192x1024, .f32⟩
  | 8 => ⟨S_, .f32⟩
  | 9 => ⟨S8192, .f32⟩
  | 10 => ⟨S8192x1, .f32⟩
  | 11 => ⟨S_, .f32⟩
  | 12 => ⟨S8192x1, .f32⟩
  | 13 => ⟨S8192x1, .f32⟩
  | 14 => ⟨S_, .i32⟩
  | 15 => ⟨S_, .f32⟩
  | 16 => ⟨S8192, .f32⟩
  | 17 => ⟨S8192x1, .f32⟩
  | 18 => ⟨S_, .f32⟩
  | 19 => ⟨S8192x1, .f32⟩
  | 20 => ⟨S8192x1, .f32⟩
  | 21 => ⟨S8192x1024, .f32⟩
  | 22 => ⟨S8192x1024, .f32⟩
  | 23 => ⟨S8192x1024, .f32⟩
  | 24 => ⟨S_, .f32⟩
  | 25 => ⟨S_, .f32⟩
  | 26 => ⟨S_, .f32⟩
  | 27 => ⟨S_, .f32⟩
  | 28 => ⟨S8192, .f32⟩
  | 29 => ⟨S8192x1, .f32⟩
  | 30 => ⟨S8192x1, .f32⟩
  | 31 => ⟨S8192x1, .f32⟩
  | 32 => ⟨S_, .f32⟩
  | 33 => ⟨S_, .i1⟩
  | 34 => ⟨S_, .f32⟩
  | 35 => ⟨S_, .f32⟩
  | 36 => ⟨S8192x1, .f32⟩
  | 37 => ⟨S8192x1, .f32⟩
  | 38 => ⟨S8192x1024, .f32⟩
  | 39 => ⟨S8192x1024, .f32⟩
  | 40 => ⟨S_, .f32⟩
  | 41 => ⟨S8192x1, .f32⟩
  | 42 => ⟨S8192x1, .f32⟩
  | 43 => ⟨S8192x1, .f32⟩
  | 44 => ⟨S8192x1024, .f32⟩
  | 45 => ⟨S8192x1024, .f32⟩
  | 46 => ⟨S1x1024, .f32⟩
  | 47 => ⟨S8192x1024, .f32⟩
  | 48 => ⟨S8192x1024, .f32⟩
  | 49 => ⟨S1x1024, .f32⟩
  | 50 => ⟨S8192x1024, .f32⟩
  | 51 => ⟨S8192x1024, .f32⟩
  | 52 => ⟨S8192x1024, .f32⟩
  | 53 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_cst_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_cst_1 : Ref sig .tc := ⟨.hbm, 30, rfl⟩
abbrev main_call0_v8 : Ref sig .tc := ⟨.hbm, 31, rfl⟩
abbrev main_call0_cst_2 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_cst_3 : Ref sig .tc := ⟨.hbm, 37, rfl⟩
abbrev main_call0_v13 : Ref sig .tc := ⟨.hbm, 38, rfl⟩
abbrev main_call0_cst_4 : Ref sig .tc := ⟨.hbm, 39, rfl⟩
abbrev main_call0_call0_v0 : Ref sig .tc := ⟨.hbm, 40, rfl⟩
abbrev main_call0_call0_v1 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_cst_1 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_cst_2 : Ref sig .tc := ⟨.hbm, 59, rfl⟩
abbrev main_v22 : Ref sig .tc := ⟨.hbm, 60, rfl⟩
abbrev main_v23 : Ref sig .tc := ⟨.hbm, 61, rfl⟩
abbrev main_cst_3 : Ref sig .tc := ⟨.hbm, 62, rfl⟩
abbrev main_v24 : Ref sig .tc := ⟨.hbm, 63, rfl⟩
abbrev main_v25 : Ref sig .tc := ⟨.hbm, 64, rfl⟩
abbrev main_c_4 : Ref sig .tc := ⟨.hbm, 65, rfl⟩
abbrev main_call1_cst : Ref sig .tc := ⟨.hbm, 66, rfl⟩
abbrev main_call1_v0 : Ref sig .tc := ⟨.hbm, 67, rfl⟩
abbrev main_call1_v1 : Ref sig .tc := ⟨.hbm, 68, rfl⟩
abbrev main_call1_cst_0 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_v6 : Ref sig .tc := ⟨.hbm, 74, rfl⟩
abbrev main_call1_v7 : Ref sig .tc := ⟨.hbm, 75, rfl⟩
abbrev main_call1_cst_1 : Ref sig .tc := ⟨.hbm, 76, rfl⟩
abbrev main_call1_v8 : Ref sig .tc := ⟨.hbm, 77, rfl⟩
abbrev main_call1_cst_2 : Ref sig .tc := ⟨.hbm, 78, rfl⟩
abbrev main_call1_v9 : Ref sig .tc := ⟨.hbm, 79, rfl⟩
abbrev main_call1_v10 : Ref sig .tc := ⟨.hbm, 80, rfl⟩
abbrev main_call1_v11 : Ref sig .tc := ⟨.hbm, 81, rfl⟩
abbrev main_call1_v12 : Ref sig .tc := ⟨.hbm, 82, rfl⟩
abbrev main_call1_cst_3 : Ref sig .tc := ⟨.hbm, 83, rfl⟩
abbrev main_call1_v13 : Ref sig .tc := ⟨.hbm, 84, rfl⟩
abbrev main_call1_cst_4 : Ref sig .tc := ⟨.hbm, 85, rfl⟩
abbrev main_call1_call0_v0 : Ref sig .tc := ⟨.hbm, 86, rfl⟩
abbrev main_call1_call0_v1 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_cst_5 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_v40 : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_cst_6 : Ref sig .tc := ⟨.hbm, 110, rfl⟩
abbrev main_v47 : Ref sig .tc := ⟨.hbm, 111, rfl⟩
abbrev main_v48 : Ref sig .tc := ⟨.hbm, 112, rfl⟩
abbrev main_cst_7 : Ref sig .tc := ⟨.hbm, 113, rfl⟩
abbrev main_v49 : Ref sig .tc := ⟨.hbm, 114, rfl⟩
abbrev main_v50 : Ref sig .tc := ⟨.hbm, 115, rfl⟩
abbrev main_v51 : Ref sig .tc := ⟨.hbm, 116, rfl⟩
abbrev main_v52 : Ref sig .tc := ⟨.hbm, 117, rfl⟩
abbrev main_cst_8 : Ref sig .tc := ⟨.hbm, 118, rfl⟩
abbrev main_v53 : Ref sig .tc := ⟨.hbm, 119, rfl⟩
abbrev main_v54 : Ref sig .tc := ⟨.hbm, 120, rfl⟩
abbrev main_cst_9 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_cst_10 : Ref sig .tc := ⟨.hbm, 127, rfl⟩
abbrev main_v60 : Ref sig .tc := ⟨.hbm, 128, rfl⟩
abbrev main_v61 : Ref sig .tc := ⟨.hbm, 129, rfl⟩
abbrev main_cst_11 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_cst_12 : Ref sig .tc := ⟨.hbm, 136, rfl⟩
abbrev main_v67 : Ref sig .tc := ⟨.hbm, 137, rfl⟩
abbrev main_v68 : Ref sig .tc := ⟨.hbm, 138, rfl⟩
abbrev main_cst_13 : Ref sig .tc := ⟨.hbm, 139, rfl⟩
abbrev main_v69 : Ref sig .tc := ⟨.hbm, 140, rfl⟩
abbrev main_v70 : Ref sig .tc := ⟨.hbm, 141, rfl⟩
abbrev main_c_14 : Ref sig .tc := ⟨.hbm, 142, rfl⟩
abbrev main_call2_cst : Ref sig .tc := ⟨.hbm, 143, rfl⟩
abbrev main_call2_v0 : Ref sig .tc := ⟨.hbm, 144, rfl⟩
abbrev main_call2_v1 : Ref sig .tc := ⟨.hbm, 145, rfl⟩
abbrev main_call2_cst_0 : Ref sig .tc := ⟨.hbm, 146, rfl⟩
abbrev main_call2_v2 : Ref sig .tc := ⟨.hbm, 147, rfl⟩
abbrev main_call2_v3 : Ref sig .tc := ⟨.hbm, 148, rfl⟩
abbrev main_call2_v4 : Ref sig .tc := ⟨.hbm, 149, rfl⟩
abbrev main_call2_v5 : Ref sig .tc := ⟨.hbm, 150, rfl⟩
abbrev main_call2_v6 : Ref sig .tc := ⟨.hbm, 151, rfl⟩
abbrev main_call2_v7 : Ref sig .tc := ⟨.hbm, 152, rfl⟩
abbrev main_call2_cst_1 : Ref sig .tc := ⟨.hbm, 153, rfl⟩
abbrev main_call2_v8 : Ref sig .tc := ⟨.hbm, 154, rfl⟩
abbrev main_call2_cst_2 : Ref sig .tc := ⟨.hbm, 155, rfl⟩
abbrev main_call2_v9 : Ref sig .tc := ⟨.hbm, 156, rfl⟩
abbrev main_call2_v10 : Ref sig .tc := ⟨.hbm, 157, rfl⟩
abbrev main_call2_v11 : Ref sig .tc := ⟨.hbm, 158, rfl⟩
abbrev main_call2_v12 : Ref sig .tc := ⟨.hbm, 159, rfl⟩
abbrev main_call2_cst_3 : Ref sig .tc := ⟨.hbm, 160, rfl⟩
abbrev main_call2_v13 : Ref sig .tc := ⟨.hbm, 161, rfl⟩
abbrev main_call2_cst_4 : Ref sig .tc := ⟨.hbm, 162, rfl⟩
abbrev main_call2_call0_v0 : Ref sig .tc := ⟨.hbm, 163, rfl⟩
abbrev main_call2_call0_v1 : Ref sig .tc := ⟨.hbm, 164, rfl⟩
abbrev main_v71 : Ref sig .tc := ⟨.hbm, 165, rfl⟩
abbrev main_v72 : Ref sig .tc := ⟨.hbm, 166, rfl⟩
abbrev main_v73 : Ref sig .tc := ⟨.hbm, 167, rfl⟩
abbrev main_cst_15 : Ref sig .tc := ⟨.hbm, 168, rfl⟩
abbrev main_v74 : Ref sig .tc := ⟨.hbm, 169, rfl⟩
abbrev main_v75 : Ref sig .tc := ⟨.hbm, 170, rfl⟩
abbrev main_v76 : Ref sig .tc := ⟨.hbm, 171, rfl⟩
abbrev main_v77 : Ref sig .tc := ⟨.hbm, 172, rfl⟩
abbrev main_v78 : Ref sig .tc := ⟨.hbm, 173, rfl⟩
abbrev main_v79 : Ref sig .tc := ⟨.hbm, 174, rfl⟩
abbrev main_v80 : Ref sig .tc := ⟨.hbm, 175, rfl⟩
abbrev main_v81 : Ref sig .tc := ⟨.hbm, 176, rfl⟩
abbrev main_v82 : Ref sig .tc := ⟨.hbm, 177, rfl⟩
abbrev main_v83 : Ref sig .tc := ⟨.hbm, 178, rfl⟩
abbrev main_v84 : Ref sig .tc := ⟨.hbm, 179, rfl⟩
abbrev main_v85 : Ref sig .tc := ⟨.hbm, 180, rfl⟩
abbrev main_v86 : Ref sig .tc := ⟨.hbm, 181, rfl⟩

abbrev nD : Nat := 1
abbrev τ : Topo := Topo.v7x

variable {F : FTy → Type} [FloatOps F]

class Facts₀ : Prop where
  transposes_S4096x1024_S1024x4096_1_0 : S4096x1024.Transposes [1, 0] S1024x4096
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  reducesTo_S8192x1024_S8192_d1 : S8192x1024.ReducesTo [1] S8192
  bcast_S8192x1_S8192x1024_0_1 : S8192x1.BroadcastsInDim S8192x1024 (![0, 1] : Fin 2 → Fin S8192x1024.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  dot_S8192x1024_S1024x4096_S8192x4096_1_0_0_1_n_n_wf : DotDims.WF S8192x1024 S1024x4096 S8192x4096 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.RowSpec.lean ====
/-
  One row of a LayerNorm-LSTM cell, as functions on the extended reals.

  A row of gate pre-activations is a matrix–vector product; a layer norm of a row `v` of length `N` is
  `(v j - μ) · (var + ε)^(-1/2) · w j + b j` with `μ` the row's mean. The variance comes in two forms:
  the TWO-PASS form `(Σ (v k - μ)²) / N` and the ONE-PASS form `max ((Σ v k²) / N - μ², 0)`. On a row of real
  numbers the two agree: `Σ (v k - μ)² = Σ v k² - N μ²`, and the left side is nonnegative, so the clamp at `0`
  is the identity. Everything else in the cell (sigmoid and tanh gates, the cell update, the output) is the
  same expression on both sides, so the whole row agrees once every intermediate row is real — which it is when
  every input is real: sums and products of reals, `(positive real)^(-1/2)`, `1/(1+e^(-x))` and `tanh` stay real.
-/
import Idealize.ShloMosaic.PureOps.Ideal
import Idealize.ShloMosaic.PureOps.Ideal.Laws

noncomputable section

namespace Cert.LstmRow

open Idealize.ShloMosaic

/-- The divisor `4096.0`, the divisor `1024.0` and the stabiliser `ε` (the float nearest `1e-5`), as the
    extended reals their f32 words denote. -/
abbrev w4096 : EReal := Ideal.ofBits .f32 0x45800000#32
abbrev w1024 : EReal := Ideal.ofBits .f32 0x44800000#32
abbrev wEps : EReal := Ideal.ofBits .f32 0x3727C5AC#32

/-- An extended real that is a real number. -/
def IsReal (x : EReal) : Prop := ∃ r : ℝ, x = (r : EReal)

/-- A variance of a row of length `N` with divisor `cN`. -/
abbrev VarFn := (N : ℕ) → EReal → (Fin N → EReal) → EReal

/-- The mean of a row: its sum over the divisor. -/
def mean {N : ℕ} (cN : EReal) (v : Fin N → EReal) : EReal := Ideal.div (∑ k, v k) cN

/-- Two-pass variance: the mean of the squared deviations from the mean. -/
def varTwo : VarFn := fun _ cN v => Ideal.div (∑ k, (v k - mean cN v) * (v k - mean cN v)) cN

/-- One-pass variance: the mean of the squares minus the squared mean, clamped at `0`. -/
def varOne : VarFn := fun _ cN v => max (Ideal.div (∑ k, v k * v k) cN - mean cN v * mean cN v) 0

/-- Layer norm of a row at column `j`, over a variance `V`. -/
def lnRow (V : VarFn) {N : ℕ} (cN : EReal) (v w b : Fin N → EReal) (j : Fin N) : EReal :=
  (v j - mean cN v) * Ideal.rsqrt (V N cN v + wEps) * w j + b j

/-- Gate pre-activation `n` of a row: the row against row `n` of the weights. -/
def dotRow (x : Fin 1024 → EReal) (W : Fin 4096 → Fin 1024 → EReal) (n : Fin 4096) : EReal := ∑ k, x k * W n k

/-- The four gate rows: the two normalised pre-activations, added. -/
def gatesRow (V : VarFn) (x h : Fin 1024 → EReal) (Wih Whh : Fin 4096 → Fin 1024 → EReal)
    (wi bi wh bh : Fin 4096 → EReal) (n : Fin 4096) : EReal :=
  lnRow V w4096 (dotRow x Wih) wi bi n + lnRow V w4096 (dotRow h Whh) wh bh n

/-- Column `j` of gate `q` (`q = 0, 1, 2, 3`: input, forget, cell, output) among the `4096` gate columns. -/
def gcol (q : Fin 4) (j : Fin 1024) : Fin 4096 := ⟨q.val * 1024 + j.val, by have := q.isLt; have := j.isLt; omega⟩

/-- The cell before its norm: `σ(f) · c + σ(i) · tanh(g)`. -/
def cellRow (g : Fin 4096 → EReal) (cx : Fin 1024 → EReal) (j : Fin 1024) : EReal :=
  Ideal.logistic (g (gcol 1 j)) * cx j + Ideal.logistic (g (gcol 0 j)) * Ideal.tanh (g (gcol 2 j))

/-- The new cell state of a row, at column `j`. -/
def cyRow (V : VarFn) (x h cx : Fin 1024 → EReal) (Wih Whh : Fin 4096 → Fin 1024 → EReal)
    (wi bi wh bh : Fin 4096 → EReal) (wc bc : Fin 1024 → EReal) (j : Fin 1024) : EReal :=
  lnRow V w1024 (cellRow (gatesRow V x h Wih Whh wi bi wh bh) cx) wc bc j

/-- The new hidden state of a row, at column `j`: `σ(o) · tanh(cy)`. -/
def hyRow (V : VarFn) (x h cx : Fin 1024 → EReal) (Wih Whh : Fin 4096 → Fin 1024 → EReal)
    (wi bi wh bh : Fin 4096 → EReal) (wc bc : Fin 1024 → EReal) (j : Fin 1024) : EReal :=
  Ideal.logistic (gatesRow V x h Wih Whh wi bi wh bh (gcol 3 j)) * Ideal.tanh (cyRow V x h cx Wih Whh wi bi wh bh wc bc j)

end Cert.LstmRow

end
-- ==== Proof.ArraySpec.lean ====
/-
  The two results as whole-array functions of the eleven argument arrays: entry `(r, j)` of the new cell state
  and of the new hidden state is the row function of row `r` of `input`, `hx` and `cx`, of the two weight matrices
  (row `n` of a weight matrix is gate column `n`) and of the six norm vectors.
-/
import proofs.«410985_j10685878632881_3_alg».proof.Proof.RowSpec
import Idealize.ShloMosaic.Lib.ValueIdx

noncomputable section

namespace Cert.LstmArr

open Idealize.ShloMosaic Idealize.ShloMosaic.ValueIdx Cert.LstmRow

/-- The shapes of the arguments and results, as literals. -/
abbrev SB : Shape := ⟨2, ![8192, 1024]⟩
abbrev SW : Shape := ⟨2, ![4096, 1024]⟩
abbrev SG : Shape := ⟨1, ![4096]⟩
abbrev SH : Shape := ⟨1, ![1024]⟩

/-- Row `r` of a batch array. -/
def rowOf (a : FVec Ideal SB .f32) (r : Fin 8192) : Fin 1024 → EReal := fun k => a (ix2 r k)
/-- A weight matrix by gate column and input coordinate. -/
def matOf (a : FVec Ideal SW .f32) : Fin 4096 → Fin 1024 → EReal := fun n k => a (ix2 n k)
/-- A gate-wide vector by gate column. -/
def vecG (a : FVec Ideal SG .f32) : Fin 4096 → EReal := fun n => a (ix1 n)
/-- A hidden-wide vector by column. -/
def vecH (a : FVec Ideal SH .f32) : Fin 1024 → EReal := fun n => a (ix1 n)

/-- The new cell state over a variance `V`. -/
def Gcy (V : VarFn) (a0 a1 a2 : FVec Ideal SB .f32) (a3 a4 : FVec Ideal SW .f32) (a5 a6 a7 a8 : FVec Ideal SG .f32)
    (a9 a10 : FVec Ideal SH .f32) : FVec Ideal SB .f32 := fun i =>
  cyRow V (rowOf a0 (i 0)) (rowOf a1 (i 0)) (rowOf a2 (i 0)) (matOf a3) (matOf a4) (vecG a5) (vecG a6) (vecG a7) (vecG a8)
    (vecH a9) (vecH a10) (i 1)

/-- The new hidden state over a variance `V`. -/
def Ghy (V : VarFn) (a0 a1 a2 : FVec Ideal SB .f32) (a3 a4 : FVec Ideal SW .f32) (a5 a6 a7 a8 : FVec Ideal SG .f32)
    (a9 a10 : FVec Ideal SH .f32) : FVec Ideal SB .f32 := fun i =>
  hyRow V (rowOf a0 (i 0)) (rowOf a1 (i 0)) (rowOf a2 (i 0)) (matOf a3) (matOf a4) (vecG a5) (vecG a6) (vecG a7) (vecG a8)
    (vecH a9) (vecH a10) (i 1)

/-- Every entry of every argument array is a real number. -/
def AllReal (a0 a1 a2 : FVec Ideal SB .f32) (a3 a4 : FVec Ideal SW .f32) (a5 a6 a7 a8 : FVec Ideal SG .f32)
    (a9 a10 : FVec Ideal SH .f32) : Prop :=
  (∀ i, IsReal (a0 i)) ∧ (∀ i, IsReal (a1 i)) ∧ (∀ i, IsReal (a2 i)) ∧ (∀ i, IsReal (a3 i)) ∧ (∀ i, IsReal (a4 i))
  ∧ (∀ i, IsReal (a5 i)) ∧ (∀ i, IsReal (a6 i)) ∧ (∀ i, IsReal (a7 i)) ∧ (∀ i, IsReal (a8 i)) ∧ (∀ i, IsReal (a9 i))
  ∧ (∀ i, IsReal (a10 i))

end Cert.LstmArr

end
-- ==== Proof.RowLaw.lean ====
import proofs.«410985_j10685878632881_3_alg».proof.Proof.RowSpec

noncomputable section

namespace Cert.LstmRow

open Idealize.ShloMosaic

/-! ### The three words

The word 0x45800000 is 2^12, the word 0x44800000 is 2^10, and the word 0x3727C5AC is 10995116 · 2^(-40),
a positive real. -/

theorem w4096_eq : w4096 = ((4096 : ℝ) : EReal) := by
  simp [Ideal.ofBits, Ideal.ieee, -EReal.coe_mul]; norm_num

theorem w1024_eq : w1024 = ((1024 : ℝ) : EReal) := by
  simp [Ideal.ofBits, Ideal.ieee, -EReal.coe_mul]; norm_num

theorem wEps_pos : ∃ e : ℝ, 0 < e ∧ wEps = (e : EReal) := by
  simp [Ideal.ofBits, Ideal.ieee, -EReal.coe_mul]

/-- The divisor 4096.0 is the length 4096 of a gate row. -/
theorem w4096_cast : w4096 = (((4096 : ℕ) : ℝ) : EReal) := by
  rw [w4096_eq, Nat.cast_ofNat]

/-- The divisor 1024.0 is the length 1024 of a cell row. -/
theorem w1024_cast : w1024 = (((1024 : ℕ) : ℝ) : EReal) := by
  rw [w1024_eq, Nat.cast_ofNat]

/-! ### Real numbers among the extended reals: closure under the cell's operations -/

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of reals is real. -/
theorem IsReal.sum {ι : Type} (s : Finset ι) (f : ι → EReal) (hf : ∀ i, IsReal (f i)) :
    IsReal (∑ i ∈ s, f i) := by
  classical
  refine Finset.induction_on s ⟨0, by simp⟩ ?_
  intro a s ha ih
  rw [Finset.sum_insert ha]
  exact (hf a).add ih

/-- The sigmoid 1 / (1 + e^(-x)) of a real is real. -/
theorem IsReal.logistic {x : EReal} (hx : IsReal x) : IsReal (Ideal.logistic x) := by
  obtain ⟨a, rfl⟩ := hx; exact ⟨_, Ideal.logistic_coe a⟩

/-- The hyperbolic tangent of a real is real. -/
theorem IsReal.tanh {x : EReal} (hx : IsReal x) : IsReal (Ideal.tanh x) := by
  obtain ⟨a, rfl⟩ := hx; exact ⟨_, Ideal.tanh_coe a⟩

/-- (s + ε)^(-1/2) is real for a real s ≥ 0, since ε > 0. -/
theorem isReal_rsqrt_add_eps {s : ℝ} (hs : 0 ≤ s) : IsReal (Ideal.rsqrt ((s : EReal) + wEps)) := by
  obtain ⟨e, he, hw⟩ := wEps_pos
  have hpos : 0 < s + e := by linarith
  rw [hw, ← EReal.coe_add, Ideal.rsqrt_coe, if_neg (not_lt.mpr hpos.le), if_neg hpos.ne']
  exact ⟨_, rfl⟩

/-! ### A row of reals: its sum, mean and two variances, computed in ℝ -/

/-- The sum of a family of reals, taken in the extended reals, is the real sum. -/
theorem coe_sum {ι : Type} (s : Finset ι) (r : ι → ℝ) :
    (∑ i ∈ s, (r i : EReal)) = ((∑ i ∈ s, r i : ℝ) : EReal) := by
  classical
  refine Finset.induction_on s (by simp) ?_
  intro a s ha ih
  rw [Finset.sum_insert ha, Finset.sum_insert ha, ih, EReal.coe_add]

theorem mean_coe {N : ℕ} (hN : (N : ℝ) ≠ 0) (r : Fin N → ℝ) :
    mean ((N : ℝ) : EReal) (fun k => (r k : EReal)) = (((∑ k, r k) * (1 / (N : ℝ)) : ℝ) : EReal) := by
  unfold mean
  rw [Ideal.div_coe hN, coe_sum, ← EReal.coe_mul]

theorem varTwo_coe {N : ℕ} (hN : (N : ℝ) ≠ 0) (r : Fin N → ℝ) :
    varTwo N ((N : ℝ) : EReal) (fun k => (r k : EReal))
      = (((∑ k, (r k - (∑ i, r i) * (1 / (N : ℝ))) * (r k - (∑ i, r i) * (1 / (N : ℝ)))) * (1 / (N : ℝ)) : ℝ) : EReal) := by
  unfold varTwo
  rw [mean_coe hN, Ideal.div_coe hN]
  simp only [← EReal.coe_sub, ← EReal.coe_mul]
  rw [coe_sum, ← EReal.coe_mul]

theorem varOne_coe {N : ℕ} (hN : (N : ℝ) ≠ 0) (r : Fin N → ℝ) :
    varOne N ((N : ℝ) : EReal) (fun k => (r k : EReal))
      = max ((((∑ k, r k * r k) * (1 / (N : ℝ)) - (∑ i, r i) * (1 / (N : ℝ)) * ((∑ i, r i) * (1 / (N : ℝ))) : ℝ)) : EReal) 0 := by
  unfold varOne
  rw [mean_coe hN, Ideal.div_coe hN]
  simp only [← EReal.coe_mul]
  rw [coe_sum, ← EReal.coe_mul, ← EReal.coe_sub]

/-- Σ (r k - μ)² = Σ r k² - 2 μ Σ r k + N μ², for any μ. -/
theorem sum_sq_dev {N : ℕ} (r : Fin N → ℝ) (μ : ℝ) :
    ∑ k, (r k - μ) * (r k - μ) = (∑ k, r k * r k) - 2 * μ * (∑ k, r k) + N * (μ * μ) := by
  have h : ∀ k, (r k - μ) * (r k - μ) = r k * r k - 2 * μ * r k + μ * μ := fun k => by ring
  simp only [h]
  rw [Finset.sum_add_distrib, Finset.sum_sub_distrib, ← Finset.mul_sum, Finset.sum_const, Finset.card_univ,
    Fintype.card_fin, nsmul_eq_mul]

/-- With μ the mean, the mean squared deviation is the mean square minus the squared mean. -/
theorem twoPass_eq_onePass {N : ℕ} (hN : (N : ℝ) ≠ 0) (r : Fin N → ℝ) :
    (∑ k, (r k - (∑ i, r i) * (1 / (N : ℝ))) * (r k - (∑ i, r i) * (1 / (N : ℝ)))) * (1 / (N : ℝ))
      = (∑ k, r k * r k) * (1 / (N : ℝ)) - (∑ i, r i) * (1 / (N : ℝ)) * ((∑ i, r i) * (1 / (N : ℝ))) := by
  rw [sum_sq_dev]
  field_simp
  ring

/-- A mean of squares is nonnegative. -/
theorem twoPass_nonneg {N : ℕ} (r : Fin N → ℝ) (μ : ℝ) :
    0 ≤ (∑ k, (r k - μ) * (r k - μ)) * (1 / (N : ℝ)) := by
  apply mul_nonneg
  · exact Finset.sum_nonneg (fun k _ => mul_self_nonneg _)
  · positivity

/-! ### The law: on a row of reals the two variances agree -/

theorem varTwo_eq_varOne {N : ℕ} (hN : 0 < N) (cN : EReal) (hc : cN = ((N : ℝ) : EReal)) (v : Fin N → EReal)
    (hv : ∀ k, IsReal (v k)) : varTwo N cN v = varOne N cN v := by
  subst hc
  choose r hr using hv
  obtain rfl : v = fun k => (r k : EReal) := funext hr
  have hN' : (N : ℝ) ≠ 0 := by exact_mod_cast hN.ne'
  rw [varTwo_coe hN', varOne_coe hN', ← twoPass_eq_onePass hN', max_eq_left]
  exact_mod_cast twoPass_nonneg r _

/-- The variance of a row of reals is a nonnegative real. -/
theorem varOne_real_nonneg {N : ℕ} (hN : 0 < N) (cN : EReal) (hc : cN = ((N : ℝ) : EReal)) (v : Fin N → EReal)
    (hv : ∀ k, IsReal (v k)) : ∃ s : ℝ, 0 ≤ s ∧ varOne N cN v = (s : EReal) := by
  rw [← varTwo_eq_varOne hN cN hc v hv]
  subst hc
  choose r hr using hv
  obtain rfl : v = fun k => (r k : EReal) := funext hr
  have hN' : (N : ℝ) ≠ 0 := by exact_mod_cast hN.ne'
  exact ⟨_, twoPass_nonneg r _, varTwo_coe hN' r⟩

theorem isReal_mean {N : ℕ} (hN : 0 < N) (cN : EReal) (hc : cN = ((N : ℝ) : EReal)) (v : Fin N → EReal)
    (hv : ∀ k, IsReal (v k)) : IsReal (mean cN v) := by
  subst hc
  choose r hr using hv
  obtain rfl : v = fun k => (r k : EReal) := funext hr
  have hN' : (N : ℝ) ≠ 0 := by exact_mod_cast hN.ne'
  exact ⟨_, mean_coe hN' r⟩

/-! ### The layer norm of a row of reals -/

theorem lnRow_two_eq_one {N : ℕ} (hN : 0 < N) (cN : EReal) (hc : cN = ((N : ℝ) : EReal)) (v w b : Fin N → EReal)
    (hv : ∀ k, IsReal (v k)) : lnRow varTwo cN v w b = lnRow varOne cN v w b := by
  funext j
  unfold lnRow
  rw [varTwo_eq_varOne hN cN hc v hv]

theorem isReal_lnRow_varOne {N : ℕ} (hN : 0 < N) (cN : EReal) (hc : cN = ((N : ℝ) : EReal)) (v w b : Fin N → EReal)
    (hv : ∀ k, IsReal (v k)) (hw : ∀ k, IsReal (w k)) (hb : ∀ k, IsReal (b k)) (j : Fin N) :
    IsReal (lnRow varOne cN v w b j) := by
  unfold lnRow
  obtain ⟨s, hs, hvs⟩ := varOne_real_nonneg hN cN hc v hv
  rw [hvs]
  exact ((((hv j).sub (isReal_mean hN cN hc v hv)).mul (isReal_rsqrt_add_eps hs)).mul (hw j)).add (hb j)

/-! ### The gates, the cell, and the two results -/

theorem isReal_dotRow (x : Fin 1024 → EReal) (W : Fin 4096 → Fin 1024 → EReal) (hx : ∀ k, IsReal (x k))
    (hW : ∀ n k, IsReal (W n k)) (n : Fin 4096) : IsReal (dotRow x W n) := by
  unfold dotRow
  exact IsReal.sum _ _ (fun k => (hx k).mul (hW n k))

theorem gatesRow_two_eq_one (x h : Fin 1024 → EReal) (Wih Whh : Fin 4096 → Fin 1024 → EReal)
    (wi bi wh bh : Fin 4096 → EReal) (hx : ∀ k, IsReal (x k)) (hh : ∀ k, IsReal (h k))
    (hWih : ∀ n k, IsReal (Wih n k)) (hWhh : ∀ n k, IsReal (Whh n k)) :
    gatesRow varTwo x h Wih Whh wi bi wh bh = gatesRow varOne x h Wih Whh wi bi wh bh := by
  funext n
  unfold gatesRow
  rw [lnRow_two_eq_one (by norm_num) w4096 w4096_cast _ wi bi (isReal_dotRow x Wih hx hWih),
    lnRow_two_eq_one (by norm_num) w4096 w4096_cast _ wh bh (isReal_dotRow h Whh hh hWhh)]

theorem isReal_gatesRow_varOne (x h : Fin 1024 → EReal) (Wih Whh : Fin 4096 → Fin 1024 → EReal)
    (wi bi wh bh : Fin 4096 → EReal) (hx : ∀ k, IsReal (x k)) (hh : ∀ k, IsReal (h k))
    (hWih : ∀ n k, IsReal (Wih n k)) (hWhh : ∀ n k, IsReal (Whh n k)) (hwi : ∀ n, IsReal (wi n))
    (hbi : ∀ n, IsReal (bi n)) (hwh : ∀ n, IsReal (wh n)) (hbh : ∀ n, IsReal (bh n)) (n : Fin 4096) :
    IsReal (gatesRow varOne x h Wih Whh wi bi wh bh n) := by
  unfold gatesRow
  exact (isReal_lnRow_varOne (by norm_num) w4096 w4096_cast _ wi bi (isReal_dotRow x Wih hx hWih) hwi hbi n).add
    (isReal_lnRow_varOne (by norm_num) w4096 w4096_cast _ wh bh (isReal_dotRow h Whh hh hWhh) hwh hbh n)

theorem isReal_cellRow (g : Fin 4096 → EReal) (cx : Fin 1024 → EReal) (hg : ∀ n, IsReal (g n))
    (hcx : ∀ k, IsReal (cx k)) (j : Fin 1024) : IsReal (cellRow g cx j) := by
  unfold cellRow
  exact ((hg _).logistic.mul (hcx j)).add ((hg _).logistic.mul (hg _).tanh)

/-- On a row of reals the two variances agree, so the two rows of the new cell state agree. -/
theorem cyRow_two_eq_one (x h cx : Fin 1024 → EReal) (Wih Whh : Fin 4096 → Fin 1024 → EReal) (wi bi wh bh : Fin 4096 → EReal) (wc bc : Fin 1024 → EReal) (hx : ∀ k, IsReal (x k)) (hh : ∀ k, IsReal (h k)) (hcx : ∀ k, IsReal (cx k)) (hWih : ∀ n k, IsReal (Wih n k)) (hWhh : ∀ n k, IsReal (Whh n k)) (hwi : ∀ n, IsReal (wi n)) (hbi : ∀ n, IsReal (bi n)) (hwh : ∀ n, IsReal (wh n)) (hbh : ∀ n, IsReal (bh n)) (hwc : ∀ n, IsReal (wc n)) (hbc : ∀ n, IsReal (bc n)) :
    cyRow varTwo x h cx Wih Whh wi bi wh bh wc bc = cyRow varOne x h cx Wih Whh wi bi wh bh wc bc := by
  funext j
  unfold cyRow
  rw [gatesRow_two_eq_one x h Wih Whh wi bi wh bh hx hh hWih hWhh]
  exact congrFun (lnRow_two_eq_one (by norm_num) w1024 w1024_cast _ wc bc
    (isReal_cellRow _ cx (isReal_gatesRow_varOne x h Wih Whh wi bi wh bh hx hh hWih hWhh hwi hbi hwh hbh) hcx)) j

theorem hyRow_two_eq_one (x h cx : Fin 1024 → EReal) (Wih Whh : Fin 4096 → Fin 1024 → EReal) (wi bi wh bh : Fin 4096 → EReal) (wc bc : Fin 1024 → EReal) (hx : ∀ k, IsReal (x k)) (hh : ∀ k, IsReal (h k)) (hcx : ∀ k, IsReal (cx k)) (hWih : ∀ n k, IsReal (Wih n k)) (hWhh : ∀ n k, IsReal (Whh n k)) (hwi : ∀ n, IsReal (wi n)) (hbi : ∀ n, IsReal (bi n)) (hwh : ∀ n, IsReal (wh n)) (hbh : ∀ n, IsReal (bh n)) (hwc : ∀ n, IsReal (wc n)) (hbc : ∀ n, IsReal (bc n)) :
    hyRow varTwo x h cx Wih Whh wi bi wh bh wc bc = hyRow varOne x h cx Wih Whh wi bi wh bh wc bc := by
  funext j
  unfold hyRow
  rw [gatesRow_two_eq_one x h Wih Whh wi bi wh bh hx hh hWih hWhh,
    cyRow_two_eq_one x h cx Wih Whh wi bi wh bh wc bc hx hh hcx hWih hWhh hwi hbi hwh hbh hwc hbc]

end Cert.LstmRow

end
-- ==== Proof.ArrayLaw.lean ====
/-
  On argument arrays of real numbers the two whole-array specifications agree: entry by entry they are the row
  functions of real rows, which agree over the two variances.
-/
import proofs.«410985_j10685878632881_3_alg».proof.Proof.ArraySpec
import proofs.«410985_j10685878632881_3_alg».proof.Proof.RowLaw

noncomputable section

namespace Cert.LstmArr

open Idealize.ShloMosaic Idealize.ShloMosaic.ValueIdx Cert.LstmRow

/-- The new cell state: two-pass and one-pass variance give the same array when every argument entry is real. -/
theorem Gcy_two_eq_one (a0 a1 a2 : FVec Ideal SB .f32) (a3 a4 : FVec Ideal SW .f32) (a5 a6 a7 a8 : FVec Ideal SG .f32) (a9 a10 : FVec Ideal SH .f32) (hr : AllReal a0 a1 a2 a3 a4 a5 a6 a7 a8 a9 a10) :
    Gcy varTwo a0 a1 a2 a3 a4 a5 a6 a7 a8 a9 a10 = Gcy varOne a0 a1 a2 a3 a4 a5 a6 a7 a8 a9 a10 := by
  obtain ⟨h0, h1, h2, h3, h4, h5, h6, h7, h8, h9, h10⟩ := hr
  funext i
  exact congrFun (cyRow_two_eq_one (rowOf a0 (i 0)) (rowOf a1 (i 0)) (rowOf a2 (i 0)) (matOf a3) (matOf a4) (vecG a5) (vecG a6)
    (vecG a7) (vecG a8) (vecH a9) (vecH a10) (fun _ => h0 _) (fun _ => h1 _) (fun _ => h2 _) (fun _ _ => h3 _) (fun _ _ => h4 _)
    (fun _ => h5 _) (fun _ => h6 _) (fun _ => h7 _) (fun _ => h8 _) (fun _ => h9 _) (fun _ => h10 _)) (i 1)

/-- The new hidden state likewise. -/
theorem Ghy_two_eq_one (a0 a1 a2 : FVec Ideal SB .f32) (a3 a4 : FVec Ideal SW .f32) (a5 a6 a7 a8 : FVec Ideal SG .f32) (a9 a10 : FVec Ideal SH .f32) (hr : AllReal a0 a1 a2 a3 a4 a5 a6 a7 a8 a9 a10) :
    Ghy varTwo a0 a1 a2 a3 a4 a5 a6 a7 a8 a9 a10 = Ghy varOne a0 a1 a2 a3 a4 a5 a6 a7 a8 a9 a10 := by
  obtain ⟨h0, h1, h2, h3, h4, h5, h6, h7, h8, h9, h10⟩ := hr
  funext i
  exact congrFun (hyRow_two_eq_one (rowOf a0 (i 0)) (rowOf a1 (i 0)) (rowOf a2 (i 0)) (matOf a3) (matOf a4) (vecG a5) (vecG a6)
    (vecG a7) (vecG a8) (vecH a9) (vecH a10) (fun _ => h0 _) (fun _ => h1 _) (fun _ => h2 _) (fun _ _ => h3 _) (fun _ _ => h4 _)
    (fun _ => h5 _) (fun _ => h6 _) (fun _ => h7 _) (fun _ => h8 _) (fun _ => h9 _) (fun _ => h10 _)) (i 1)

end Cert.LstmArr

end
-- ==== Proof.Finite.lean ====
import proofs.«410985_j10685878632881_3_alg».proof.Proof.ArraySpec
import proofs.«410985_j10685878632881_3_alg».proof.Proof.Gen.Pre_finite_inputs
import Idealize.ShloMosaic.Lib.ReduceAll

noncomputable section

namespace Cert.LstmArr

open Idealize.ShloMosaic Idealize.ShloMosaic.ValueIdx Cert.LstmRow

/-- The f32 word `0x7F800000` denotes `+∞`. -/
private theorem ofBits_posInf_f32 : Ideal.ofBits .f32 0x7F800000#32 = (⊤ : EReal) := by
  simp [Ideal.ofBits, Ideal.ieee]

/-- An extended real whose absolute value `max x (-x)` is below `+∞` is a real number: `-⊥ = ⊤` and `⊤` itself
    are not below `⊤`. -/
private theorem isReal_of_abs_lt_top (x : EReal) (h : max x (-x) < ⊤) : IsReal x := by
  induction x using EReal.rec with
  | bot => exact absurd h (by simp)
  | top => exact absurd h (by simp)
  | coe r => exact ⟨r, rfl⟩

/-- The rank-0 shape has one index. -/
private instance subsingleton_scalarIdx : Subsingleton (Cert.Pre_finite_inputs.S_).Idx :=
  ⟨fun a b => funext fun d => d.elim0⟩

/-- `jnp.all(|a| < +∞)` over any shape, when it holds, makes every entry of `a` a real number. -/
private theorem isReal_of_all_abs_lt_inf {S : Shape} {axes : List (Fin S.rank)}
    (hb : (Cert.Pre_finite_inputs.S_).BroadcastsInDim S (![] : Fin 0 → Fin S.rank))
    (hr : S.ReducesTo axes Cert.Pre_finite_inputs.S_) (hu : 0 < (Cert.Pre_finite_inputs.S_).numel)
    (a : FVec Ideal S .f32)
    (e : Host.reduce IntOp.andi
          (cmpf .olt (Host.absf a)
            (broadcastInDim S ![] hb (constant (F := Ideal) Cert.Pre_finite_inputs.S_ .f32 0x7F800000#32)))
          (constantI Cert.Pre_finite_inputs.S_ 1 1#1) hr hu ix0 = 1#1)
    (i : S.Idx) : IsReal (a i) := by
  have h1 := Host.reduce_andi_all _ _ hr hu ix0 e i
  have h2 : Ideal.cmp .olt (max (a i) (-(a i))) (Ideal.ofBits .f32 0x7F800000#32) = 1#1 := h1
  rw [ofBits_posInf_f32] at h2
  refine isReal_of_abs_lt_top (a i) ?_
  by_contra hn
  simp [Ideal.cmp, hn] at h2

open Cert.Pre_finite_inputs.Gen in
/-- The precondition (every `|entry| < +∞`, all eleven arrays) makes every entry a real number. -/
theorem allReal_of_pre (a0 a1 a2 : FVec Ideal SB .f32) (a3 a4 : FVec Ideal SW .f32) (a5 a6 a7 a8 : FVec Ideal SG .f32) (a9 a10 : FVec Ideal SH .f32)
    (hpre : Cert.Pre_finite_inputs.fn (F := Ideal) a0 a1 a2 a3 a4 a5 a6 a7 a8 a9 a10 = (fun _ => 1#1)) :
    AllReal a0 a1 a2 a3 a4 a5 a6 a7 a8 a9 a10 := by
  have h0 := congrFun hpre ValueIdx.ix0
  dsimp only [Cert.Pre_finite_inputs.fn, Cert.Pre_finite_inputs.fn_part1, Cert.Pre_finite_inputs.fn_part2,
    Cert.Pre_finite_inputs.fn_part3] at h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨isReal_of_all_abs_lt_inf _ _ _ a0 e0, isReal_of_all_abs_lt_inf _ _ _ a1 e1,
    isReal_of_all_abs_lt_inf _ _ _ a2 e2, isReal_of_all_abs_lt_inf _ _ _ a3 e3,
    isReal_of_all_abs_lt_inf _ _ _ a4 e4, isReal_of_all_abs_lt_inf _ _ _ a5 e5,
    isReal_of_all_abs_lt_inf _ _ _ a6 e6, isReal_of_all_abs_lt_inf _ _ _ a7 e7,
    isReal_of_all_abs_lt_inf _ _ _ a8 e8, isReal_of_all_abs_lt_inf _ _ _ a9 e9,
    isReal_of_all_abs_lt_inf _ _ _ a10 e10⟩

end Cert.LstmArr

end
-- ==== Proof.RefOps.lean ====
/- The reference program's @main as one list of its 171 host operations, in order, each module-local function's
   operations listed at its call site over that call's own buffers; and, per operation, that it touches TensorCore
   buffers only. -/
import proofs.«410985_j10685878632881_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 171 operations, in order. -/
abbrev ops : List (HloOp τ sig (Elt F)) :=
  [ StableHlo.unary main_arg3 main_v0 ((transpose S1024x4096 [1, 0] · transposes_S4096x1024_S1024x4096_1_0) : (⟨S4096x1024, .f32⟩ : BufTy).Contents (Elt F) → (⟨S1024x4096, .f32⟩ : BufTy).Contents (Elt F)),
    StableHlo.binary main_arg0 main_v0 main_v1 ((fun l r => Host.dotGeneral dot_S8192x1024_S1024x4096_S8192x4096_1_0_0_1_n_n none l r) : (⟨S8192x1024, .f32⟩ : BufTy).Contents (Elt F) → (⟨S1024x4096, .f32⟩ : BufTy).Contents (Elt F) → (⟨S8192x4096, .f32⟩ : BufTy).Contents (Elt F)),
    StableHlo.nullary main_cst (constant S_ .f32 0x00000000#32),
    StableHlo.binary main_v1 main_cst main_v2 ((fun x v => Host.reduceAdd x v reducesTo_S8192x4096_S8192_d1 h_S_) : (⟨S8192x4096, .f32⟩ : BufTy).Contents (Elt F) → (⟨S_, .f32⟩ : BufTy).Contents (Elt F) → (⟨S8192, .f32⟩ : BufTy).Contents (Elt F)),
    StableHlo.unary main_v2 main_v3 (broadcastInDim S8192x1 ![0] bcast_S8192_S8192x1_0 : (⟨S8192, .f32⟩ : BufTy).Contents (Elt F) → (⟨S8192x1, .f32⟩ : BufTy).Contents (Elt F)),
    StableHlo.nullary main_cst_0 (constant S_ .f32 0x45800000#32),
    StableHlo.unary main_cst_0 main_v4 (broadcastInDim S8192x1 ![] bcast_S_S8192x1 : (⟨S_, .f32⟩ : BufTy).Contents (Elt F) → (⟨S8192x1, .f32⟩ : BufTy).Contents (Elt F)),
    StableHlo.binary main_v3 main_v4 main_v5 (Host.divf : (⟨S8192x1, .f32⟩ : BufTy).Contents (Elt F) → (⟨S8192x1, .f32⟩ : BufTy).Contents (Elt F) → (⟨S8192x1, .f32⟩ : BufTy).Contents (Elt F)),
    StableHlo.nullary main_c (constantI S_ 32 0#32),
    StableHlo.nullary main_call0_cst (constant S_ .f32 0x00000000#32),
    StableHlo.binary main_v1 main_call0_cst main_call0_v0 ((fun x v => Host.reduceAdd x v reducesTo_S8192x4096_S8192_d1 h_S_) : (⟨S8192x4096, .f32⟩ : BufTy).Contents (Elt F) → (⟨S_, .f32⟩ : BufTy).Contents (Elt F) → (⟨S8192, .f32⟩ : BufTy).Contents (Elt F)),
    StableHlo.unary main_call0_v0 main_call0_v1 ((broadcastInDim S8192x1 ![0] bcast_S8192_S8192x1_0) : (⟨S8192, .f32⟩ : BufTy).Contents (Elt F) → (⟨S8192x1, .f32⟩ : BufTy).Contents (Elt F)),
    StableHlo.nullary main_call0_cst_0 (constant S_ .f32 0x45800000#32),
    StableHlo.unary main_call0_cst_0 main_call0_v2 ((broadcastInDim S8192x1 ![] bcast_S_S8192x1) : (⟨S_, .f32⟩ : BufTy).Contents (Elt F) → (⟨S8192x1, .f32⟩ : BufTy).Contents (Elt F)),
    StableHlo.binary main_call0_v1 main_call0_v2 main_call0_v3 (Host.divf : (⟨S8192x1, .f32⟩ : BufTy).Contents (Elt F) → (⟨S8192x1, .f32⟩ : BufTy).Contents (Elt F) → (⟨S8192x1, .f32⟩ : BufTy).Contents (Elt F)),
    StableHlo.unary main_call0_v3 main_call0_v4 ((broadcastInDim S8192x4096 ![0, 1] bcast_S8192x1_S8192x4096_0_1) : (⟨S8192x1, .f32⟩ : BufTy).Contents (Elt F) → (⟨S8192x4096, .f32⟩ : BufTy).Contents (Elt F)),
    StableHlo.binary main_v1 main_call0_v4 main_call0_v5 (subf : (⟨S8192x4096, .f32⟩ : BufTy).Contents (Elt F) → (⟨S8192x4096, .f32⟩ : BufTy).Contents (Elt F) → (⟨S8192x4096, .f32⟩ : BufTy).Contents (Elt F)),
    StableHlo.binary main_call0_v5 main_call0_v5 main_call0_v6 (mulf : (⟨S8192x4096, .f32⟩ : BufTy).Contents (Elt F) → (⟨S8192x4096, .f32⟩ : BufTy).Contents (Elt F) → (⟨S8192x4096, .f32⟩ : BufTy).Contents (Elt F)),
    StableHlo.unary main_c main_call0_v7 ((sitofp .f32) : (⟨S_, .i32⟩ : BufTy).Contents (Elt F) → (⟨S_, .f32⟩ : BufTy).Contents (Elt F)),
    StableHlo.nullary main_call0_cst_1 (constant S_ .f32 0x45800000#32),
    StableHlo.binary main_call0_cst_1 main_call0_v7 main_call0_v8 (subf : (⟨S_, .f32⟩ : BufTy).Contents (Elt F) → (⟨S_, .f32⟩ : BufTy).Contents (Elt F) → (⟨S_, .f32⟩ : BufTy).Contents (Elt F)),
    StableHlo.nullary main_call0_cst_2 (constant S_ .f32 0x00000000#32),
    StableHlo.binary main_call0_v6 main_call0_cst_2 main_call0_v9 ((fun x v => Host.reduceAdd x v reducesTo_S8192x4096_S8192_d1 h_S_) : (⟨S8192x4096, .f32⟩ : BufTy).Contents (Elt F) → (⟨S_, .f32⟩ : BufTy).Contents (Elt F) → (⟨S8192, .f32⟩ : BufTy).Contents (Elt F)),
    StableHlo.unary main_call0_v9 main_call0_v10 ((broadcastInDim S8192x1 ![0] bcast_S8192_S8192x1_0) : (⟨S8192, .f32⟩ : BufTy).Contents (Elt F) → (⟨S8192x1, .f32⟩ : BufTy).Contents (Elt F)),
    StableHlo.unary main_call0_v8 main_call0_v11 ((broadcastInDim S8192x1 ![] bcast_S_S8192x1) : (⟨S_, .f32⟩ : BufTy).Contents (Elt F) → (⟨S8192x1, .f32⟩ : BufTy).Contents (Elt F)),
    StableHlo.binary main_call0_v10 main_call0_v11 main_call0_v12 (Host.divf : (⟨S8192x1, .f32⟩ : BufTy).Contents (Elt F) → (⟨S8192x1, .f32⟩ : BufTy).Contents (Elt F) → (⟨S8192x1, .f32⟩ : BufTy).Contents (Elt F)),
    StableHlo.nullary main_call0_cst_3 (constant S_ .f32 0x00000000#32),
    StableHlo.binary main_call0_v8 main_call0_cst_3 main_call0_v13 ((cmpf .ogt) : (⟨S_, .f32⟩ : BufTy).Contents (Elt F) → (⟨S_, .f32⟩ : BufTy).Contents (Elt F) → (⟨S_, .i1⟩ : BufTy).Contents (Elt F)),
    StableHlo.nullary main_call0_cst_4 (constant S_ .f32 0x7FC00000#32),
    StableHlo.unary main_call0_cst_4 main_call0_call0_v0 (id : (⟨S_, .f32⟩ : BufTy).Contents (Elt F) → (⟨S_, .f32⟩ : BufTy).Contents (Elt F)),
    StableHlo.unary main_call0_call0_v0 main_call0_call0_v1 ((broadcastInDim S8192x1 ![] bcast_S_S8192x1) : (⟨S_, .f32⟩ : BufTy).Contents (Elt F) → (⟨S8192x1, .f32⟩ : BufTy).Contents (Elt F)),
    StableHlo.ternary main_call0_v13 main_call0_v12 main_call0_call0_v1 main_v6 ((fun p a b => select (broadcastInDim S8192x1 ![] bcast_S_S8192x1 p) a b) : (⟨S_, .i1⟩ : BufTy).Contents (Elt F) → (⟨S8192x1, .f32⟩ : BufTy).Contents (Elt F) → (⟨S8192x1, .f32⟩ : BufTy).Contents (Elt F) → (⟨S8192x1, .f32⟩ : BufTy).Contents (Elt F)),
    StableHlo.unary main_v5 main_v7 (broadcastInDim S8192x4096 ![0, 1] bcast_S8192x1_S8192x4096_0_1 : (⟨S8192x1, .f32⟩ : BufTy).Contents (Elt F) → (⟨S8192x4096, .f32⟩ : BufTy).Contents (Elt F)),
    StableHlo.binary main_v1 main_v7 main_v8 (subf : (⟨S8192x4096, .f32⟩ : BufTy).Contents (Elt F) → (⟨S8192x4096, .f32⟩ : BufTy).Contents (Elt F) → (⟨S8192x4096, .f32⟩ : BufTy).Contents (Elt F)),
    StableHlo.nullary main_cst_1 (constant S_ .f32 0x3727C5AC#32),
    StableHlo.unary main_cst_1 main_v9 (broadcastInDim S8192x1 ![] bcast_S_S8192x1 : (⟨S_, .f32⟩ : BufTy).Contents (Elt F) → (⟨S8192x1, .f32⟩ : BufTy).Contents (Elt F)),
    StableHlo.binary main_v6 main_v9 main_v10 (addf : (⟨S8192x1, .f32⟩ : BufTy).Contents (Elt F) → (⟨S8192x1, .f32⟩ : BufTy).Contents (Elt F) → (⟨S8192x1, .f32⟩ : BufTy).Contents (Elt F)),
    StableHlo.unary main_v10 main_v11 (Host.rsqrt : (⟨S8192x1, .f32⟩ : BufTy).Contents (Elt F) → (⟨S8192x1, .f32⟩ : BufTy).Contents (Elt F)),
    StableHlo.unary main_v11 main_v12 (broadcastInDim S8192x4096 ![0, 1] bcast_S8192x1_S8192x4096_0_1 : (⟨S8192x1, .f32⟩ : BufTy).Contents (Elt F) → (⟨S8192x4096, .f32⟩ : BufTy).Contents (Elt F)),
    StableHlo.binary main_v8 main_v12 main_v13 (mulf : (⟨S8192x4096, .f32⟩ : BufTy).Contents (Elt F) → (⟨S8192x4096, .f32⟩ : BufTy).Contents (Elt F) → (⟨S8192x4096, .f32⟩ : BufTy).Contents (Elt F)),
    StableHlo.unary main_arg5 main_v14 (broadcastInDim S1x4096 ![1] bcast_S4096_S1x4096_1 : (⟨S4096, .f32⟩ : BufTy).Contents (Elt F) → (⟨S1x4096, .f32⟩ : BufTy).Contents (Elt F)),
    StableHlo.unary main_v14 main_v15 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v13 main_v15 main_v16 (mulf : (⟨S8192x4096, .f32⟩ : BufTy).Contents (Elt F) → (⟨S8192x4096, .f32⟩ : BufTy).Contents (Elt F) → (⟨S8192x4096, .f32⟩ : BufTy).Contents (Elt F)),
    StableHlo.unary main_arg6 main_v17 (broadcastInDim S1x4096 ![1] bcast_S4096_S1x4096_1 : (⟨S4096, .f32⟩ : BufTy).Contents (Elt F) → (⟨S1x4096, .f32⟩ : BufTy).Contents (Elt F)),
    StableHlo.unary main_v17 main_v18 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v16 main_v18 main_v19 (addf : (⟨S8192x4096, .f32⟩ : BufTy).Contents (Elt F) → (⟨S8192x4096, .f32⟩ : BufTy).Contents (Elt F) → (⟨S8192x4096, .f32⟩ : BufTy).Contents (Elt F)),
    StableHlo.unary main_arg4 main_v20 ((transpose S1024x4096 [1, 0] · transposes_S4096x1024_S1024x4096_1_0) : (⟨S4096x1024, .f32⟩ : BufTy).Contents (Elt F) → (⟨S1024x4096, .f32⟩ : BufTy).Contents (Elt F)),
    StableHlo.binary main_arg1 main_v20 main_v21 ((fun l r => Host.dotGeneral dot_S8192x1024_S1024x4096_S8192x4096_1_0_0_1_n_n none l r) : (⟨S8192x1024, .f32⟩ : BufTy).Contents (Elt F) → (⟨S1024x4096, .f32⟩ : BufTy).Contents (Elt F) → (⟨S8192x4096, .f32⟩ : BufTy).Contents (Elt F)),
    StableHlo.nullary main_cst_2 (constant S_ .f32 0x00000000#32),
    StableHlo.binary main_v21 main_cst_2 main_v22 ((fun x v => Host.reduceAdd x v reducesTo_S8192x4096_S8192_d1 h_S_) : (⟨S8192x4096, .f32⟩ : BufTy).Contents (Elt F) → (⟨S_, .f32⟩ : BufTy).Contents (Elt F) → (⟨S8192, .f32⟩ : BufTy).Contents (Elt F)),
    StableHlo.unary main_v22 main_v23 (broadcastInDim S8192x1 ![0] bcast_S8192_S8192x1_0 : (⟨S8192, .f32⟩ : BufTy).Contents (Elt F) → (⟨S8192x1, .f32⟩ : BufTy).Contents (Elt F)),
    StableHlo.nullary main_cst_3 (constant S_ .f32 0x45800000#32),
    StableHlo.unary main_cst_3 main_v24 (broadcastInDim S8192x1 ![] bcast_S_S8192x1 : (⟨S_, .f32⟩ : BufTy).Contents (Elt F) → (⟨S8192x1, .f32⟩ : BufTy).Contents (Elt F)),
    StableHlo.binary main_v23 main_v24 main_v25 (Host.divf : (⟨S8192x1, .f32⟩ : BufTy).Contents (Elt F) → (⟨S8192x1, .f32⟩ : BufTy).Contents (Elt F) → (⟨S8192x1, .f32⟩ : BufTy).Contents (Elt F)),
    StableHlo.nullary main_c_4 (constantI S_ 32 0#32),
    StableHlo.nullary main_call1_cst (constant S_ .f32 0x00000000#32),
    StableHlo.binary main_v21 main_call1_cst main_call1_v0 ((fun x v => Host.reduceAdd x v reducesTo_S8192x4096_S8192_d1 h_S_) : (⟨S8192x4096, .f32⟩ : BufTy).Contents (Elt F) → (⟨S_, .f32⟩ : BufTy).Contents (Elt F) → (⟨S8192, .f32⟩ : BufTy).Contents (Elt F)),
    StableHlo.unary main_call1_v0 main_call1_v1 ((broadcastInDim S8192x1 ![0] bcast_S8192_S8192x1_0) : (⟨S8192, .f32⟩ : BufTy).Contents (Elt F) → (⟨S8192x1, .f32⟩ : BufTy).Contents (Elt F)),
    StableHlo.nullary main_call1_cst_0 (constant S_ .f32 0x45800000#32),
    StableHlo.unary main_call1_cst_0 main_call1_v2 ((broadcastInDim S8192x1 ![] bcast_S_S8192x1) : (⟨S_, .f32⟩ : BufTy).Contents (Elt F) → (⟨S8192x1, .f32⟩ : BufTy).Contents (Elt F)),
    StableHlo.binary main_call1_v1 main_call1_v2 main_call1_v3 (Host.divf : (⟨S8192x1, .f32⟩ : BufTy).Contents (Elt F) → (⟨S8192x1, .f32⟩ : BufTy).Contents (Elt F) → (⟨S8192x1, .f32⟩ : BufTy).Contents (Elt F)),
    StableHlo.unary main_call1_v3 main_call1_v4 ((broadcastInDim S8192x4096 ![0, 1] bcast_S8192x1_S8192x4096_0_1) : (⟨S8192x1, .f32⟩ : BufTy).Contents (Elt F) → (⟨S8192x4096, .f32⟩ : BufTy).Contents (Elt F)),
    StableHlo.binary main_v21 main_call1_v4 main_call1_v5 (subf : (⟨S8192x4096, .f32⟩ : BufTy).Contents (Elt F) → (⟨S8192x4096, .f32⟩ : BufTy).Contents (Elt F) → (⟨S8192x4096, .f32⟩ : BufTy).Contents (Elt F)),
    StableHlo.binary main_call1_v5 main_call1_v5 main_call1_v6 (mulf : (⟨S8192x4096, .f32⟩ : BufTy).Contents (Elt F) → (⟨S8192x4096, .f32⟩ : BufTy).Contents (Elt F) → (⟨S8192x4096, .f32⟩ : BufTy).Contents (Elt F)),
    StableHlo.unary main_c_4 main_call1_v7 ((sitofp .f32) : (⟨S_, .i32⟩ : BufTy).Contents (Elt F) → (⟨S_, .f32⟩ : BufTy).Contents (Elt F)),
    StableHlo.nullary main_call1_cst_1 (constant S_ .f32 0x45800000#32),
    StableHlo.binary main_call1_cst_1 main_call1_v7 main_call1_v8 (subf : (⟨S_, .f32⟩ : BufTy).Contents (Elt F) → (⟨S_, .f32⟩ : BufTy).Contents (Elt F) → (⟨S_, .f32⟩ : BufTy).Contents (Elt F)),
    StableHlo.nullary main_call1_cst_2 (constant S_ .f32 0x00000000#32),
    StableHlo.binary main_call1_v6 main_call1_cst_2 main_call1_v9 ((fun x v => Host.reduceAdd x v reducesTo_S8192x4096_S8192_d1 h_S_) : (⟨S8192x4096, .f32⟩ : BufTy).Contents (Elt F) → (⟨S_, .f32⟩ : BufTy).Contents (Elt F) → (⟨S8192, .f32⟩ : BufTy).Contents (Elt F)),
    StableHlo.unary main_call1_v9 main_call1_v10 ((broadcastInDim S8192x1 ![0] bcast_S8192_S8192x1_0) : (⟨S8192, .f32⟩ : BufTy).Contents (Elt F) → (⟨S8192x1, .f32⟩ : BufTy).Contents (Elt F)),
    StableHlo.unary main_call1_v8 main_call1_v11 ((broadcastInDim S8192x1 ![] bcast_S_S8192x1) : (⟨S_, .f32⟩ : BufTy).Contents (Elt F) → (⟨S8192x1, .f32⟩ : BufTy).Contents (Elt F)),
    StableHlo.binary main_call1_v10 main_call1_v11 main_call1_v12 (Host.divf : (⟨S8192x1, .f32⟩ : BufTy).Contents (Elt F) → (⟨S8192x1, .f32⟩ : BufTy).Contents (Elt F) → (⟨S8192x1, .f32⟩ : BufTy).Contents (Elt F)),
    StableHlo.nullary main_call1_cst_3 (constant S_ .f32 0x00000000#32),
    StableHlo.binary main_call1_v8 main_call1_cst_3 main_call1_v13 ((cmpf .ogt) : (⟨S_, .f32⟩ : BufTy).Contents (Elt F) → (⟨S_, .f32⟩ : BufTy).Contents (Elt F) → (⟨S_, .i1⟩ : BufTy).Contents (Elt F)),
    StableHlo.nullary main_call1_cst_4 (constant S_ .f32 0x7FC00000#32),
    StableHlo.unary main_call1_cst_4 main_call1_call0_v0 (id : (⟨S_, .f32⟩ : BufTy).Contents (Elt F) → (⟨S_, .f32⟩ : BufTy).Contents (Elt F)),
    StableHlo.unary main_call1_call0_v0 main_call1_call0_v1 ((broadcastInDim S8192x1 ![] bcast_S_S8192x1) : (⟨S_, .f32⟩ : BufTy).Contents (Elt F) → (⟨S8192x1, .f32⟩ : BufTy).Contents (Elt F)),
    StableHlo.ternary main_call1_v13 main_call1_v12 main_call1_call0_v1 main_v26 ((fun p a b => select (broadcastInDim S8192x1 ![] bcast_S_S8192x1 p) a b) : (⟨S_, .i1⟩ : BufTy).Contents (Elt F) → (⟨S8192x1, .f32⟩ : BufTy).Contents (Elt F) → (⟨S8192x1, .f32⟩ : BufTy).Contents (Elt F) → (⟨S8192x1, .f32⟩ : BufTy).Contents (Elt F)),
    StableHlo.unary main_v25 main_v27 (broadcastInDim S8192x4096 ![0, 1] bcast_S8192x1_S8192x4096_0_1 : (⟨S8192x1, .f32⟩ : BufTy).Contents (Elt F) → (⟨S8192x4096, .f32⟩ : BufTy).Contents (Elt F)),
    StableHlo.binary main_v21 main_v27 main_v28 (subf : (⟨S8192x4096, .f32⟩ : BufTy).Contents (Elt F) → (⟨S8192x4096, .f32⟩ : BufTy).Contents (Elt F) → (⟨S8192x4096, .f32⟩ : BufTy).Contents (Elt F)),
    StableHlo.nullary main_cst_5 (constant S_ .f32 0x3727C5AC#32),
    StableHlo.unary main_cst_5 main_v29 (broadcastInDim S8192x1 ![] bcast_S_S8192x1 : (⟨S_, .f32⟩ : BufTy).Contents (Elt F) → (⟨S8192x1, .f32⟩ : BufTy).Contents (Elt F)),
    StableHlo.binary main_v26 main_v29 main_v30 (addf : (⟨S8192x1, .f32⟩ : BufTy).Contents (Elt F) → (⟨S8192x1, .f32⟩ : BufTy).Contents (Elt F) → (⟨S8192x1, .f32⟩ : BufTy).Contents (Elt F)),
    StableHlo.unary main_v30 main_v31 (Host.rsqrt : (⟨S8192x1, .f32⟩ : BufTy).Contents (Elt F) → (⟨S8192x1, .f32⟩ : BufTy).Contents (Elt F)),
    StableHlo.unary main_v31 main_v32 (broadcastInDim S8192x4096 ![0, 1] bcast_S8192x1_S8192x4096_0_1 : (⟨S8192x1, .f32⟩ : BufTy).Contents (Elt F) → (⟨S8192x4096, .f32⟩ : BufTy).Contents (Elt F)),
    StableHlo.binary main_v28 main_v32 main_v33 (mulf : (⟨S8192x4096, .f32⟩ : BufTy).Contents (Elt F) → (⟨S8192x4096, .f32⟩ : BufTy).Contents (Elt F) → (⟨S8192x4096, .f32⟩ : BufTy).Contents (Elt F)),
    StableHlo.unary main_arg7 main_v34 (broadcastInDim S1x4096 ![1] bcast_S4096_S1x4096_1 : (⟨S4096, .f32⟩ : BufTy).Contents (Elt F) → (⟨S1x4096, .f32⟩ : BufTy).Contents (Elt F)),
    StableHlo.unary main_v34 main_v35 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v33 main_v35 main_v36 (mulf : (⟨S8192x4096, .f32⟩ : BufTy).Contents (Elt F) → (⟨S8192x4096, .f32⟩ : BufTy).Contents (Elt F) → (⟨S8192x4096, .f32⟩ : BufTy).Contents (Elt F)),
    StableHlo.unary main_arg8 main_v37 (broadcastInDim S1x4096 ![1] bcast_S4096_S1x4096_1 : (⟨S4096, .f32⟩ : BufTy).Contents (Elt F) → (⟨S1x4096, .f32⟩ : BufTy).Contents (Elt F)),
    StableHlo.unary main_v37 main_v38 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v36 main_v38 main_v39 (addf : (⟨S8192x4096, .f32⟩ : BufTy).Contents (Elt F) → (⟨S8192x4096, .f32⟩ : BufTy).Contents (Elt F) → (⟨S8192x4096, .f32⟩ : BufTy).Contents (Elt F)),
    StableHlo.binary main_v19 main_v39 main_v40 (addf : (⟨S8192x4096, .f32⟩ : BufTy).Contents (Elt F) → (⟨S8192x4096, .f32⟩ : BufTy).Contents (Elt F) → (⟨S8192x4096, .f32⟩ : BufTy).Contents (Elt F)),
    StableHlo.unary main_v40 main_v41 ((extractStridedSlice S8192x1024 ![0, 0] · slices_S8192x4096_S8192x1024_0_0) : (⟨S8192x4096, .f32⟩ : BufTy).Contents (Elt F) → (⟨S8192x1024, .f32⟩ : BufTy).Contents (Elt F)),
    StableHlo.unary main_v40 main_v42 ((extractStridedSlice S8192x1024 ![0, 1024] · slices_S8192x4096_S8192x1024_0_1024) : (⟨S8192x4096, .f32⟩ : BufTy).Contents (Elt F) → (⟨S8192x1024, .f32⟩ : BufTy).Contents (Elt F)),
    StableHlo.unary main_v40 main_v43 ((extractStridedSlice S8192x1024 ![0, 2048] · slices_S8192x4096_S8192x1024_0_2048) : (⟨S8192x4096, .f32⟩ : BufTy).Contents (Elt F) → (⟨S8192x1024, .f32⟩ : BufTy).Contents (Elt F)),
    StableHlo.unary main_v40 main_v44 ((extractStridedSlice S8192x1024 ![0, 3072] · slices_S8192x4096_S8192x1024_0_3072) : (⟨S8192x4096, .f32⟩ : BufTy).Contents (Elt F) → (⟨S8192x1024, .f32⟩ : BufTy).Contents (Elt F)),
    StableHlo.unary main_v41 main_v45 (Host.negf : (⟨S8192x1024, .f32⟩ : BufTy).Contents (Elt F) → (⟨S8192x1024, .f32⟩ : BufTy).Contents (Elt F)),
    StableHlo.unary main_v45 main_v46 (Host.exp : (⟨S8192x1024, .f32⟩ : BufTy).Contents (Elt F) → (⟨S8192x1024, .f32⟩ : BufTy).Contents (Elt F)),
    StableHlo.nullary main_cst_6 (constant S_ .f32 0x3F800000#32),
    StableHlo.unary main_cst_6 main_v47 (broadcastInDim S8192x1024 ![] bcast_S_S8192x1024 : (⟨S_, .f32⟩ : BufTy).Contents (Elt F) → (⟨S8192x1024, .f32⟩ : BufTy).Contents (Elt F)),
    StableHlo.binary main_v47 main_v46 main_v48 (addf : (⟨S8192x1024, .f32⟩ : BufTy).Contents (Elt F) → (⟨S8192x1024, .f32⟩ : BufTy).Contents (Elt F) → (⟨S8192x1024, .f32⟩ : BufTy).Contents (Elt F)),
    StableHlo.nullary main_cst_7 (constant S_ .f32 0x3F800000#32),
    StableHlo.unary main_cst_7 main_v49 (broadcastInDim S8192x1024 ![] bcast_S_S8192x1024 : (⟨S_, .f32⟩ : BufTy).Contents (Elt F) → (⟨S8192x1024, .f32⟩ : BufTy).Contents (Elt F)),
    StableHlo.binary main_v49 main_v48 main_v50 (Host.divf : (⟨S8192x1024, .f32⟩ : BufTy).Contents (Elt F) → (⟨S8192x1024, .f32⟩ : BufTy).Contents (Elt F) → (⟨S8192x1024, .f32⟩ : BufTy).Contents (Elt F)),
    StableHlo.unary main_v42 main_v51 (Host.negf : (⟨S8192x1024, .f32⟩ : BufTy).Contents (Elt F) → (⟨S8192x1024, .f32⟩ : BufTy).Contents (Elt F)),
    StableHlo.unary main_v51 main_v52 (Host.exp : (⟨S8192x1024, .f32⟩ : BufTy).Contents (Elt F) → (⟨S8192x1024, .f32⟩ : BufTy).Contents (Elt F)),
    StableHlo.nullary main_cst_8 (constant S_ .f32 0x3F800000#32),
    StableHlo.unary main_cst_8 main_v53 (broadcastInDim S8192x1024 ![] bcast_S_S8192x1024 : (⟨S_, .f32⟩ : BufTy).Contents (Elt F) → (⟨S8192x1024, .f32⟩ : BufTy).Contents (Elt F)),
    StableHlo.binary main_v53 main_v52 main_v54 (addf : (⟨S8192x1024, .f32⟩ : BufTy).Contents (Elt F) → (⟨S8192x1024, .f32⟩ : BufTy).Contents (Elt F) → (⟨S8192x1024, .f32⟩ : BufTy).Contents (Elt F)),
    StableHlo.nullary main_cst_9 (constant S_ .f32 0x3F800000#32),
    StableHlo.unary main_cst_9 main_v55 (broadcastInDim S8192x1024 ![] bcast_S_S8192x1024 : (⟨S_, .f32⟩ : BufTy).Contents (Elt F) → (⟨S8192x1024, .f32⟩ : BufTy).Contents (Elt F)),
    StableHlo.binary main_v55 main_v54 main_v56 (Host.divf : (⟨S8192x1024, .f32⟩ : BufTy).Contents (Elt F) → (⟨S8192x1024, .f32⟩ : BufTy).Contents (Elt F) → (⟨S8192x1024, .f32⟩ : BufTy).Contents (Elt F)),
    StableHlo.unary main_v43 main_v57 (Host.tanh : (⟨S8192x1024, .f32⟩ : BufTy).Contents (Elt F) → (⟨S8192x1024, .f32⟩ : BufTy).Contents (Elt F)),
    StableHlo.unary main_v44 main_v58 (Host.negf : (⟨S8192x1024, .f32⟩ : BufTy).Contents (Elt F) → (⟨S8192x1024, .f32⟩ : BufTy).Contents (Elt F)),
    StableHlo.unary main_v58 main_v59 (Host.exp : (⟨S8192x1024, .f32⟩ : BufTy).Contents (Elt F) → (⟨S8192x1024, .f32⟩ : BufTy).Contents (Elt F)),
    StableHlo.nullary main_cst_10 (constant S_ .f32 0x3F800000#32),
    StableHlo.unary main_cst_10 main_v60 (broadcastInDim S8192x1024 ![] bcast_S_S8192x1024 : (⟨S_, .f32⟩ : BufTy).Contents (Elt F) → (⟨S8192x1024, .f32⟩ : BufTy).Contents (Elt F)),
    StableHlo.binary main_v60 main_v59 main_v61 (addf : (⟨S8192x1024, .f32⟩ : BufTy).Contents (Elt F) → (⟨S8192x1024, .f32⟩ : BufTy).Contents (Elt F) → (⟨S8192x1024, .f32⟩ : BufTy).Contents (Elt F)),
    StableHlo.nullary main_cst_11 (constant S_ .f32 0x3F800000#32),
    StableHlo.unary main_cst_11 main_v62 (broadcastInDim S8192x1024 ![] bcast_S_S8192x1024 : (⟨S_, .f32⟩ : BufTy).Contents (Elt F) → (⟨S8192x1024, .f32⟩ : BufTy).Contents (Elt F)),
    StableHlo.binary main_v62 main_v61 main_v63 (Host.divf : (⟨S8192x1024, .f32⟩ : BufTy).Contents (Elt F) → (⟨S8192x1024, .f32⟩ : BufTy).Contents (Elt F) → (⟨S8192x1024, .f32⟩ : BufTy).Contents (Elt F)),
    StableHlo.binary main_v56 main_arg2 main_v64 (mulf : (⟨S8192x1024, .f32⟩ : BufTy).Contents (Elt F) → (⟨S8192x1024, .f32⟩ : BufTy).Contents (Elt F) → (⟨S8192x1024, .f32⟩ : BufTy).Contents (Elt F)),
    StableHlo.binary main_v50 main_v57 main_v65 (mulf : (⟨S8192x1024, .f32⟩ : BufTy).Contents (Elt F) → (⟨S8192x1024, .f32⟩ : BufTy).Contents (Elt F) → (⟨S8192x1024, .f32⟩ : BufTy).Contents (Elt F)),
    StableHlo.binary main_v64 main_v65 main_v66 (addf : (⟨S8192x1024, .f32⟩ : BufTy).Contents (Elt F) → (⟨S8192x1024, .f32⟩ : BufTy).Contents (Elt F) → (⟨S8192x1024, .f32⟩ : BufTy).Contents (Elt F)),
    StableHlo.nullary main_cst_12 (constant S_ .f32 0x00000000#32),
    StableHlo.binary main_v66 main_cst_12 main_v67 ((fun x v => Host.reduceAdd x v reducesTo_S8192x1024_S8192_d1 h_S_) : (⟨S8192x1024, .f32⟩ : BufTy).Contents (Elt F) → (⟨S_, .f32⟩ : BufTy).Contents (Elt F) → (⟨S8192, .f32⟩ : BufTy).Contents (Elt F)),
    StableHlo.unary main_v67 main_v68 (broadcastInDim S8192x1 ![0] bcast_S8192_S8192x1_0 : (⟨S8192, .f32⟩ : BufTy).Contents (Elt F) → (⟨S8192x1, .f32⟩ : BufTy).Contents (Elt F)),
    StableHlo.nullary main_cst_13 (constant S_ .f32 0x44800000#32),
    StableHlo.unary main_cst_13 main_v69 (broadcastInDim S8192x1 ![] bcast_S_S8192x1 : (⟨S_, .f32⟩ : BufTy).Contents (Elt F) → (⟨S8192x1, .f32⟩ : BufTy).Contents (Elt F)),
    StableHlo.binary main_v68 main_v69 main_v70 (Host.divf : (⟨S8192x1, .f32⟩ : BufTy).Contents (Elt F) → (⟨S8192x1, .f32⟩ : BufTy).Contents (Elt F) → (⟨S8192x1, .f32⟩ : BufTy).Contents (Elt F)),
    StableHlo.nullary main_c_14 (constantI S_ 32 0#32),
    StableHlo.nullary main_call2_cst (constant S_ .f32 0x00000000#32),
    StableHlo.binary main_v66 main_call2_cst main_call2_v0 ((fun x v => Host.reduceAdd x v reducesTo_S8192x1024_S8192_d1 h_S_) : (⟨S8192x1024, .f32⟩ : BufTy).Contents (Elt F) → (⟨S_, .f32⟩ : BufTy).Contents (Elt F) → (⟨S8192, .f32⟩ : BufTy).Contents (Elt F)),
    StableHlo.unary main_call2_v0 main_call2_v1 ((broadcastInDim S8192x1 ![0] bcast_S8192_S8192x1_0) : (⟨S8192, .f32⟩ : BufTy).Contents (Elt F) → (⟨S8192x1, .f32⟩ : BufTy).Contents (Elt F)),
    StableHlo.nullary main_call2_cst_0 (constant S_ .f32 0x44800000#32),
    StableHlo.unary main_call2_cst_0 main_call2_v2 ((broadcastInDim S8192x1 ![] bcast_S_S8192x1) : (⟨S_, .f32⟩ : BufTy).Contents (Elt F) → (⟨S8192x1, .f32⟩ : BufTy).Contents (Elt F)),
    StableHlo.binary main_call2_v1 main_call2_v2 main_call2_v3 (Host.divf : (⟨S8192x1, .f32⟩ : BufTy).Contents (Elt F) → (⟨S8192x1, .f32⟩ : BufTy).Contents (Elt F) → (⟨S8192x1, .f32⟩ : BufTy).Contents (Elt F)),
    StableHlo.unary main_call2_v3 main_call2_v4 ((broadcastInDim S8192x1024 ![0, 1] bcast_S8192x1_S8192x1024_0_1) : (⟨S8192x1, .f32⟩ : BufTy).Contents (Elt F) → (⟨S8192x1024, .f32⟩ : BufTy).Contents (Elt F)),
    StableHlo.binary main_v66 main_call2_v4 main_call2_v5 (subf : (⟨S8192x1024, .f32⟩ : BufTy).Contents (Elt F) → (⟨S8192x1024, .f32⟩ : BufTy).Contents (Elt F) → (⟨S8192x1024, .f32⟩ : BufTy).Contents (Elt F)),
    StableHlo.binary main_call2_v5 main_call2_v5 main_call2_v6 (mulf : (⟨S8192x1024, .f32⟩ : BufTy).Contents (Elt F) → (⟨S8192x1024, .f32⟩ : BufTy).Contents (Elt F) → (⟨S8192x1024, .f32⟩ : BufTy).Contents (Elt F)),
    StableHlo.unary main_c_14 main_call2_v7 ((sitofp .f32) : (⟨S_, .i32⟩ : BufTy).Contents (Elt F) → (⟨S_, .f32⟩ : BufTy).Contents (Elt F)),
    StableHlo.nullary main_call2_cst_1 (constant S_ .f32 0x44800000#32),
    StableHlo.binary main_call2_cst_1 main_call2_v7 main_call2_v8 (subf : (⟨S_, .f32⟩ : BufTy).Contents (Elt F) → (⟨S_, .f32⟩ : BufTy).Contents (Elt F) → (⟨S_, .f32⟩ : BufTy).Contents (Elt F)),
    StableHlo.nullary main_call2_cst_2 (constant S_ .f32 0x00000000#32),
    StableHlo.binary main_call2_v6 main_call2_cst_2 main_call2_v9 ((fun x v => Host.reduceAdd x v reducesTo_S8192x1024_S8192_d1 h_S_) : (⟨S8192x1024, .f32⟩ : BufTy).Contents (Elt F) → (⟨S_, .f32⟩ : BufTy).Contents (Elt F) → (⟨S8192, .f32⟩ : BufTy).Contents (Elt F)),
    StableHlo.unary main_call2_v9 main_call2_v10 ((broadcastInDim S8192x1 ![0] bcast_S8192_S8192x1_0) : (⟨S8192, .f32⟩ : BufTy).Contents (Elt F) → (⟨S8192x1, .f32⟩ : BufTy).Contents (Elt F)),
    StableHlo.unary main_call2_v8 main_call2_v11 ((broadcastInDim S8192x1 ![] bcast_S_S8192x1) : (⟨S_, .f32⟩ : BufTy).Contents (Elt F) → (⟨S8192x1, .f32⟩ : BufTy).Contents (Elt F)),
    StableHlo.binary main_call2_v10 main_call2_v11 main_call2_v12 (Host.divf : (⟨S8192x1, .f32⟩ : BufTy).Contents (Elt F) → (⟨S8192x1, .f32⟩ : BufTy).Contents (Elt F) → (⟨S8192x1, .f32⟩ : BufTy).Contents (Elt F)),
    StableHlo.nullary main_call2_cst_3 (constant S_ .f32 0x00000000#32),
    StableHlo.binary main_call2_v8 main_call2_cst_3 main_call2_v13 ((cmpf .ogt) : (⟨S_, .f32⟩ : BufTy).Contents (Elt F) → (⟨S_, .f32⟩ : BufTy).Contents (Elt F) → (⟨S_, .i1⟩ : BufTy).Contents (Elt F)),
    StableHlo.nullary main_call2_cst_4 (constant S_ .f32 0x7FC00000#32),
    StableHlo.unary main_call2_cst_4 main_call2_call0_v0 (id : (⟨S_, .f32⟩ : BufTy).Contents (Elt F) → (⟨S_, .f32⟩ : BufTy).Contents (Elt F)),
    StableHlo.unary main_call2_call0_v0 main_call2_call0_v1 ((broadcastInDim S8192x1 ![] bcast_S_S8192x1) : (⟨S_, .f32⟩ : BufTy).Contents (Elt F) → (⟨S8192x1, .f32⟩ : BufTy).Contents (Elt F)),
    StableHlo.ternary main_call2_v13 main_call2_v12 main_call2_call0_v1 main_v71 ((fun p a b => select (broadcastInDim S8192x1 ![] bcast_S_S8192x1 p) a b) : (⟨S_, .i1⟩ : BufTy).Contents (Elt F) → (⟨S8192x1, .f32⟩ : BufTy).Contents (Elt F) → (⟨S8192x1, .f32⟩ : BufTy).Contents (Elt F) → (⟨S8192x1, .f32⟩ : BufTy).Contents (Elt F)),
    StableHlo.unary main_v70 main_v72 (broadcastInDim S8192x1024 ![0, 1] bcast_S8192x1_S8192x1024_0_1 : (⟨S8192x1, .f32⟩ : BufTy).Contents (Elt F) → (⟨S8192x1024, .f32⟩ : BufTy).Contents (Elt F)),
    StableHlo.binary main_v66 main_v72 main_v73 (subf : (⟨S8192x1024, .f32⟩ : BufTy).Contents (Elt F) → (⟨S8192x1024, .f32⟩ : BufTy).Contents (Elt F) → (⟨S8192x1024, .f32⟩ : BufTy).Contents (Elt F)),
    StableHlo.nullary main_cst_15 (constant S_ .f32 0x3727C5AC#32),
    StableHlo.unary main_cst_15 main_v74 (broadcastInDim S8192x1 ![] bcast_S_S8192x1 : (⟨S_, .f32⟩ : BufTy).Contents (Elt F) → (⟨S8192x1, .f32⟩ : BufTy).Contents (Elt F)),
    StableHlo.binary main_v71 main_v74 main_v75 (addf : (⟨S8192x1, .f32⟩ : BufTy).Contents (Elt F) → (⟨S8192x1, .f32⟩ : BufTy).Contents (Elt F) → (⟨S8192x1, .f32⟩ : BufTy).Contents (Elt F)),
    StableHlo.unary main_v75 main_v76 (Host.rsqrt : (⟨S8192x1, .f32⟩ : BufTy).Contents (Elt F) → (⟨S8192x1, .f32⟩ : BufTy).Contents (Elt F)),
    StableHlo.unary main_v76 main_v77 (broadcastInDim S8192x1024 ![0, 1] bcast_S8192x1_S8192x1024_0_1 : (⟨S8192x1, .f32⟩ : BufTy).Contents (Elt F) → (⟨S8192x1024, .f32⟩ : BufTy).Contents (Elt F)),
    StableHlo.binary main_v73 main_v77 main_v78 (mulf : (⟨S8192x1024, .f32⟩ : BufTy).Contents (Elt F) → (⟨S8192x1024, .f32⟩ : BufTy).Contents (Elt F) → (⟨S8192x1024, .f32⟩ : BufTy).Contents (Elt F)),
    StableHlo.unary main_arg9 main_v79 (broadcastInDim S1x1024 ![1] bcast_S1024_S1x1024_1 : (⟨S1024, .f32⟩ : BufTy).Contents (Elt F) → (⟨S1x1024, .f32⟩ : BufTy).Contents (Elt F)),
    StableHlo.unary main_v79 main_v80 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v78 main_v80 main_v81 (mulf : (⟨S8192x1024, .f32⟩ : BufTy).Contents (Elt F) → (⟨S8192x1024, .f32⟩ : BufTy).Contents (Elt F) → (⟨S8192x1024, .f32⟩ : BufTy).Contents (Elt F)),
    StableHlo.unary main_arg10 main_v82 (broadcastInDim S1x1024 ![1] bcast_S1024_S1x1024_1 : (⟨S1024, .f32⟩ : BufTy).Contents (Elt F) → (⟨S1x1024, .f32⟩ : BufTy).Contents (Elt F)),
    StableHlo.unary main_v82 main_v83 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v81 main_v83 main_v84 (addf : (⟨S8192x1024, .f32⟩ : BufTy).Contents (Elt F) → (⟨S8192x1024, .f32⟩ : BufTy).Contents (Elt F) → (⟨S8192x1024, .f32⟩ : BufTy).Contents (Elt F)),
    StableHlo.unary main_v84 main_v85 (Host.tanh : (⟨S8192x1024, .f32⟩ : BufTy).Contents (Elt F) → (⟨S8192x1024, .f32⟩ : BufTy).Contents (Elt F)),
    StableHlo.binary main_v63 main_v85 main_v86 (mulf : (⟨S8192x1024, .f32⟩ : BufTy).Contents (Elt F) → (⟨S8192x1024, .f32⟩ : BufTy).Contents (Elt F) → (⟨S8192x1024, .f32⟩ : BufTy).Contents (Elt F)) ]

/-- Each operation touches TensorCore buffers only. -/
theorem ops_sub : (ops : List (HloOp τ sig (Elt F))).Forall fun op => op.bufs ⊆ tcRefs τ sig :=
  ⟨unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., binary_bufs_sub ..⟩

end Cert.ReferenceIdeal.RefRun

end
-- ==== Proof.RefRun.lean ====
/-
  The reference program's run: @main is the straight line of its operations (the module-local functions unfolded at
  their calls, sequencing re-associated), so every weakly fair execution terminates with each buffer at the fold of
  the operations' results over its launch contents.
-/
import proofs.«410985_j10685878632881_3_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- @main is that straight line. -/
theorem main_eq (c : Dev nD) : main (F := F) c = seq ops := by
  simp only [main, main_part0, main_part1, fn_var.body, fn_var_0.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- From any memory with zero counters every weakly fair execution of @main terminates, and every final state has
    each buffer at the operations' fold over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefArr.lean ====
/-
  What the reference computes, as whole-array terms over the host operations, stage by stage: the gate
  pre-activations `x · Wᵀ`; a row mean (`Σ / N`); the two-pass variance jnp's `var` spells (the squared deviations
  summed, over `N - ddof` with `ddof = 0`, kept where `N - ddof > 0` and NaN elsewhere); the layer norm; the
  sigmoid as `1 / (1 + e^(-x))`; the four gate slices; the cell; the two results.
-/
import proofs.«410985_j10685878632881_3_alg».proof.Proof.Gen.ReferenceIdeal

noncomputable section

namespace Cert.ReferenceIdeal.RefArr

open Cert.ReferenceIdeal Cert.ReferenceIdeal.Gen Idealize.ShloMosaic

variable {F : FTy → Type} [FloatOps F]

/-- Gate pre-activations: the batch against the transposed weights. -/
def pre (x : FVec F S8192x1024 .f32) (W : FVec F S4096x1024 .f32) : FVec F S8192x4096 .f32 :=
  Host.dotGeneral dot_S8192x1024_S1024x4096_S8192x4096_1_0_0_1_n_n none x (transpose S1024x4096 [1, 0] W transposes_S4096x1024_S1024x4096_1_0)

/-! ### Over the 4096 gate columns -/

/-- Row means, as a column. -/
def mean4 (g : FVec F S8192x4096 .f32) : FVec F S8192x1 .f32 :=
  Host.divf (broadcastInDim S8192x1 ![0] bcast_S8192_S8192x1_0 (Host.reduceAdd g (constant S_ .f32 0x00000000#32) reducesTo_S8192x4096_S8192_d1 h_S_))
    (broadcastInDim S8192x1 ![] bcast_S_S8192x1 (constant S_ .f32 0x45800000#32))

/-- The count less the degrees of freedom: `4096 - 0`. -/
def dof4 : FVec F S_ .f32 := subf (constant S_ .f32 0x45800000#32) (sitofp .f32 (constantI S_ 32 0#32))

/-- The deviations from the row mean. -/
def dev4 (g : FVec F S8192x4096 .f32) : FVec F S8192x4096 .f32 :=
  subf g (broadcastInDim S8192x4096 ![0, 1] bcast_S8192x1_S8192x4096_0_1 (mean4 g))

/-- Row variances (two-pass), as a column. -/
def var4 (g : FVec F S8192x4096 .f32) : FVec F S8192x1 .f32 :=
  select (broadcastInDim S8192x1 ![] bcast_S_S8192x1 (cmpf .ogt (dof4 (F := F)) (constant S_ .f32 0x00000000#32)))
    (Host.divf (broadcastInDim S8192x1 ![0] bcast_S8192_S8192x1_0 (Host.reduceAdd (mulf (dev4 g) (dev4 g)) (constant S_ .f32 0x00000000#32) reducesTo_S8192x4096_S8192_d1 h_S_))
      (broadcastInDim S8192x1 ![] bcast_S_S8192x1 (dof4 (F := F))))
    (broadcastInDim S8192x1 ![] bcast_S_S8192x1 (id (constant S_ .f32 0x7FC00000#32)))

/-- Layer norm over the gate columns. -/
def ln4 (g : FVec F S8192x4096 .f32) (w b : FVec F S4096 .f32) : FVec F S8192x4096 .f32 :=
  addf (mulf (mulf (dev4 g)
        (broadcastInDim S8192x4096 ![0, 1] bcast_S8192x1_S8192x4096_0_1
          (Host.rsqrt (addf (var4 g) (broadcastInDim S8192x1 ![] bcast_S_S8192x1 (constant S_ .f32 0x3727C5AC#32))))))
      (broadcastInDim S8192x4096 ![0, 1] bcast_S1x4096_S8192x4096_0_1 (broadcastInDim S1x4096 ![1] bcast_S4096_S1x4096_1 w)))
    (broadcastInDim S8192x4096 ![0, 1] bcast_S1x4096_S8192x4096_0_1 (broadcastInDim S1x4096 ![1] bcast_S4096_S1x4096_1 b))

/-- The gates: the two normalised pre-activations, added. -/
def gates (a0 a1 : FVec F S8192x1024 .f32) (a3 a4 : FVec F S4096x1024 .f32) (a5 a6 a7 a8 : FVec F S4096 .f32) : FVec F S8192x4096 .f32 :=
  addf (ln4 (pre a0 a3) a5 a6) (ln4 (pre a1 a4) a7 a8)

/-! ### Over the 1024 hidden columns -/

def mean1 (g : FVec F S8192x1024 .f32) : FVec F S8192x1 .f32 :=
  Host.divf (broadcastInDim S8192x1 ![0] bcast_S8192_S8192x1_0 (Host.reduceAdd g (constant S_ .f32 0x00000000#32) reducesTo_S8192x1024_S8192_d1 h_S_))
    (broadcastInDim S8192x1 ![] bcast_S_S8192x1 (constant S_ .f32 0x44800000#32))

def dof1 : FVec F S_ .f32 := subf (constant S_ .f32 0x44800000#32) (sitofp .f32 (constantI S_ 32 0#32))

def dev1 (g : FVec F S8192x1024 .f32) : FVec F S8192x1024 .f32 :=
  subf g (broadcastInDim S8192x1024 ![0, 1] bcast_S8192x1_S8192x1024_0_1 (mean1 g))

def var1 (g : FVec F S8192x1024 .f32) : FVec F S8192x1 .f32 :=
  select (broadcastInDim S8192x1 ![] bcast_S_S8192x1 (cmpf .ogt (dof1 (F := F)) (constant S_ .f32 0x00000000#32)))
    (Host.divf (broadcastInDim S8192x1 ![0] bcast_S8192_S8192x1_0 (Host.reduceAdd (mulf (dev1 g) (dev1 g)) (constant S_ .f32 0x00000000#32) reducesTo_S8192x1024_S8192_d1 h_S_))
      (broadcastInDim S8192x1 ![] bcast_S_S8192x1 (dof1 (F := F))))
    (broadcastInDim S8192x1 ![] bcast_S_S8192x1 (id (constant S_ .f32 0x7FC00000#32)))

def ln1 (g : FVec F S8192x1024 .f32) (w b : FVec F S1024 .f32) : FVec F S8192x1024 .f32 :=
  addf (mulf (mulf (dev1 g)
        (broadcastInDim S8192x1024 ![0, 1] bcast_S8192x1_S8192x1024_0_1
          (Host.rsqrt (addf (var1 g) (broadcastInDim S8192x1 ![] bcast_S_S8192x1 (constant S_ .f32 0x3727C5AC#32))))))
      (broadcastInDim S8192x1024 ![0, 1] bcast_S1x1024_S8192x1024_0_1 (broadcastInDim S1x1024 ![1] bcast_S1024_S1x1024_1 w)))
    (broadcastInDim S8192x1024 ![0, 1] bcast_S1x1024_S8192x1024_0_1 (broadcastInDim S1x1024 ![1] bcast_S1024_S1x1024_1 b))

/-- The sigmoid, as jax spells it on the host: `1 / (1 + e^(-x))`. -/
def sigm (x : FVec F S8192x1024 .f32) : FVec F S8192x1024 .f32 :=
  Host.divf (broadcastInDim S8192x1024 ![] bcast_S_S8192x1024 (constant S_ .f32 0x3F800000#32))
    (addf (broadcastInDim S8192x1024 ![] bcast_S_S8192x1024 (constant S_ .f32 0x3F800000#32)) (Host.exp (Host.negf x)))

/-- The cell before its norm: `σ(f) · c + σ(i) · tanh(g)` of the gate slices. -/
def cell (g : FVec F S8192x4096 .f32) (cx : FVec F S8192x1024 .f32) : FVec F S8192x1024 .f32 :=
  addf (mulf (sigm (extractStridedSlice S8192x1024 ![0, 1024] g slices_S8192x4096_S8192x1024_0_1024)) cx)
    (mulf (sigm (extractStridedSlice S8192x1024 ![0, 0] g slices_S8192x4096_S8192x1024_0_0))
      (Host.tanh (extractStridedSlice S8192x1024 ![0, 2048] g slices_S8192x4096_S8192x1024_0_2048)))

/-- The new cell state. -/
def cy (a0 a1 a2 : FVec F S8192x1024 .f32) (a3 a4 : FVec F S4096x1024 .f32) (a5 a6 a7 a8 : FVec F S4096 .f32)
    (a9 a10 : FVec F S1024 .f32) : FVec F S8192x1024 .f32 :=
  ln1 (cell (gates a0 a1 a3 a4 a5 a6 a7 a8) a2) a9 a10

/-- The new hidden state. -/
def hy (a0 a1 a2 : FVec F S8192x1024 .f32) (a3 a4 : FVec F S4096x1024 .f32) (a5 a6 a7 a8 : FVec F S4096 .f32)
    (a9 a10 : FVec F S1024 .f32) : FVec F S8192x1024 .f32 :=
  mulf (sigm (extractStridedSlice S8192x1024 ![0, 3072] (gates a0 a1 a3 a4 a5 a6 a7 a8) slices_S8192x4096_S8192x1024_0_3072))
    (Host.tanh (cy a0 a1 a2 a3 a4 a5 a6 a7 a8 a9 a10))

end Cert.ReferenceIdeal.RefArr

end
-- ==== Proof.RefTerm.lean ====
import proofs.«410985_j10685878632881_3_alg».proof.Proof.RefOps
import proofs.«410985_j10685878632881_3_alg».proof.Proof.RefArr

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/- Reading the fold at one buffer: each operation's result at its own buffer is its function of the contents it
   reads, and at every other buffer what was there before; the buffers are told apart as references. Unrolled from
   the last operation backwards this composes the operations into one term over the argument buffers' contents:
   two layer norms of the two products `x · Wᵀ` added, the four column slices, the three sigmoids and the tanh,
   the cell `σ(f) · c + σ(i) · tanh(g)`, its layer norm, and `σ(o) · tanh` of that. The composed term and the
   stage-by-stage definition differ only by unfolding the stages (and the β-step at each `select`, whose predicate
   is broadcast inside the operation's function), so they are equal by computation. The term is deep (each
   product is read by its mean, its deviations twice and its variance), hence the raised bounds. -/

set_option maxRecDepth 16384 in
set_option maxHeartbeats 4000000 in
/-- The fold of @main's operations at the second result's buffer is the new cell state of the argument buffers. -/
theorem after_v84 (V : Valuation τ sig (Elt F)) :
    after ops V (main_v84 : DevRef τ sig)
      = RefArr.cy (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) (V (main_arg7 : DevRef τ sig))
          (V (main_arg8 : DevRef τ sig)) (V (main_arg9 : DevRef τ sig)) (V (main_arg10 : DevRef τ sig)) := by
  after_results_simp
  rfl

set_option maxRecDepth 16384 in
set_option maxHeartbeats 4000000 in
/-- … and at the first result's buffer the new hidden state. -/
theorem after_v86 (V : Valuation τ sig (Elt F)) :
    after ops V (main_v86 : DevRef τ sig)
      = RefArr.hy (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) (V (main_arg7 : DevRef τ sig))
          (V (main_arg8 : DevRef τ sig)) (V (main_arg9 : DevRef τ sig)) (V (main_arg10 : DevRef τ sig)) := by
  after_results_simp
  rfl

/- An argument's buffer is the result buffer of none of the 171 operations, so each leaves it as it was. -/
set_option maxRecDepth 8192
set_option maxHeartbeats 4000000

/-- No operation writes an argument's buffer. -/
theorem after_arg0 (V : Valuation τ sig (Elt F)) : after ops V (main_arg0 : DevRef τ sig) = V (main_arg0 : DevRef τ sig) := by after_results_simp
theorem after_arg1 (V : Valuation τ sig (Elt F)) : after ops V (main_arg1 : DevRef τ sig) = V (main_arg1 : DevRef τ sig) := by after_results_simp
theorem after_arg2 (V : Valuation τ sig (Elt F)) : after ops V (main_arg2 : DevRef τ sig) = V (main_arg2 : DevRef τ sig) := by after_results_simp
theorem after_arg3 (V : Valuation τ sig (Elt F)) : after ops V (main_arg3 : DevRef τ sig) = V (main_arg3 : DevRef τ sig) := by after_results_simp
theorem after_arg4 (V : Valuation τ sig (Elt F)) : after ops V (main_arg4 : DevRef τ sig) = V (main_arg4 : DevRef τ sig) := by after_results_simp
theorem after_arg5 (V : Valuation τ sig (Elt F)) : after ops V (main_arg5 : DevRef τ sig) = V (main_arg5 : DevRef τ sig) := by after_results_simp
theorem after_arg6 (V : Valuation τ sig (Elt F)) : after ops V (main_arg6 : DevRef τ sig) = V (main_arg6 : DevRef τ sig) := by after_results_simp
theorem after_arg7 (V : Valuation τ sig (Elt F)) : after ops V (main_arg7 : DevRef τ sig) = V (main_arg7 : DevRef τ sig) := by after_results_simp
theorem after_arg8 (V : Valuation τ sig (Elt F)) : after ops V (main_arg8 : DevRef τ sig) = V (main_arg8 : DevRef τ sig) := by after_results_simp
theorem after_arg9 (V : Valuation τ sig (Elt F)) : after ops V (main_arg9 : DevRef τ sig) = V (main_arg9 : DevRef τ sig) := by after_results_simp
theorem after_arg10 (V : Valuation τ sig (Elt F)) : after ops V (main_arg10 : DevRef τ sig) = V (main_arg10 : DevRef τ sig) := by after_results_simp

end Cert.ReferenceIdeal.RefRun

end
-- ==== Proof.RefReadLn.lean ====
import proofs.«410985_j10685878632881_3_alg».proof.Proof.RefArr
import proofs.«410985_j10685878632881_3_alg».proof.Proof.ArraySpec
import Idealize.ShloMosaic.Lib.ValueIdx
import Idealize.ShloMosaic.Lib.IdealHost
import Idealize.ShloMosaic.Lib.Pipeline.Value
import Idealize.ShloMosaic.PureOps.Ideal.Laws

noncomputable section

namespace Cert.ReferenceIdeal.RefRead

open Cert.ReferenceIdeal Cert.ReferenceIdeal.Gen Idealize.ShloMosaic Idealize.ShloMosaic.TcCoe Idealize.SL.Sem Idealize.ShloMosaic.StableHlo Idealize.ShloMosaic.ValueIdx Cert.LstmRow Cert.LstmArr

/-- A column `[8192]` spread to `[8192, 1]` reads its row's entry. -/
private theorem col_apply (x : FVec Ideal S8192 .f32) (r : Fin 8192) :
    broadcastInDim S8192x1 ![0] bcast_S8192_S8192x1_0 x (ix2 r (0 : Fin 1)) = x (ix1 r) := by
  refine broadcastInDim_apply _ _ x _ (ix1 r) fun a => ?_
  match a with
  | ⟨0, _⟩ => rfl

/-- The host's reciprocal square root at an index is the extended reals' `x ↦ x^(-1/2)` of the element. -/
private theorem hostRsqrt_apply {s : Shape} (x : FVec Ideal s .f32) (i : s.Idx) :
    Host.rsqrt x i = Ideal.rsqrt (x i) := rfl

/-! ### Over the 4096 gate columns -/

/-- The host's row reduction read at row `r`: the sum of the row's entries (the initial value is `0`). -/
private theorem rowSum4 (x : FVec Ideal S8192x4096 .f32) (r : Fin 8192) :
    Host.reduceAdd x (constant (F := Ideal) S_ .f32 0x00000000#32) reducesTo_S8192x4096_S8192_d1 h_S_ (ix1 r)
      = ∑ k : Fin 4096, x (ix2 r k) := by
  rw [hostReduceAdd_apply, Ideal.hostReduceAdd_single reducesTo_S8192x4096_S8192_d1 (by decide), constant_apply,
    Ideal.ofBits_zero_f32, zero_add]
  refine Finset.sum_congr rfl fun k _ => congrArg x (funext fun a => ?_)
  match a with
  | ⟨0, _⟩ => exact Fin.ext rfl
  | ⟨1, _⟩ => exact Fin.ext rfl

/-- The row means, read at row `r`: the row's sum over `4096`. -/
private theorem mean4_apply (g : FVec Ideal S8192x4096 .f32) (r : Fin 8192) :
    RefArr.mean4 (F := Ideal) g (ix2 r (0 : Fin 1)) = mean w4096 (fun k : Fin 4096 => g (ix2 r k)) := by
  unfold RefArr.mean4 mean
  rw [hostDivf_apply, col_apply, rowSum4, broadcastInDim_scalar_apply, constant_apply]

/-- The f32 word `0x45800000` is the real `4096`. -/
private theorem w4096_eq : w4096 = ((4096 : ℝ) : EReal) := by
  simp [Ideal.ofBits, Ideal.ieee, -EReal.coe_mul]; norm_num

/-- `4096` is positive. -/
private theorem w4096_pos : (0 : EReal) < w4096 := by
  rw [w4096_eq]; exact EReal.coe_pos.mpr (by norm_num)

/-- The count less zero degrees of freedom is the count: the integer word `0` converts to the real `0`. -/
private theorem dof4_apply : RefArr.dof4 (F := Ideal) ix0 = w4096 := by
  unfold RefArr.dof4
  rw [subf_apply, constant_apply, sitofp_apply]
  show w4096 - ((((0#32 : BitVec 32).toInt : ℝ)) : EReal) = w4096
  rw [BitVec.toInt_zero, Int.cast_zero, EReal.coe_zero, sub_zero]

/-- The count is positive, so the comparison `count > 0` sets its bit and the variance keeps the quotient. -/
private theorem dofPos4 :
    cmpf .ogt (RefArr.dof4 (F := Ideal)) (constant (F := Ideal) S_ .f32 0x00000000#32) ix0 = 1#1 := by
  rw [cmpf_apply, dof4_apply, constant_apply, Ideal.ofBits_zero_f32, Ideal.cmpf_def]
  show BitVec.ofBool (decide ((0 : EReal) < w4096)) = 1#1
  rw [decide_eq_true w4096_pos]; rfl

/-- A column `[8192, 1]` spread over the `4096` columns reads its row's entry. -/
private theorem spread4_apply (x : FVec Ideal S8192x1 .f32) (r : Fin 8192) (n : Fin 4096) :
    broadcastInDim S8192x4096 ![0, 1] bcast_S8192x1_S8192x4096_0_1 x (ix2 r n) = x (ix2 r (0 : Fin 1)) := by
  refine broadcastInDim_apply _ _ x _ (ix2 r (0 : Fin 1)) fun a => ?_
  match a with
  | ⟨0, _⟩ => rfl
  | ⟨1, _⟩ => rfl

/-- A vector `[4096]` spread first to one row `[1, 4096]` and then over the `8192` rows reads its column's entry. -/
private theorem rowVec4_apply (x : FVec Ideal S4096 .f32) (r : Fin 8192) (n : Fin 4096) :
    broadcastInDim S8192x4096 ![0, 1] bcast_S1x4096_S8192x4096_0_1 (broadcastInDim S1x4096 ![1] bcast_S4096_S1x4096_1 x) (ix2 r n)
      = x (ix1 n) := by
  refine (broadcastInDim_apply _ _ _ _ (ix2 (0 : Fin 1) n) fun a => ?_).trans
    (broadcastInDim_apply _ _ x _ (ix1 n) fun a => ?_)
  · match a with
    | ⟨0, _⟩ => rfl
    | ⟨1, _⟩ => rfl
  · match a with
    | ⟨0, _⟩ => rfl

/-- The deviation from the row mean, read at `(r, n)`. -/
private theorem dev4_apply (g : FVec Ideal S8192x4096 .f32) (r : Fin 8192) (n : Fin 4096) :
    RefArr.dev4 (F := Ideal) g (ix2 r n) = g (ix2 r n) - mean w4096 (fun k : Fin 4096 => g (ix2 r k)) := by
  unfold RefArr.dev4
  rw [subf_apply, spread4_apply, mean4_apply]

/-- The row variances, read at row `r`: the mean of the row's squared deviations from its mean. -/
private theorem var4_apply (g : FVec Ideal S8192x4096 .f32) (r : Fin 8192) :
    RefArr.var4 (F := Ideal) g (ix2 r (0 : Fin 1)) = varTwo 4096 w4096 (fun k : Fin 4096 => g (ix2 r k)) := by
  unfold RefArr.var4 varTwo
  rw [select_apply, broadcastInDim_scalar_apply, dofPos4, select_one, hostDivf_apply, col_apply, rowSum4,
    broadcastInDim_scalar_apply, dof4_apply]
  refine congrArg (fun s => Ideal.div s w4096) (Finset.sum_congr rfl fun k _ => ?_)
  rw [mulf_apply, dev4_apply]

/-- The reference's layer norm over the gate columns, read at `(r, n)`: the row function over the two-pass variance. -/
theorem ln4_apply (g : FVec Ideal S8192x4096 .f32) (w b : FVec Ideal S4096 .f32) (r : Fin 8192) (n : Fin 4096) :
    RefArr.ln4 (F := Ideal) g w b (ix2 r n)
      = lnRow varTwo w4096 (fun k : Fin 4096 => g (ix2 r k)) (fun k : Fin 4096 => w (ix1 k)) (fun k : Fin 4096 => b (ix1 k)) n := by
  unfold RefArr.ln4
  rw [addf_apply, mulf_apply, mulf_apply, dev4_apply, spread4_apply, hostRsqrt_apply, addf_apply, var4_apply,
    broadcastInDim_scalar_apply, constant_apply, rowVec4_apply, rowVec4_apply]
  rfl

/-! ### Over the 1024 hidden columns -/

/-- The host's row reduction read at row `r`: the sum of the row's entries (the initial value is `0`). -/
private theorem rowSum1 (x : FVec Ideal S8192x1024 .f32) (r : Fin 8192) :
    Host.reduceAdd x (constant (F := Ideal) S_ .f32 0x00000000#32) reducesTo_S8192x1024_S8192_d1 h_S_ (ix1 r)
      = ∑ k : Fin 1024, x (ix2 r k) := by
  rw [hostReduceAdd_apply, Ideal.hostReduceAdd_single reducesTo_S8192x1024_S8192_d1 (by decide), constant_apply,
    Ideal.ofBits_zero_f32, zero_add]
  refine Finset.sum_congr rfl fun k _ => congrArg x (funext fun a => ?_)
  match a with
  | ⟨0, _⟩ => exact Fin.ext rfl
  | ⟨1, _⟩ => exact Fin.ext rfl

/-- The row means, read at row `r`: the row's sum over `1024`. -/
private theorem mean1_apply (g : FVec Ideal S8192x1024 .f32) (r : Fin 8192) :
    RefArr.mean1 (F := Ideal) g (ix2 r (0 : Fin 1)) = mean w1024 (fun k : Fin 1024 => g (ix2 r k)) := by
  unfold RefArr.mean1 mean
  rw [hostDivf_apply, col_apply, rowSum1, broadcastInDim_scalar_apply, constant_apply]

/-- The f32 word `0x44800000` is the real `1024`. -/
private theorem w1024_eq : w1024 = ((1024 : ℝ) : EReal) := by
  simp [Ideal.ofBits, Ideal.ieee, -EReal.coe_mul]; norm_num

/-- `1024` is positive. -/
private theorem w1024_pos : (0 : EReal) < w1024 := by
  rw [w1024_eq]; exact EReal.coe_pos.mpr (by norm_num)

/-- The count less zero degrees of freedom is the count: the integer word `0` converts to the real `0`. -/
private theorem dof1_apply : RefArr.dof1 (F := Ideal) ix0 = w1024 := by
  unfold RefArr.dof1
  rw [subf_apply, constant_apply, sitofp_apply]
  show w1024 - ((((0#32 : BitVec 32).toInt : ℝ)) : EReal) = w1024
  rw [BitVec.toInt_zero, Int.cast_zero, EReal.coe_zero, sub_zero]

/-- The count is positive, so the comparison `count > 0` sets its bit and the variance keeps the quotient. -/
private theorem dofPos1 :
    cmpf .ogt (RefArr.dof1 (F := Ideal)) (constant (F := Ideal) S_ .f32 0x00000000#32) ix0 = 1#1 := by
  rw [cmpf_apply, dof1_apply, constant_apply, Ideal.ofBits_zero_f32, Ideal.cmpf_def]
  show BitVec.ofBool (decide ((0 : EReal) < w1024)) = 1#1
  rw [decide_eq_true w1024_pos]; rfl

/-- A column `[8192, 1]` spread over the `1024` columns reads its row's entry. -/
private theorem spread1_apply (x : FVec Ideal S8192x1 .f32) (r : Fin 8192) (n : Fin 1024) :
    broadcastInDim S8192x1024 ![0, 1] bcast_S8192x1_S8192x1024_0_1 x (ix2 r n) = x (ix2 r (0 : Fin 1)) := by
  refine broadcastInDim_apply _ _ x _ (ix2 r (0 : Fin 1)) fun a => ?_
  match a with
  | ⟨0, _⟩ => rfl
  | ⟨1, _⟩ => rfl

/-- A vector `[1024]` spread first to one row `[1, 1024]` and then over the `8192` rows reads its column's entry. -/
private theorem rowVec1_apply (x : FVec Ideal S1024 .f32) (r : Fin 8192) (n : Fin 1024) :
    broadcastInDim S8192x1024 ![0, 1] bcast_S1x1024_S8192x1024_0_1 (broadcastInDim S1x1024 ![1] bcast_S1024_S1x1024_1 x) (ix2 r n)
      = x (ix1 n) := by
  refine (broadcastInDim_apply _ _ _ _ (ix2 (0 : Fin 1) n) fun a => ?_).trans
    (broadcastInDim_apply _ _ x _ (ix1 n) fun a => ?_)
  · match a with
    | ⟨0, _⟩ => rfl
    | ⟨1, _⟩ => rfl
  · match a with
    | ⟨0, _⟩ => rfl

/-- The deviation from the row mean, read at `(r, n)`. -/
private theorem dev1_apply (g : FVec Ideal S8192x1024 .f32) (r : Fin 8192) (n : Fin 1024) :
    RefArr.dev1 (F := Ideal) g (ix2 r n) = g (ix2 r n) - mean w1024 (fun k : Fin 1024 => g (ix2 r k)) := by
  unfold RefArr.dev1
  rw [subf_apply, spread1_apply, mean1_apply]

/-- The row variances, read at row `r`: the mean of the row's squared deviations from its mean. -/
private theorem var1_apply (g : FVec Ideal S8192x1024 .f32) (r : Fin 8192) :
    RefArr.var1 (F := Ideal) g (ix2 r (0 : Fin 1)) = varTwo 1024 w1024 (fun k : Fin 1024 => g (ix2 r k)) := by
  unfold RefArr.var1 varTwo
  rw [select_apply, broadcastInDim_scalar_apply, dofPos1, select_one, hostDivf_apply, col_apply, rowSum1,
    broadcastInDim_scalar_apply, dof1_apply]
  refine congrArg (fun s => Ideal.div s w1024) (Finset.sum_congr rfl fun k _ => ?_)
  rw [mulf_apply, dev1_apply]

/-- … and over the hidden columns. -/
theorem ln1_apply (g : FVec Ideal S8192x1024 .f32) (w b : FVec Ideal S1024 .f32) (r : Fin 8192) (j : Fin 1024) :
    RefArr.ln1 (F := Ideal) g w b (ix2 r j)
      = lnRow varTwo w1024 (fun k : Fin 1024 => g (ix2 r k)) (fun k : Fin 1024 => w (ix1 k)) (fun k : Fin 1024 => b (ix1 k)) j := by
  unfold RefArr.ln1
  rw [addf_apply, mulf_apply, mulf_apply, dev1_apply, spread1_apply, hostRsqrt_apply, addf_apply, var1_apply,
    broadcastInDim_scalar_apply, constant_apply, rowVec1_apply, rowVec1_apply]
  rfl

end Cert.ReferenceIdeal.RefRead

end
-- ==== Proof.RefRead.lean ====
import proofs.«410985_j10685878632881_3_alg».proof.Proof.RefReadLn
import Idealize.ShloMosaic.Lib.ValueLayout
import Idealize.ShloMosaic.Lib.IdealHost

noncomputable section

namespace Cert.ReferenceIdeal.RefRead

open Cert.ReferenceIdeal Cert.ReferenceIdeal.Gen Idealize.ShloMosaic Idealize.ShloMosaic.TcCoe Idealize.SL.Sem Idealize.ShloMosaic.StableHlo Idealize.ShloMosaic.ValueIdx Cert.LstmRow Cert.LstmArr

/-! ### The product's operand indices, axis by axis

The product contracts axis 1 of the batch (its 1024 input coordinates) with axis 0 of the transposed weights; the
result's row is the batch's row and the result's column is the transposed weights' column. -/

/-- The batch operand is read on the result's row … -/
private theorem dot_lhs_row (j : S8192x4096.Idx) (k : dot_S8192x1024_S1024x4096_S8192x4096_1_0_0_1_n_n.contr.Idx) :
    (dot_S8192x1024_S1024x4096_S8192x4096_1_0_0_1_n_n.lhsIdx j k 0).val = (j 0).val := rfl

/-- … at the contracted coordinate. -/
private theorem dot_lhs_contracted (j : S8192x4096.Idx) (k : dot_S8192x1024_S1024x4096_S8192x4096_1_0_0_1_n_n.contr.Idx) :
    (dot_S8192x1024_S1024x4096_S8192x4096_1_0_0_1_n_n.lhsIdx j k 1).val = (k ⟨0, by decide⟩).val :=
  dot_S8192x1024_S1024x4096_S8192x4096_1_0_0_1_n_n.lhsIdx_val_of_single rfl j k

/-- The transposed weights are read at the contracted coordinate … -/
private theorem dot_rhs_contracted (j : S8192x4096.Idx) (k : dot_S8192x1024_S1024x4096_S8192x4096_1_0_0_1_n_n.contr.Idx) :
    (dot_S8192x1024_S1024x4096_S8192x4096_1_0_0_1_n_n.rhsIdx j k 0).val = (k ⟨0, by decide⟩).val :=
  dot_S8192x1024_S1024x4096_S8192x4096_1_0_0_1_n_n.rhsIdx_val_of_single rfl j k

/-- … on the result's column. -/
private theorem dot_rhs_col (j : S8192x4096.Idx) (k : dot_S8192x1024_S1024x4096_S8192x4096_1_0_0_1_n_n.contr.Idx) :
    (dot_S8192x1024_S1024x4096_S8192x4096_1_0_0_1_n_n.rhsIdx j k 1).val = (j 1).val := rfl

/-- The pre-activations at `(r, n)`: row `r` of the batch against row `n` of the weights. -/
theorem pre_apply (x : FVec Ideal S8192x1024 .f32) (W : FVec Ideal S4096x1024 .f32) (r : Fin 8192) (n : Fin 4096) :
    RefArr.pre (F := Ideal) x W (ix2 r n) = dotRow (fun k : Fin 1024 => x (ix2 r k)) (fun (n : Fin 4096) (k : Fin 1024) => W (ix2 n k)) n := by
  unfold RefArr.pre dotRow
  show FloatOps.dotGeneral dot_S8192x1024_S1024x4096_S8192x4096_1_0_0_1_n_n none _ x _ (ix2 r n) = _
  rw [Ideal.dotGeneral_apply,
    ← Equiv.sum_comp (contrEquiv1 dot_S8192x1024_S1024x4096_S8192x4096_1_0_0_1_n_n 1024 rfl rfl).symm]
  refine Finset.sum_congr rfl fun c _ => ?_
  have hc := contrEquiv1_symm_val dot_S8192x1024_S1024x4096_S8192x4096_1_0_0_1_n_n 1024 rfl rfl c
  have hl : dot_S8192x1024_S1024x4096_S8192x4096_1_0_0_1_n_n.lhsIdx (ix2 r n)
      ((contrEquiv1 dot_S8192x1024_S1024x4096_S8192x4096_1_0_0_1_n_n 1024 rfl rfl).symm c) = ix2 r c := by
    funext ax; apply Fin.ext
    match ax with
    | ⟨0, _⟩ => exact dot_lhs_row _ _
    | ⟨1, _⟩ => exact (dot_lhs_contracted _ _).trans hc
  have hr : dot_S8192x1024_S1024x4096_S8192x4096_1_0_0_1_n_n.rhsIdx (ix2 r n)
      ((contrEquiv1 dot_S8192x1024_S1024x4096_S8192x4096_1_0_0_1_n_n 1024 rfl rfl).symm c) = ix2 c n := by
    funext ax; apply Fin.ext
    match ax with
    | ⟨0, _⟩ => exact (dot_rhs_contracted _ _).trans hc
    | ⟨1, _⟩ => exact dot_rhs_col _ _
  rw [hl, hr]
  exact congrArg (x (ix2 r c) * ·) (transpose_ix2_apply W transposes_S4096x1024_S1024x4096_1_0 c n)

/-- jax's sigmoid on the host is the logistic function, entry by entry. -/
theorem sigm_apply (x : FVec Ideal S8192x1024 .f32) (i : S8192x1024.Idx) : RefArr.sigm (F := Ideal) x i = Ideal.logistic (x i) := by
  unfold RefArr.sigm
  show Ideal.div (broadcastInDim S8192x1024 ![] bcast_S_S8192x1024 (constant (F := Ideal) S_ .f32 0x3F800000#32) i)
      (broadcastInDim S8192x1024 ![] bcast_S_S8192x1024 (constant (F := Ideal) S_ .f32 0x3F800000#32) i + Ideal.exp (-(x i))) = _
  rw [broadcastInDim_scalar_apply, constant_apply, Ideal.ofBits_one_f32]
  rfl

/-- The cell before its norm at `(r, j)`. -/
theorem cell_apply (g : FVec Ideal S8192x4096 .f32) (cx : FVec Ideal S8192x1024 .f32) (r : Fin 8192) (j : Fin 1024) :
    RefArr.cell (F := Ideal) g cx (ix2 r j) = cellRow (fun n : Fin 4096 => g (ix2 r n)) (fun k : Fin 1024 => cx (ix2 r k)) j := by
  have hf := slice2_axis1_apply 1024 g slices_S8192x4096_S8192x1024_0_1024 r j (gcol 1 j) (by simp [gcol])
  have hi := slice2_axis1_apply 0 g slices_S8192x4096_S8192x1024_0_0 r j (gcol 0 j) (by simp [gcol])
  have hg := slice2_axis1_apply 2048 g slices_S8192x4096_S8192x1024_0_2048 r j (gcol 2 j) (by simp [gcol])
  unfold RefArr.cell cellRow
  rw [addf_apply, mulf_apply, mulf_apply, sigm_apply, sigm_apply, hf, hi]
  show _ + _ * Ideal.tanh (extractStridedSlice S8192x1024 ![0, 2048] g slices_S8192x4096_S8192x1024_0_2048 (ix2 r j)) = _
  rw [hg]

/-- The gates at `(r, n)`: the two normalised pre-activation rows of row `r`, added. -/
private theorem gates_apply (a0 a1 : FVec Ideal S8192x1024 .f32) (a3 a4 : FVec Ideal S4096x1024 .f32)
    (a5 a6 a7 a8 : FVec Ideal S4096 .f32) (r : Fin 8192) (n : Fin 4096) :
    RefArr.gates (F := Ideal) a0 a1 a3 a4 a5 a6 a7 a8 (ix2 r n)
      = gatesRow varTwo (rowOf a0 r) (rowOf a1 r) (matOf a3) (matOf a4) (vecG a5) (vecG a6) (vecG a7) (vecG a8) n := by
  unfold RefArr.gates gatesRow
  rw [addf_apply, ln4_apply, ln4_apply]
  simp only [pre_apply]
  rfl

/-- The reference's new cell state is the array-level specification over the two-pass variance. -/
theorem cy_eq (a0 a1 a2 : FVec Ideal S8192x1024 .f32) (a3 a4 : FVec Ideal S4096x1024 .f32) (a5 a6 a7 a8 : FVec Ideal S4096 .f32) (a9 a10 : FVec Ideal S1024 .f32) :
    RefArr.cy (F := Ideal) a0 a1 a2 a3 a4 a5 a6 a7 a8 a9 a10 = Gcy varTwo a0 a1 a2 a3 a4 a5 a6 a7 a8 a9 a10 := by
  funext i
  obtain ⟨r, j, rfl⟩ : ∃ (r : Fin 8192) (j : Fin 1024), i = ix2 r j := ⟨i 0, i 1, eq_ix2 i⟩
  unfold RefArr.cy Gcy cyRow
  rw [ln1_apply]
  simp only [cell_apply, gates_apply]
  rfl

/-- … and its new hidden state. -/
theorem hy_eq (a0 a1 a2 : FVec Ideal S8192x1024 .f32) (a3 a4 : FVec Ideal S4096x1024 .f32) (a5 a6 a7 a8 : FVec Ideal S4096 .f32) (a9 a10 : FVec Ideal S1024 .f32) :
    RefArr.hy (F := Ideal) a0 a1 a2 a3 a4 a5 a6 a7 a8 a9 a10 = Ghy varTwo a0 a1 a2 a3 a4 a5 a6 a7 a8 a9 a10 := by
  funext i
  obtain ⟨r, j, rfl⟩ : ∃ (r : Fin 8192) (j : Fin 1024), i = ix2 r j := ⟨i 0, i 1, eq_ix2 i⟩
  have ho := slice2_axis1_apply 3072 (RefArr.gates (F := Ideal) a0 a1 a3 a4 a5 a6 a7 a8) slices_S8192x4096_S8192x1024_0_3072 r j (gcol 3 j) (by simp [gcol])
  unfold RefArr.hy Ghy hyRow
  rw [mulf_apply, sigm_apply, ho, gates_apply]
  show _ * Ideal.tanh (RefArr.cy (F := Ideal) a0 a1 a2 a3 a4 a5 a6 a7 a8 a9 a10 (ix2 r j)) = _
  rw [cy_eq]
  rfl

end Cert.ReferenceIdeal.RefRead

end
-- ==== Proof.KerLn.lean ====
import proofs.«410985_j10685878632881_3_alg».proof.Proof.Gen.KernelIdeal.Skeleton
import proofs.«410985_j10685878632881_3_alg».proof.Proof.ArraySpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KerVal

open Cert.KernelIdeal Cert.KernelIdeal.Gen Idealize.ShloMosaic Idealize.ShloMosaic.TcCoe Idealize.SL.Sem Idealize.ShloMosaic.ValueIdx Cert.LstmRow Cert.LstmArr

/-! ## The vector operations of a layer norm, read at one entry of a block

A block has `R` rows and `N` lanes. Its lane reduction at row `p` is the sum of the row's `N` entries; the
reduction's result, a vector of `R` entries, is cast to a column `[R, 1]` and the column is broadcast back over the
lanes, so at `(p, n)` it reads the row's one number. A `[1, N]` row broadcast over the rows reads its entry `n`. -/

/-- The lane reduction at row `p`: the sum over the row's `N` entries. -/
private theorem laneSum {R N : ℕ} (g : FVec Ideal ⟨2, ![R, N]⟩ .f32) (h : Shape.Reduces ⟨2, ![R, N]⟩ [1] ⟨1, ![R]⟩)
    (hφ : FKind.Formats .f32) (hacc : (0x00000000#32 : BitVec 32) = FKind.add.neutral .f32 hφ) (p : Fin R) :
    multiReduction .add [1] ⟨1, ![R]⟩ g 0x00000000#32 h hφ hacc (ix1 p) = ∑ k : Fin N, g (ix2 p k) := by
  refine (Ideal.multiReduction_add_single (φ := .f32) g _ h _ _ (ix1 p)).trans ?_
  refine Finset.sum_congr rfl fun k _ => congrArg g ?_
  funext a
  match a with
  | ⟨0, _⟩ => exact Fin.ext rfl
  | ⟨1, _⟩ => exact Fin.ext rfl

/-- The lane reduction of a block of 4096 lanes, with the reduction's side conditions as a payload writes them. -/
private theorem laneSum4096 (g : FVec Ideal S256x4096 .f32) (p : Fin 256) :
    multiReduction .add [1] S256 g 0x00000000#32 reduces_S256x4096_S256 (.inl rfl) rfl (ix1 p) = ∑ k : Fin 4096, g (ix2 p k) :=
  laneSum g reduces_S256x4096_S256 _ _ p

/-- The lane reduction of a block of 1024 lanes, likewise. -/
private theorem laneSum1024 (g : FVec Ideal S256x1024 .f32) (p : Fin 256) :
    multiReduction .add [1] S256 g 0x00000000#32 reduces_S256x1024_S256 (.inl rfl) rfl (ix1 p) = ∑ k : Fin 1024, g (ix2 p k) :=
  laneSum g reduces_S256x1024_S256 _ _ p

/-- A vector of `R` entries cast to a column `[R, 1]` reads, at `(p, 0)`, entry `p`: both have row-major position `p`. -/
private theorem keepdims_apply {R : ℕ} {α : Type} (v : (⟨1, ![R]⟩ : Shape).Idx → α) (h : Shape.ShapeCasts ⟨1, ![R]⟩ ⟨2, ![R, 1]⟩)
    (p : Fin R) (q : Fin 1) : shapeCast ⟨2, ![R, 1]⟩ v h (ix2 p q) = v (ix1 p) :=
  shapeCast_apply v h _ _ (by
    have hq : q.val = 0 := by omega
    rw [Shape.rowMajor_val_one, Shape.rowMajor_val_two]
    show p.val = p.val * 1 + q.val
    omega)

/-- A column `[R, 1]` broadcast over `N` lanes reads, at `(p, n)`, the column's entry of row `p`. -/
private theorem colBroadcast_apply {R N : ℕ} {α : Type} (c : (⟨2, ![R, 1]⟩ : Shape).Idx → α)
    (h : Shape.Broadcasts ⟨2, ![R, 1]⟩ ⟨2, ![R, N]⟩) (p : Fin R) (n : Fin N) :
    broadcastTo ⟨2, ![R, N]⟩ c h (ix2 p n) = c (ix2 p (0 : Fin 1)) := by
  refine broadcastTo_apply c h (ix2 p n) (ix2 p (0 : Fin 1)) fun ax => ?_
  match ax with
  | ⟨0, _⟩ =>
    show p.val = if R = 1 then 0 else p.val
    split
    · have := p.isLt; omega
    · rfl
  | ⟨1, _⟩ => rfl

/-- A reciprocal square root of a vector at an index is that of the entry. -/
private theorem rsqrt_apply {s : Shape} {φ : FTy} (a : FVec Ideal s φ) (i : s.Idx) : rsqrt a i = Ideal.rsqrt (a i) := rfl

/-! ## The three payloads

Each payload is the chain mean → mean of squares → `max (E[x²] - E[x]², 0)` → `(· + ε)^(-1/2)` → scale and shift, all
as vector operations; read at `(p, n)` operation by operation it is the row's layer norm over the one-pass variance. -/

/-- The input-side gates before their bias, at `(p, n)`: the normalised pre-activation row (one-pass variance) times the gain. -/
theorem pay5_apply (v0 : Vec Ideal S256x1024 .f32) (v5 : Vec Ideal S1024x4096 .bf16) (v11 : Vec Ideal S1x4096 .f32) (p : Fin 256) (n : Fin 4096) :
    k0_pay5 (F := Ideal) v0 v5 v11 (ix2 p n)
      = ((k0_pay3 (F := Ideal) v0 v5 (ix2 p n) - mean w4096 (fun k : Fin 4096 => k0_pay3 (F := Ideal) v0 v5 (ix2 p k)))
          * Ideal.rsqrt (varOne 4096 w4096 (fun k : Fin 4096 => k0_pay3 (F := Ideal) v0 v5 (ix2 p k)) + wEps)) * v11 (ix2 (0 : Fin 1) n) := by
  unfold k0_pay5 k0_pay3
  simp only [mulf_apply, subf_apply, divf_apply, maximumf_apply, addf_apply, broadcast_apply, rsqrt_apply, keepdims_apply,
    colBroadcast_apply, broadcastTo_1b_ab_apply, shapeCast_self, Scalar.ofBits, Ideal.ofBits_def, Ideal.ofBits_zero_f32]
  rw [laneSum4096, laneSum4096]
  simp only [mulf_apply]
  unfold varOne mean
  rfl

/-- The gates at `(p, n)`: the input side plus its bias, plus the hidden side's layer norm (one-pass variance). -/
theorem pay6_apply (v10 : FVec Ideal S256x4096 .f32) (v14 : FVec Ideal S1x4096 .f32) (v36 : FVec Ideal S256x4096 .f32)
    (v39 v41 : Vec Ideal S1x4096 .f32) (p : Fin 256) (n : Fin 4096) :
    k0_pay6 (F := Ideal) v10 v14 v36 v39 v41 (ix2 p n)
      = (v36 (ix2 p n) + v14 (ix2 (0 : Fin 1) n))
        + lnRow varOne w4096 (fun k : Fin 4096 => v10 (ix2 p k)) (fun k : Fin 4096 => v39 (ix2 (0 : Fin 1) k)) (fun k : Fin 4096 => v41 (ix2 (0 : Fin 1) k)) n := by
  unfold k0_pay6
  simp only [addf_apply, mulf_apply, subf_apply, divf_apply, maximumf_apply, broadcast_apply, rsqrt_apply, keepdims_apply,
    colBroadcast_apply, broadcastTo_1b_ab_apply, shapeCast_self, Scalar.ofBits, Ideal.ofBits_def, Ideal.ofBits_zero_f32]
  rw [laneSum4096, laneSum4096]
  simp only [mulf_apply]
  unfold lnRow varOne mean
  rfl

/-- The new cell state's block at `(p, j)`: the layer norm (one-pass variance) of the cell row. -/
theorem pay1_apply (v78 : FVec Ideal S256x1024 .f32) (v80 v82 : FVec Ideal S1x1024 .f32) (p : Fin 256) (j : Fin 1024) :
    k0_pay1 (F := Ideal) v78 v80 v82 (ix2 p j)
      = lnRow varOne w1024 (fun k : Fin 1024 => v78 (ix2 p k)) (fun k : Fin 1024 => v80 (ix2 (0 : Fin 1) k)) (fun k : Fin 1024 => v82 (ix2 (0 : Fin 1) k)) j := by
  unfold k0_pay1
  simp only [addf_apply, mulf_apply, subf_apply, divf_apply, maximumf_apply, broadcast_apply, rsqrt_apply, keepdims_apply,
    colBroadcast_apply, broadcastTo_1b_ab_apply, Scalar.ofBits, Ideal.ofBits_def, Ideal.ofBits_zero_f32]
  rw [laneSum1024, laneSum1024]
  simp only [mulf_apply]
  unfold lnRow varOne mean
  rfl

end Cert.KernelIdeal.KerVal

end
-- ==== Proof.KerPay.lean ====
import proofs.«410985_j10685878632881_3_alg».proof.Proof.KerLn

noncomputable section

namespace Cert.KernelIdeal.KerVal

open Cert.KernelIdeal Cert.KernelIdeal.Gen Idealize.ShloMosaic Idealize.ShloMosaic.TcCoe Idealize.SL.Sem Idealize.ShloMosaic.ValueIdx Cert.LstmRow Cert.LstmArr

/-- The left operand's row coordinate is the output's row. -/
private theorem lhs_row (j : S256x4096.Idx) (k : dot_S256x1024_S1024x4096_S256x4096_1_0_0_1_n_n.contr.Idx) :
    (dot_S256x1024_S1024x4096_S256x4096_1_0_0_1_n_n.lhsIdx j k 0).val = (j 0).val := by
  unfold DotDims.lhsIdx
  rw [dif_neg (show ¬ (0 : Fin S256x1024.rank) ∈ dot_S256x1024_S1024x4096_S256x4096_1_0_0_1_n_n.lhsBatch by decide),
    dif_pos (show (0 : Fin S256x1024.rank) ∈ dot_S256x1024_S1024x4096_S256x4096_1_0_0_1_n_n.lhsNonContracting by decide)]
  rfl

/-- The left operand's column coordinate is the contracted coordinate. -/
private theorem lhs_col (j : S256x4096.Idx) (k : dot_S256x1024_S1024x4096_S256x4096_1_0_0_1_n_n.contr.Idx) :
    (dot_S256x1024_S1024x4096_S256x4096_1_0_0_1_n_n.lhsIdx j k 1).val = (k ⟨0, by decide⟩).val :=
  DotDims.lhsIdx_val_of_single dot_S256x1024_S1024x4096_S256x4096_1_0_0_1_n_n rfl j k

/-- The right operand's row coordinate is the contracted coordinate. -/
private theorem rhs_row (j : S256x4096.Idx) (k : dot_S256x1024_S1024x4096_S256x4096_1_0_0_1_n_n.contr.Idx) :
    (dot_S256x1024_S1024x4096_S256x4096_1_0_0_1_n_n.rhsIdx j k 0).val = (k ⟨0, by decide⟩).val :=
  DotDims.rhsIdx_val_of_single dot_S256x1024_S1024x4096_S256x4096_1_0_0_1_n_n rfl j k

/-- The right operand's column coordinate is the output's column. -/
private theorem rhs_col (j : S256x4096.Idx) (k : dot_S256x1024_S1024x4096_S256x4096_1_0_0_1_n_n.contr.Idx) :
    (dot_S256x1024_S1024x4096_S256x4096_1_0_0_1_n_n.rhsIdx j k 1).val = (j 1).val := by
  unfold DotDims.rhsIdx
  rw [dif_neg (show ¬ (1 : Fin S1024x4096.rank) ∈ dot_S256x1024_S1024x4096_S256x4096_1_0_0_1_n_n.rhsBatch by decide),
    dif_pos (show (1 : Fin S1024x4096.rank) ∈ dot_S256x1024_S1024x4096_S256x4096_1_0_0_1_n_n.rhsNonContracting by decide)]
  rfl

/-- A pre-activation block at `(p, n)`: row `p` of the batch block against column `n` of the transposed weights. -/
theorem pay3_apply (v2 : Vec Ideal S256x1024 .f32) (v7 : Vec Ideal S1024x4096 .bf16) (p : Fin 256) (n : Fin 4096) :
    k0_pay3 (F := Ideal) v2 v7 (ix2 p n) = ∑ k : Fin 1024, v2 (ix2 p k) * v7 (ix2 k n) := by
  unfold k0_pay3
  refine (Ideal.matmul_constant_zero_apply dot_S256x1024_S1024x4096_S256x4096_1_0_0_1_n_n none _ _ (ix2 p n)).trans ?_
  rw [← Equiv.sum_comp (contrEquiv1 dot_S256x1024_S1024x4096_S256x4096_1_0_0_1_n_n 1024 rfl rfl).symm]
  refine Finset.sum_congr rfl fun c _ => ?_
  have hc := contrEquiv1_symm_val dot_S256x1024_S1024x4096_S256x4096_1_0_0_1_n_n 1024 rfl rfl c
  have hl : dot_S256x1024_S1024x4096_S256x4096_1_0_0_1_n_n.lhsIdx (ix2 p n)
      ((contrEquiv1 dot_S256x1024_S1024x4096_S256x4096_1_0_0_1_n_n 1024 rfl rfl).symm c) = ix2 p c := by
    funext ax; apply Fin.ext
    match ax with
    | ⟨0, _⟩ => exact lhs_row _ _
    | ⟨1, _⟩ => exact (lhs_col _ _).trans hc
  have hr : dot_S256x1024_S1024x4096_S256x4096_1_0_0_1_n_n.rhsIdx (ix2 p n)
      ((contrEquiv1 dot_S256x1024_S1024x4096_S256x4096_1_0_0_1_n_n 1024 rfl rfl).symm c) = ix2 c n := by
    funext ax; apply Fin.ext
    match ax with
    | ⟨0, _⟩ => exact (rhs_row _ _).trans hc
    | ⟨1, _⟩ => exact rhs_col _ _
  rw [hl, hr, shapeCast_self]
  rfl

/-- The output gate at `(p, j)`. -/
theorem pay7_apply (v10 : FVec Ideal S256x4096 .f32) (v14 : FVec Ideal S1x4096 .f32) (v36 : FVec Ideal S256x4096 .f32)
    (v39 v41 : Vec Ideal S1x4096 .f32) (p : Fin 256) (j : Fin 1024) :
    k0_pay7 (F := Ideal) v10 v14 v36 v39 v41 (ix2 p j) = Ideal.logistic (k0_pay6 (F := Ideal) v10 v14 v36 v39 v41 (ix2 p (gcol 3 j))) := by
  unfold k0_pay7
  exact congrArg Ideal.logistic
    (slice2_axis1_apply 3072 (k0_pay6 (F := Ideal) v10 v14 v36 v39 v41) slices_S256x4096_o0_3072_S256x1024 p j (gcol 3 j) rfl)

/-- The cell before its norm at `(p, j)`. -/
theorem pay8_apply (v4 : Vec Ideal S256x1024 .f32) (v10 : FVec Ideal S256x4096 .f32) (v14 : FVec Ideal S1x4096 .f32) (v36 : FVec Ideal S256x4096 .f32)
    (v39 v41 : Vec Ideal S1x4096 .f32) (p : Fin 256) (j : Fin 1024) :
    k0_pay8 (F := Ideal) v4 v10 v14 v36 v39 v41 (ix2 p j)
      = cellRow (fun n : Fin 4096 => k0_pay6 (F := Ideal) v10 v14 v36 v39 v41 (ix2 p n)) (fun k : Fin 1024 => v4 (ix2 p k)) j := by
  have e0 := slice2_axis1_apply 0 (k0_pay6 (F := Ideal) v10 v14 v36 v39 v41) slices_S256x4096_o0_0_S256x1024 p j (gcol 0 j)
    (by show 0 * 1024 + j.val = 0 + j.val; omega)
  have e1 := slice2_axis1_apply 1024 (k0_pay6 (F := Ideal) v10 v14 v36 v39 v41) slices_S256x4096_o0_1024_S256x1024 p j (gcol 1 j)
    (by show 1 * 1024 + j.val = 1024 + j.val; omega)
  have e2 := slice2_axis1_apply 2048 (k0_pay6 (F := Ideal) v10 v14 v36 v39 v41) slices_S256x4096_o0_2048_S256x1024 p j (gcol 2 j)
    (by show 2 * 1024 + j.val = 2048 + j.val; omega)
  unfold k0_pay8 cellRow
  show Ideal.logistic (extractStridedSlice S256x1024 ![0, 1024] (k0_pay6 (F := Ideal) v10 v14 v36 v39 v41) slices_S256x4096_o0_1024_S256x1024 (ix2 p j)) * v4 (ix2 p j)
      + Ideal.logistic (extractStridedSlice S256x1024 ![0, 0] (k0_pay6 (F := Ideal) v10 v14 v36 v39 v41) slices_S256x4096_o0_0_S256x1024 (ix2 p j))
        * Ideal.tanh (extractStridedSlice S256x1024 ![0, 2048] (k0_pay6 (F := Ideal) v10 v14 v36 v39 v41) slices_S256x4096_o0_2048_S256x1024 (ix2 p j)) = _
  rw [e0, e1, e2]

/-- The gates of row `p` at column `n`, from the input blocks: the two normalised pre-activations (one-pass variance), added. -/
private theorem gates_apply (x0 x1 : Vec Ideal S256x1024 .f32) (x3 x4 : Vec Ideal S1024x4096 .bf16) (x5 x6 x7 x8 : Vec Ideal S1x4096 .f32)
    (p : Fin 256) (n : Fin 4096) :
    k0_pay6 (F := Ideal) (k0_pay3 x1 x4) (k0_pay4 x6) (k0_pay5 x0 x3 x5) x7 x8 (ix2 p n)
      = gatesRow varOne (fun k : Fin 1024 => x0 (ix2 p k)) (fun k : Fin 1024 => x1 (ix2 p k)) (fun (n : Fin 4096) (k : Fin 1024) => x3 (ix2 k n)) (fun (n : Fin 4096) (k : Fin 1024) => x4 (ix2 k n)) (fun n : Fin 4096 => x5 (ix2 (0 : Fin 1) n)) (fun n : Fin 4096 => x6 (ix2 (0 : Fin 1) n)) (fun n : Fin 4096 => x7 (ix2 (0 : Fin 1) n)) (fun n : Fin 4096 => x8 (ix2 (0 : Fin 1) n)) n := by
  have hx : (fun k : Fin 4096 => k0_pay3 (F := Ideal) x0 x3 (ix2 p k))
      = dotRow (fun k : Fin 1024 => x0 (ix2 p k)) (fun (n : Fin 4096) (k : Fin 1024) => x3 (ix2 k n)) := by
    funext k; exact pay3_apply x0 x3 p k
  have hh : (fun k : Fin 4096 => k0_pay3 (F := Ideal) x1 x4 (ix2 p k))
      = dotRow (fun k : Fin 1024 => x1 (ix2 p k)) (fun (n : Fin 4096) (k : Fin 1024) => x4 (ix2 k n)) := by
    funext k; exact pay3_apply x1 x4 p k
  have hb : k0_pay4 (F := Ideal) x6 = x6 := by unfold k0_pay4; exact shapeCast_self _ _
  rw [pay6_apply, pay5_apply, hx, hh, hb]
  have hn : k0_pay3 (F := Ideal) x0 x3 (ix2 p n)
      = dotRow (fun k : Fin 1024 => x0 (ix2 p k)) (fun (n : Fin 4096) (k : Fin 1024) => x3 (ix2 k n)) n := pay3_apply x0 x3 p n
  rw [hn]
  rfl

/-- THE CELL-STATE BLOCK at `(p, j)`, from the eleven input blocks: the row function (one-pass variance) of row `p`. -/
theorem cyBlock_apply (x0 x1 x2 : Vec Ideal S256x1024 .f32) (x3 x4 : Vec Ideal S1024x4096 .bf16) (x5 x6 x7 x8 : Vec Ideal S1x4096 .f32) (x9 x10 : Vec Ideal S1x1024 .f32) (p : Fin 256) (j : Fin 1024) :
    k0_pay1 (F := Ideal) (k0_pay8 x2 (k0_pay3 x1 x4) (k0_pay4 x6) (k0_pay5 x0 x3 x5) x7 x8) (k0_pay9 x9) (k0_pay10 x10) (ix2 p j)
      = cyRow varOne (fun k : Fin 1024 => x0 (ix2 p k)) (fun k : Fin 1024 => x1 (ix2 p k)) (fun k : Fin 1024 => x2 (ix2 p k)) (fun (n : Fin 4096) (k : Fin 1024) => x3 (ix2 k n)) (fun (n : Fin 4096) (k : Fin 1024) => x4 (ix2 k n)) (fun n : Fin 4096 => x5 (ix2 (0 : Fin 1) n)) (fun n : Fin 4096 => x6 (ix2 (0 : Fin 1) n)) (fun n : Fin 4096 => x7 (ix2 (0 : Fin 1) n)) (fun n : Fin 4096 => x8 (ix2 (0 : Fin 1) n)) (fun n : Fin 1024 => x9 (ix2 (0 : Fin 1) n)) (fun n : Fin 1024 => x10 (ix2 (0 : Fin 1) n)) j := by
  have hcell : (fun k : Fin 1024 => k0_pay8 (F := Ideal) x2 (k0_pay3 x1 x4) (k0_pay4 x6) (k0_pay5 x0 x3 x5) x7 x8 (ix2 p k))
      = cellRow (gatesRow varOne (fun k : Fin 1024 => x0 (ix2 p k)) (fun k : Fin 1024 => x1 (ix2 p k)) (fun (n : Fin 4096) (k : Fin 1024) => x3 (ix2 k n)) (fun (n : Fin 4096) (k : Fin 1024) => x4 (ix2 k n)) (fun n : Fin 4096 => x5 (ix2 (0 : Fin 1) n)) (fun n : Fin 4096 => x6 (ix2 (0 : Fin 1) n)) (fun n : Fin 4096 => x7 (ix2 (0 : Fin 1) n)) (fun n : Fin 4096 => x8 (ix2 (0 : Fin 1) n)))
          (fun k : Fin 1024 => x2 (ix2 p k)) := by
    funext k
    refine (pay8_apply x2 _ _ _ x7 x8 p k).trans ?_
    exact congrArg (fun g => cellRow g (fun k : Fin 1024 => x2 (ix2 p k)) k)
      (funext fun n => gates_apply x0 x1 x3 x4 x5 x6 x7 x8 p n)
  have hw : k0_pay9 (F := Ideal) x9 = x9 := by unfold k0_pay9; exact shapeCast_self _ _
  have hbias : k0_pay10 (F := Ideal) x10 = x10 := by unfold k0_pay10; exact shapeCast_self _ _
  rw [pay1_apply, hcell, hw, hbias]
  rfl

/-- THE HIDDEN-STATE BLOCK at `(p, j)`. -/
theorem hyBlock_apply (x0 x1 x2 : Vec Ideal S256x1024 .f32) (x3 x4 : Vec Ideal S1024x4096 .bf16) (x5 x6 x7 x8 : Vec Ideal S1x4096 .f32) (x9 x10 : Vec Ideal S1x1024 .f32) (p : Fin 256) (j : Fin 1024) :
    k0_pay2 (F := Ideal) (k0_pay7 (k0_pay3 x1 x4) (k0_pay4 x6) (k0_pay5 x0 x3 x5) x7 x8) (k0_pay8 x2 (k0_pay3 x1 x4) (k0_pay4 x6) (k0_pay5 x0 x3 x5) x7 x8) (k0_pay9 x9) (k0_pay10 x10) (ix2 p j)
      = hyRow varOne (fun k : Fin 1024 => x0 (ix2 p k)) (fun k : Fin 1024 => x1 (ix2 p k)) (fun k : Fin 1024 => x2 (ix2 p k)) (fun (n : Fin 4096) (k : Fin 1024) => x3 (ix2 k n)) (fun (n : Fin 4096) (k : Fin 1024) => x4 (ix2 k n)) (fun n : Fin 4096 => x5 (ix2 (0 : Fin 1) n)) (fun n : Fin 4096 => x6 (ix2 (0 : Fin 1) n)) (fun n : Fin 4096 => x7 (ix2 (0 : Fin 1) n)) (fun n : Fin 4096 => x8 (ix2 (0 : Fin 1) n)) (fun n : Fin 1024 => x9 (ix2 (0 : Fin 1) n)) (fun n : Fin 1024 => x10 (ix2 (0 : Fin 1) n)) j := by
  unfold k0_pay2 hyRow
  show k0_pay7 (F := Ideal) (k0_pay3 x1 x4) (k0_pay4 x6) (k0_pay5 x0 x3 x5) x7 x8 (ix2 p j)
      * Ideal.tanh (k0_pay1 (F := Ideal) (k0_pay8 x2 (k0_pay3 x1 x4) (k0_pay4 x6) (k0_pay5 x0 x3 x5) x7 x8) (k0_pay9 x9) (k0_pay10 x10) (ix2 p j)) = _
  rw [pay7_apply, gates_apply, cyBlock_apply]

end Cert.KernelIdeal.KerVal

end
-- ==== Proof.KerFinal.lean ====
import proofs.«410985_j10685878632881_3_alg».proof.Proof.Gen.KernelIdeal.Frame
import proofs.«410985_j10685878632881_3_alg».proof.Proof.KerPay
import Idealize.ShloMosaic.Lib.Pipeline.Value
import Idealize.ShloMosaic.Lib.StableHlo.Run
import Idealize.ShloMosaic.Lib.ValueLayout

noncomputable section

namespace Cert.KernelIdeal.KerVal

open Cert.KernelIdeal Cert.KernelIdeal.Gen Idealize.ShloMosaic Idealize.ShloMosaic.TcCoe Idealize.SL.Sem Idealize.ShloMosaic.ValueIdx Cert.LstmRow Cert.LstmArr Idealize.ShloMosaic.Pipeline

variable (m : (ℓ : Loc nD τ sig) → Buf (Elt Ideal) ℓ) (ρ : Dev nD → PrngReg)

/-! ## The arrays written before the region, read at an index -/

/-- Window 3's array is `main_arg3` transposed (the rounding to bf16 is exact on the extended reals): entry `(k, n)`
    is the argument's entry `(n, k)`. -/
private theorem arg3_transposed_apply (c : Dev nD) (k : Fin 1024) (n : Fin 4096) :
    (V m c main_v1 : S1024x4096.Idx → EReal) (ix2 k n) = (m ((c.tc : Thread nD τ).loc main_arg3) : S4096x1024.Idx → EReal) (ix2 n k) := by
  have e : (V m c main_v1 : S1024x4096.Idx → EReal) = (truncf (F := Ideal) .bf16 (transpose S1024x4096 [1, 0] (m ((c.tc : Thread nD τ).loc main_arg3) : S4096x1024.Idx → EReal) transposes_S4096x1024_S1024x4096_1_0) bitsLt_bf16_f32 : S1024x4096.Idx → EReal) := by
    dsimp only [Gen.V, Gen.hostOps0]; after_results
  rw [e, truncf_apply, transpose_ix2_apply]

/-- Window 4's array is `main_arg4` transposed. -/
private theorem arg4_transposed_apply (c : Dev nD) (k : Fin 1024) (n : Fin 4096) :
    (V m c main_v3 : S1024x4096.Idx → EReal) (ix2 k n) = (m ((c.tc : Thread nD τ).loc main_arg4) : S4096x1024.Idx → EReal) (ix2 n k) := by
  have e : (V m c main_v3 : S1024x4096.Idx → EReal) = (truncf (F := Ideal) .bf16 (transpose S1024x4096 [1, 0] (m ((c.tc : Thread nD τ).loc main_arg4) : S4096x1024.Idx → EReal) transposes_S4096x1024_S1024x4096_1_0) bitsLt_bf16_f32 : S1024x4096.Idx → EReal) := by
    dsimp only [Gen.V, Gen.hostOps0]; after_results
  rw [e, truncf_apply, transpose_ix2_apply]

/-- Window 5's array is `main_arg5` as one row. -/
private theorem arg5_as_row_apply (c : Dev nD) (u : Fin 1) (n : Fin 4096) :
    (V m c main_v4 : S1x4096.Idx → EReal) (ix2 u n) = (m ((c.tc : Thread nD τ).loc main_arg5) : S4096.Idx → EReal) (ix1 n) := by
  have e : (V m c main_v4 : S1x4096.Idx → EReal) = shapeCast S1x4096 (m ((c.tc : Thread nD τ).loc main_arg5) : S4096.Idx → EReal) shapeCasts_S4096_S1x4096 := by
    dsimp only [Gen.V, Gen.hostOps0]; after_results; rfl
  rw [e, shapeCast_a_1a_apply]

/-- Window 6's array is `main_arg6` as one row. -/
private theorem arg6_as_row_apply (c : Dev nD) (u : Fin 1) (n : Fin 4096) :
    (V m c main_v5 : S1x4096.Idx → EReal) (ix2 u n) = (m ((c.tc : Thread nD τ).loc main_arg6) : S4096.Idx → EReal) (ix1 n) := by
  have e : (V m c main_v5 : S1x4096.Idx → EReal) = shapeCast S1x4096 (m ((c.tc : Thread nD τ).loc main_arg6) : S4096.Idx → EReal) shapeCasts_S4096_S1x4096 := by
    dsimp only [Gen.V, Gen.hostOps0]; after_results; rfl
  rw [e, shapeCast_a_1a_apply]

/-- Window 7's array is `main_arg7` as one row. -/
private theorem arg7_as_row_apply (c : Dev nD) (u : Fin 1) (n : Fin 4096) :
    (V m c main_v6 : S1x4096.Idx → EReal) (ix2 u n) = (m ((c.tc : Thread nD τ).loc main_arg7) : S4096.Idx → EReal) (ix1 n) := by
  have e : (V m c main_v6 : S1x4096.Idx → EReal) = shapeCast S1x4096 (m ((c.tc : Thread nD τ).loc main_arg7) : S4096.Idx → EReal) shapeCasts_S4096_S1x4096 := by
    dsimp only [Gen.V, Gen.hostOps0]; after_results; rfl
  rw [e, shapeCast_a_1a_apply]

/-- Window 8's array is `main_arg8` as one row. -/
private theorem arg8_as_row_apply (c : Dev nD) (u : Fin 1) (n : Fin 4096) :
    (V m c main_v7 : S1x4096.Idx → EReal) (ix2 u n) = (m ((c.tc : Thread nD τ).loc main_arg8) : S4096.Idx → EReal) (ix1 n) := by
  have e : (V m c main_v7 : S1x4096.Idx → EReal) = shapeCast S1x4096 (m ((c.tc : Thread nD τ).loc main_arg8) : S4096.Idx → EReal) shapeCasts_S4096_S1x4096 := by
    dsimp only [Gen.V, Gen.hostOps0]; after_results; rfl
  rw [e, shapeCast_a_1a_apply]

/-- Window 9's array is `main_arg9` as one row. -/
private theorem arg9_as_row_apply (c : Dev nD) (u : Fin 1) (n : Fin 1024) :
    (V m c main_v8 : S1x1024.Idx → EReal) (ix2 u n) = (m ((c.tc : Thread nD τ).loc main_arg9) : S1024.Idx → EReal) (ix1 n) := by
  have e : (V m c main_v8 : S1x1024.Idx → EReal) = shapeCast S1x1024 (m ((c.tc : Thread nD τ).loc main_arg9) : S1024.Idx → EReal) shapeCasts_S1024_S1x1024 := by
    dsimp only [Gen.V, Gen.hostOps0]; after_results; rfl
  rw [e, shapeCast_a_1a_apply]

/-- Window 10's array is `main_arg10` as one row. -/
private theorem arg10_as_row_apply (c : Dev nD) (u : Fin 1) (n : Fin 1024) :
    (V m c main_v9 : S1x1024.Idx → EReal) (ix2 u n) = (m ((c.tc : Thread nD τ).loc main_arg10) : S1024.Idx → EReal) (ix1 n) := by
  have e : (V m c main_v9 : S1x1024.Idx → EReal) = shapeCast S1x1024 (m ((c.tc : Thread nD τ).loc main_arg10) : S1024.Idx → EReal) shapeCasts_S1024_S1x1024 := by
    dsimp only [Gen.V, Gen.hostOps0]; after_results; rfl
  rw [e, shapeCast_a_1a_apply]

/-! ## Each window's block at a point, read where the array index says -/

/-- Row `p` of the block of grid point `t` is row `256 t + p` of a batch array. -/
private def rowAt (t : Fin cfg0.N) (p : Fin 256) : Fin 8192 :=
  ⟨t.val * 256 + p.val, by have h := t.isLt; have hN : cfg0.N = 32 := N_0; have hp := p.isLt; omega⟩

/-- The printed index map of window 0, decided over the grid: block row `t`, block column `0`. -/
private theorem index_rows0 : ∀ t : Fin cfg0.N, win0_0.index t (0 : Fin 2) = t.val ∧ win0_0.index t (1 : Fin 2) = 0 :=
  (by decide +kernel : ∀ t : Fin grid0.N, _)

/-- The printed index map of window 1, decided over the grid: block row `t`, block column `0`. -/
private theorem index_rows1 : ∀ t : Fin cfg0.N, win0_1.index t (0 : Fin 2) = t.val ∧ win0_1.index t (1 : Fin 2) = 0 :=
  (by decide +kernel : ∀ t : Fin grid0.N, _)

/-- The printed index map of window 2, decided over the grid: block row `t`, block column `0`. -/
private theorem index_rows2 : ∀ t : Fin cfg0.N, win0_2.index t (0 : Fin 2) = t.val ∧ win0_2.index t (1 : Fin 2) = 0 :=
  (by decide +kernel : ∀ t : Fin grid0.N, _)

/-- The printed index map of window 11, decided over the grid: block row `t`, block column `0`. -/
private theorem index_rows11 : ∀ t : Fin cfg0.N, win0_11.index t (0 : Fin 2) = t.val ∧ win0_11.index t (1 : Fin 2) = 0 :=
  (by decide +kernel : ∀ t : Fin grid0.N, _)

/-- The printed index map of window 12, decided over the grid: block row `t`, block column `0`. -/
private theorem index_rows12 : ∀ t : Fin cfg0.N, win0_12.index t (0 : Fin 2) = t.val ∧ win0_12.index t (1 : Fin 2) = 0 :=
  (by decide +kernel : ∀ t : Fin grid0.N, _)

/-- The printed index map of window 3, decided over the grid: the one block `(0, 0)`. -/
private theorem index_whole3 : ∀ t : Fin cfg0.N, win0_3.index t (0 : Fin 2) = 0 ∧ win0_3.index t (1 : Fin 2) = 0 :=
  (by decide +kernel : ∀ t : Fin grid0.N, _)

/-- The printed index map of window 4, decided over the grid: the one block `(0, 0)`. -/
private theorem index_whole4 : ∀ t : Fin cfg0.N, win0_4.index t (0 : Fin 2) = 0 ∧ win0_4.index t (1 : Fin 2) = 0 :=
  (by decide +kernel : ∀ t : Fin grid0.N, _)

/-- The printed index map of window 5, decided over the grid: the one block `(0, 0)`. -/
private theorem index_whole5 : ∀ t : Fin cfg0.N, win0_5.index t (0 : Fin 2) = 0 ∧ win0_5.index t (1 : Fin 2) = 0 :=
  (by decide +kernel : ∀ t : Fin grid0.N, _)

/-- The printed index map of window 6, decided over the grid: the one block `(0, 0)`. -/
private theorem index_whole6 : ∀ t : Fin cfg0.N, win0_6.index t (0 : Fin 2) = 0 ∧ win0_6.index t (1 : Fin 2) = 0 :=
  (by decide +kernel : ∀ t : Fin grid0.N, _)

/-- The printed index map of window 7, decided over the grid: the one block `(0, 0)`. -/
private theorem index_whole7 : ∀ t : Fin cfg0.N, win0_7.index t (0 : Fin 2) = 0 ∧ win0_7.index t (1 : Fin 2) = 0 :=
  (by decide +kernel : ∀ t : Fin grid0.N, _)

/-- The printed index map of window 8, decided over the grid: the one block `(0, 0)`. -/
private theorem index_whole8 : ∀ t : Fin cfg0.N, win0_8.index t (0 : Fin 2) = 0 ∧ win0_8.index t (1 : Fin 2) = 0 :=
  (by decide +kernel : ∀ t : Fin grid0.N, _)

/-- The printed index map of window 9, decided over the grid: the one block `(0, 0)`. -/
private theorem index_whole9 : ∀ t : Fin cfg0.N, win0_9.index t (0 : Fin 2) = 0 ∧ win0_9.index t (1 : Fin 2) = 0 :=
  (by decide +kernel : ∀ t : Fin grid0.N, _)

/-- The printed index map of window 10, decided over the grid: the one block `(0, 0)`. -/
private theorem index_whole10 : ∀ t : Fin cfg0.N, win0_10.index t (0 : Fin 2) = 0 ∧ win0_10.index t (1 : Fin 2) = 0 :=
  (by decide +kernel : ∀ t : Fin grid0.N, _)

/-- Window 0's block at point `t` is rows `256 t … 256 t + 255` of `main_arg0`. -/
private theorem block0_apply (c : Dev nD) (t : Fin cfg0.N) (p : Fin 256) (k : Fin 1024) :
    (iblk m c 0 t : Vec Ideal S256x1024 .f32) (ix2 p k) = (m ((c.tc : Thread nD τ).loc main_arg0) : S8192x1024.Idx → EReal) (ix2 (rowAt t p) k) := by
  have hi : win0_0.index t (0 : Fin 2) = t.val ∧ win0_0.index t (1 : Fin 2) = 0 := index_rows0 t
  unfold iblk
  rw [View.read_apply]
  show V m c main_arg0 _ = _
  rw [V_main_arg0]
  refine congrArg (m ((c.tc : Thread nD τ).loc main_arg0) : S8192x1024.Idx → EReal) ?_
  funext a
  apply Fin.ext
  match a with
  | ⟨0, _⟩ => show win0_0.index t (0 : Fin 2) * 256 + 1 * p.val = t.val * 256 + p.val; rw [hi.1]; omega
  | ⟨1, _⟩ => show win0_0.index t (1 : Fin 2) * 1024 + 1 * k.val = k.val; rw [hi.2]; omega

/-- Window 1's block at point `t` is rows `256 t … 256 t + 255` of `main_arg1`. -/
private theorem block1_apply (c : Dev nD) (t : Fin cfg0.N) (p : Fin 256) (k : Fin 1024) :
    (iblk m c 1 t : Vec Ideal S256x1024 .f32) (ix2 p k) = (m ((c.tc : Thread nD τ).loc main_arg1) : S8192x1024.Idx → EReal) (ix2 (rowAt t p) k) := by
  have hi : win0_1.index t (0 : Fin 2) = t.val ∧ win0_1.index t (1 : Fin 2) = 0 := index_rows1 t
  unfold iblk
  rw [View.read_apply]
  show V m c main_arg1 _ = _
  rw [V_main_arg1]
  refine congrArg (m ((c.tc : Thread nD τ).loc main_arg1) : S8192x1024.Idx → EReal) ?_
  funext a
  apply Fin.ext
  match a with
  | ⟨0, _⟩ => show win0_1.index t (0 : Fin 2) * 256 + 1 * p.val = t.val * 256 + p.val; rw [hi.1]; omega
  | ⟨1, _⟩ => show win0_1.index t (1 : Fin 2) * 1024 + 1 * k.val = k.val; rw [hi.2]; omega

/-- Window 2's block at point `t` is rows `256 t … 256 t + 255` of `main_arg2`. -/
private theorem block2_apply (c : Dev nD) (t : Fin cfg0.N) (p : Fin 256) (k : Fin 1024) :
    (iblk m c 2 t : Vec Ideal S256x1024 .f32) (ix2 p k) = (m ((c.tc : Thread nD τ).loc main_arg2) : S8192x1024.Idx → EReal) (ix2 (rowAt t p) k) := by
  have hi : win0_2.index t (0 : Fin 2) = t.val ∧ win0_2.index t (1 : Fin 2) = 0 := index_rows2 t
  unfold iblk
  rw [View.read_apply]
  show V m c main_arg2 _ = _
  rw [V_main_arg2]
  refine congrArg (m ((c.tc : Thread nD τ).loc main_arg2) : S8192x1024.Idx → EReal) ?_
  funext a
  apply Fin.ext
  match a with
  | ⟨0, _⟩ => show win0_2.index t (0 : Fin 2) * 256 + 1 * p.val = t.val * 256 + p.val; rw [hi.1]; omega
  | ⟨1, _⟩ => show win0_2.index t (1 : Fin 2) * 1024 + 1 * k.val = k.val; rw [hi.2]; omega

/-- Window 3's one block is all of its array: entry `(k, n)` is `main_arg3`'s entry `(n, k)`. -/
private theorem block3_apply (c : Dev nD) (t : Fin cfg0.N) (k : Fin 1024) (n : Fin 4096) :
    (iblk m c 3 t : Vec Ideal S1024x4096 .bf16) (ix2 k n) = (m ((c.tc : Thread nD τ).loc main_arg3) : S4096x1024.Idx → EReal) (ix2 n k) := by
  have hi : win0_3.index t (0 : Fin 2) = 0 ∧ win0_3.index t (1 : Fin 2) = 0 := index_whole3 t
  unfold iblk
  rw [View.read_apply]
  show V m c main_v1 _ = _
  refine Eq.trans (congrArg (V m c main_v1 : S1024x4096.Idx → EReal) ?_) (arg3_transposed_apply m c k n)
  funext a
  apply Fin.ext
  match a with
  | ⟨0, _⟩ => show win0_3.index t (0 : Fin 2) * 1024 + 1 * k.val = k.val; rw [hi.1]; omega
  | ⟨1, _⟩ => show win0_3.index t (1 : Fin 2) * 4096 + 1 * n.val = n.val; rw [hi.2]; omega

/-- Window 4's one block is all of its array: entry `(k, n)` is `main_arg4`'s entry `(n, k)`. -/
private theorem block4_apply (c : Dev nD) (t : Fin cfg0.N) (k : Fin 1024) (n : Fin 4096) :
    (iblk m c 4 t : Vec Ideal S1024x4096 .bf16) (ix2 k n) = (m ((c.tc : Thread nD τ).loc main_arg4) : S4096x1024.Idx → EReal) (ix2 n k) := by
  have hi : win0_4.index t (0 : Fin 2) = 0 ∧ win0_4.index t (1 : Fin 2) = 0 := index_whole4 t
  unfold iblk
  rw [View.read_apply]
  show V m c main_v3 _ = _
  refine Eq.trans (congrArg (V m c main_v3 : S1024x4096.Idx → EReal) ?_) (arg4_transposed_apply m c k n)
  funext a
  apply Fin.ext
  match a with
  | ⟨0, _⟩ => show win0_4.index t (0 : Fin 2) * 1024 + 1 * k.val = k.val; rw [hi.1]; omega
  | ⟨1, _⟩ => show win0_4.index t (1 : Fin 2) * 4096 + 1 * n.val = n.val; rw [hi.2]; omega

/-- Window 5's one block is all of its one-row array: entry `(u, n)` is `main_arg5`'s entry `n`. -/
private theorem block5_apply (c : Dev nD) (t : Fin cfg0.N) (u : Fin 1) (n : Fin 4096) :
    (iblk m c 5 t : Vec Ideal S1x4096 .f32) (ix2 u n) = (m ((c.tc : Thread nD τ).loc main_arg5) : S4096.Idx → EReal) (ix1 n) := by
  have hi : win0_5.index t (0 : Fin 2) = 0 ∧ win0_5.index t (1 : Fin 2) = 0 := index_whole5 t
  unfold iblk
  rw [View.read_apply]
  show V m c main_v4 _ = _
  refine Eq.trans (congrArg (V m c main_v4 : S1x4096.Idx → EReal) ?_) (arg5_as_row_apply m c u n)
  funext a
  apply Fin.ext
  match a with
  | ⟨0, _⟩ => show win0_5.index t (0 : Fin 2) * 1 + 1 * u.val = u.val; rw [hi.1]; omega
  | ⟨1, _⟩ => show win0_5.index t (1 : Fin 2) * 4096 + 1 * n.val = n.val; rw [hi.2]; omega

/-- Window 6's one block is all of its one-row array: entry `(u, n)` is `main_arg6`'s entry `n`. -/
private theorem block6_apply (c : Dev nD) (t : Fin cfg0.N) (u : Fin 1) (n : Fin 4096) :
    (iblk m c 6 t : Vec Ideal S1x4096 .f32) (ix2 u n) = (m ((c.tc : Thread nD τ).loc main_arg6) : S4096.Idx → EReal) (ix1 n) := by
  have hi : win0_6.index t (0 : Fin 2) = 0 ∧ win0_6.index t (1 : Fin 2) = 0 := index_whole6 t
  unfold iblk
  rw [View.read_apply]
  show V m c main_v5 _ = _
  refine Eq.trans (congrArg (V m c main_v5 : S1x4096.Idx → EReal) ?_) (arg6_as_row_apply m c u n)
  funext a
  apply Fin.ext
  match a with
  | ⟨0, _⟩ => show win0_6.index t (0 : Fin 2) * 1 + 1 * u.val = u.val; rw [hi.1]; omega
  | ⟨1, _⟩ => show win0_6.index t (1 : Fin 2) * 4096 + 1 * n.val = n.val; rw [hi.2]; omega

/-- Window 7's one block is all of its one-row array: entry `(u, n)` is `main_arg7`'s entry `n`. -/
private theorem block7_apply (c : Dev nD) (t : Fin cfg0.N) (u : Fin 1) (n : Fin 4096) :
    (iblk m c 7 t : Vec Ideal S1x4096 .f32) (ix2 u n) = (m ((c.tc : Thread nD τ).loc main_arg7) : S4096.Idx → EReal) (ix1 n) := by
  have hi : win0_7.index t (0 : Fin 2) = 0 ∧ win0_7.index t (1 : Fin 2) = 0 := index_whole7 t
  unfold iblk
  rw [View.read_apply]
  show V m c main_v6 _ = _
  refine Eq.trans (congrArg (V m c main_v6 : S1x4096.Idx → EReal) ?_) (arg7_as_row_apply m c u n)
  funext a
  apply Fin.ext
  match a with
  | ⟨0, _⟩ => show win0_7.index t (0 : Fin 2) * 1 + 1 * u.val = u.val; rw [hi.1]; omega
  | ⟨1, _⟩ => show win0_7.index t (1 : Fin 2) * 4096 + 1 * n.val = n.val; rw [hi.2]; omega

/-- Window 8's one block is all of its one-row array: entry `(u, n)` is `main_arg8`'s entry `n`. -/
private theorem block8_apply (c : Dev nD) (t : Fin cfg0.N) (u : Fin 1) (n : Fin 4096) :
    (iblk m c 8 t : Vec Ideal S1x4096 .f32) (ix2 u n) = (m ((c.tc : Thread nD τ).loc main_arg8) : S4096.Idx → EReal) (ix1 n) := by
  have hi : win0_8.index t (0 : Fin 2) = 0 ∧ win0_8.index t (1 : Fin 2) = 0 := index_whole8 t
  unfold iblk
  rw [View.read_apply]
  show V m c main_v7 _ = _
  refine Eq.trans (congrArg (V m c main_v7 : S1x4096.Idx → EReal) ?_) (arg8_as_row_apply m c u n)
  funext a
  apply Fin.ext
  match a with
  | ⟨0, _⟩ => show win0_8.index t (0 : Fin 2) * 1 + 1 * u.val = u.val; rw [hi.1]; omega
  | ⟨1, _⟩ => show win0_8.index t (1 : Fin 2) * 4096 + 1 * n.val = n.val; rw [hi.2]; omega

/-- Window 9's one block is all of its one-row array: entry `(u, n)` is `main_arg9`'s entry `n`. -/
private theorem block9_apply (c : Dev nD) (t : Fin cfg0.N) (u : Fin 1) (n : Fin 1024) :
    (iblk m c 9 t : Vec Ideal S1x1024 .f32) (ix2 u n) = (m ((c.tc : Thread nD τ).loc main_arg9) : S1024.Idx → EReal) (ix1 n) := by
  have hi : win0_9.index t (0 : Fin 2) = 0 ∧ win0_9.index t (1 : Fin 2) = 0 := index_whole9 t
  unfold iblk
  rw [View.read_apply]
  show V m c main_v8 _ = _
  refine Eq.trans (congrArg (V m c main_v8 : S1x1024.Idx → EReal) ?_) (arg9_as_row_apply m c u n)
  funext a
  apply Fin.ext
  match a with
  | ⟨0, _⟩ => show win0_9.index t (0 : Fin 2) * 1 + 1 * u.val = u.val; rw [hi.1]; omega
  | ⟨1, _⟩ => show win0_9.index t (1 : Fin 2) * 1024 + 1 * n.val = n.val; rw [hi.2]; omega

/-- Window 10's one block is all of its one-row array: entry `(u, n)` is `main_arg10`'s entry `n`. -/
private theorem block10_apply (c : Dev nD) (t : Fin cfg0.N) (u : Fin 1) (n : Fin 1024) :
    (iblk m c 10 t : Vec Ideal S1x1024 .f32) (ix2 u n) = (m ((c.tc : Thread nD τ).loc main_arg10) : S1024.Idx → EReal) (ix1 n) := by
  have hi : win0_10.index t (0 : Fin 2) = 0 ∧ win0_10.index t (1 : Fin 2) = 0 := index_whole10 t
  unfold iblk
  rw [View.read_apply]
  show V m c main_v9 _ = _
  refine Eq.trans (congrArg (V m c main_v9 : S1x1024.Idx → EReal) ?_) (arg10_as_row_apply m c u n)
  funext a
  apply Fin.ext
  match a with
  | ⟨0, _⟩ => show win0_10.index t (0 : Fin 2) * 1 + 1 * u.val = u.val; rw [hi.1]; omega
  | ⟨1, _⟩ => show win0_10.index t (1 : Fin 2) * 1024 + 1 * n.val = n.val; rw [hi.2]; omega

/-! ## A point's two result blocks as blocks of the whole-array functions -/

private theorem zero_offsets : (![0, 0] : Fin 2 → Nat) = fun _ => 0 := funext fun a => by fin_cases a <;> rfl

/-- The cell-state payload of blocks that are row `r` of the batch arrays, the transposed weight matrices and the norm
    vectors as rows is the whole-array cell state at `(r, j)`. -/
private theorem cy_of_blocks (a0 a1 a2 : FVec Ideal SB .f32) (a3 a4 : FVec Ideal SW .f32) (a5 a6 a7 a8 : FVec Ideal SG .f32) (a9 a10 : FVec Ideal SH .f32)
    (x0 x1 x2 : Vec Ideal S256x1024 .f32) (x3 x4 : Vec Ideal S1024x4096 .bf16) (x5 x6 x7 x8 : Vec Ideal S1x4096 .f32) (x9 x10 : Vec Ideal S1x1024 .f32)
    (p : Fin 256) (j : Fin 1024) (r : Fin 8192)
    (h0 : ∀ k : Fin 1024, x0 (ix2 p k) = a0 (ix2 r k)) (h1 : ∀ k : Fin 1024, x1 (ix2 p k) = a1 (ix2 r k)) (h2 : ∀ k : Fin 1024, x2 (ix2 p k) = a2 (ix2 r k))
    (h3 : ∀ (n : Fin 4096) (k : Fin 1024), x3 (ix2 k n) = a3 (ix2 n k)) (h4 : ∀ (n : Fin 4096) (k : Fin 1024), x4 (ix2 k n) = a4 (ix2 n k))
    (h5 : ∀ n : Fin 4096, x5 (ix2 (0 : Fin 1) n) = a5 (ix1 n)) (h6 : ∀ n : Fin 4096, x6 (ix2 (0 : Fin 1) n) = a6 (ix1 n))
    (h7 : ∀ n : Fin 4096, x7 (ix2 (0 : Fin 1) n) = a7 (ix1 n)) (h8 : ∀ n : Fin 4096, x8 (ix2 (0 : Fin 1) n) = a8 (ix1 n))
    (h9 : ∀ n : Fin 1024, x9 (ix2 (0 : Fin 1) n) = a9 (ix1 n)) (h10 : ∀ n : Fin 1024, x10 (ix2 (0 : Fin 1) n) = a10 (ix1 n)) :
    k0_pay1 (F := Ideal) (k0_pay8 x2 (k0_pay3 x1 x4) (k0_pay4 x6) (k0_pay5 x0 x3 x5) x7 x8) (k0_pay9 x9) (k0_pay10 x10) (ix2 p j)
      = Gcy varOne a0 a1 a2 a3 a4 a5 a6 a7 a8 a9 a10 (ix2 r j) := by
  rw [cyBlock_apply]
  have e0 : (fun k : Fin 1024 => x0 (ix2 p k)) = rowOf a0 r := funext h0
  have e1 : (fun k : Fin 1024 => x1 (ix2 p k)) = rowOf a1 r := funext h1
  have e2 : (fun k : Fin 1024 => x2 (ix2 p k)) = rowOf a2 r := funext h2
  have e3 : (fun (n : Fin 4096) (k : Fin 1024) => x3 (ix2 k n)) = matOf a3 := funext fun n => funext fun k => h3 n k
  have e4 : (fun (n : Fin 4096) (k : Fin 1024) => x4 (ix2 k n)) = matOf a4 := funext fun n => funext fun k => h4 n k
  have e5 : (fun n : Fin 4096 => x5 (ix2 (0 : Fin 1) n)) = vecG a5 := funext h5
  have e6 : (fun n : Fin 4096 => x6 (ix2 (0 : Fin 1) n)) = vecG a6 := funext h6
  have e7 : (fun n : Fin 4096 => x7 (ix2 (0 : Fin 1) n)) = vecG a7 := funext h7
  have e8 : (fun n : Fin 4096 => x8 (ix2 (0 : Fin 1) n)) = vecG a8 := funext h8
  have e9 : (fun n : Fin 1024 => x9 (ix2 (0 : Fin 1) n)) = vecH a9 := funext h9
  have e10 : (fun n : Fin 1024 => x10 (ix2 (0 : Fin 1) n)) = vecH a10 := funext h10
  rw [e0, e1, e2, e3, e4, e5, e6, e7, e8, e9, e10]
  rfl

/-- The hidden-state payload of the same blocks is the whole-array hidden state at `(r, j)`. -/
private theorem hy_of_blocks (a0 a1 a2 : FVec Ideal SB .f32) (a3 a4 : FVec Ideal SW .f32) (a5 a6 a7 a8 : FVec Ideal SG .f32) (a9 a10 : FVec Ideal SH .f32)
    (x0 x1 x2 : Vec Ideal S256x1024 .f32) (x3 x4 : Vec Ideal S1024x4096 .bf16) (x5 x6 x7 x8 : Vec Ideal S1x4096 .f32) (x9 x10 : Vec Ideal S1x1024 .f32)
    (p : Fin 256) (j : Fin 1024) (r : Fin 8192)
    (h0 : ∀ k : Fin 1024, x0 (ix2 p k) = a0 (ix2 r k)) (h1 : ∀ k : Fin 1024, x1 (ix2 p k) = a1 (ix2 r k)) (h2 : ∀ k : Fin 1024, x2 (ix2 p k) = a2 (ix2 r k))
    (h3 : ∀ (n : Fin 4096) (k : Fin 1024), x3 (ix2 k n) = a3 (ix2 n k)) (h4 : ∀ (n : Fin 4096) (k : Fin 1024), x4 (ix2 k n) = a4 (ix2 n k))
    (h5 : ∀ n : Fin 4096, x5 (ix2 (0 : Fin 1) n) = a5 (ix1 n)) (h6 : ∀ n : Fin 4096, x6 (ix2 (0 : Fin 1) n) = a6 (ix1 n))
    (h7 : ∀ n : Fin 4096, x7 (ix2 (0 : Fin 1) n) = a7 (ix1 n)) (h8 : ∀ n : Fin 4096, x8 (ix2 (0 : Fin 1) n) = a8 (ix1 n))
    (h9 : ∀ n : Fin 1024, x9 (ix2 (0 : Fin 1) n) = a9 (ix1 n)) (h10 : ∀ n : Fin 1024, x10 (ix2 (0 : Fin 1) n) = a10 (ix1 n)) :
    k0_pay2 (F := Ideal) (k0_pay7 (k0_pay3 x1 x4) (k0_pay4 x6) (k0_pay5 x0 x3 x5) x7 x8) (k0_pay8 x2 (k0_pay3 x1 x4) (k0_pay4 x6) (k0_pay5 x0 x3 x5) x7 x8) (k0_pay9 x9) (k0_pay10 x10) (ix2 p j)
      = Ghy varOne a0 a1 a2 a3 a4 a5 a6 a7 a8 a9 a10 (ix2 r j) := by
  rw [hyBlock_apply]
  have e0 : (fun k : Fin 1024 => x0 (ix2 p k)) = rowOf a0 r := funext h0
  have e1 : (fun k : Fin 1024 => x1 (ix2 p k)) = rowOf a1 r := funext h1
  have e2 : (fun k : Fin 1024 => x2 (ix2 p k)) = rowOf a2 r := funext h2
  have e3 : (fun (n : Fin 4096) (k : Fin 1024) => x3 (ix2 k n)) = matOf a3 := funext fun n => funext fun k => h3 n k
  have e4 : (fun (n : Fin 4096) (k : Fin 1024) => x4 (ix2 k n)) = matOf a4 := funext fun n => funext fun k => h4 n k
  have e5 : (fun n : Fin 4096 => x5 (ix2 (0 : Fin 1) n)) = vecG a5 := funext h5
  have e6 : (fun n : Fin 4096 => x6 (ix2 (0 : Fin 1) n)) = vecG a6 := funext h6
  have e7 : (fun n : Fin 4096 => x7 (ix2 (0 : Fin 1) n)) = vecG a7 := funext h7
  have e8 : (fun n : Fin 4096 => x8 (ix2 (0 : Fin 1) n)) = vecG a8 := funext h8
  have e9 : (fun n : Fin 1024 => x9 (ix2 (0 : Fin 1) n)) = vecH a9 := funext h9
  have e10 : (fun n : Fin 1024 => x10 (ix2 (0 : Fin 1) n)) = vecH a10 := funext h10
  rw [e0, e1, e2, e3, e4, e5, e6, e7, e8, e9, e10]
  rfl

/-- Element `(p, j)` of window 11's block at point `t` sits at `(256 t + p, j)` in the array. -/
private theorem emb_hy (t : Fin cfg0.N) (p : Fin 256) (j : Fin 1024) :
    (((cfg0.win 11).blk t).view.emb (ix2 p j) : S8192x1024.Idx) = ix2 (rowAt t p) j := by
  have hi : win0_11.index t (0 : Fin 2) = t.val ∧ win0_11.index t (1 : Fin 2) = 0 := index_rows11 t
  funext a
  apply Fin.ext
  match a with
  | ⟨0, _⟩ => show win0_11.index t (0 : Fin 2) * 256 + 1 * p.val = t.val * 256 + p.val; rw [hi.1]; omega
  | ⟨1, _⟩ => show win0_11.index t (1 : Fin 2) * 1024 + 1 * j.val = j.val; rw [hi.2]; omega

/-- Element `(p, j)` of window 12's block at point `t` sits at `(256 t + p, j)` in the array. -/
private theorem emb_cy (t : Fin cfg0.N) (p : Fin 256) (j : Fin 1024) :
    (((cfg0.win 12).blk t).view.emb (ix2 p j) : S8192x1024.Idx) = ix2 (rowAt t p) j := by
  have hi : win0_12.index t (0 : Fin 2) = t.val ∧ win0_12.index t (1 : Fin 2) = 0 := index_rows12 t
  funext a
  apply Fin.ext
  match a with
  | ⟨0, _⟩ => show win0_12.index t (0 : Fin 2) * 256 + 1 * p.val = t.val * 256 + p.val; rw [hi.1]; omega
  | ⟨1, _⟩ => show win0_12.index t (1 : Fin 2) * 1024 + 1 * j.val = j.val; rw [hi.2]; omega

/-- WHAT POINT `t` WRITES BACK through window 11 is block `t` of `Ghy varOne` of the argument arrays. -/
private theorem flushed_hy_eq (c : Dev nD) (t : Fin cfg0.N) :
    (dats m 0 c).flushed 11 t = ((cfg0.win 11).blk t).view.read (Elt Ideal) (Ghy varOne (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) := by
  show (cfg0.win 11).cut (grid0.coords t) ((dats m 0 c).after 11 t) = _
  rw [after0_11]
  unfold out0_11
  rw [View.canon_unit_zero zero_offsets]
  simp only [View.ld_unit_zero (S := S256x1024) zero_offsets, View.ld_unit_zero (S := S1024x4096) zero_offsets, View.ld_unit_zero (S := S1x4096) zero_offsets, View.ld_unit_zero (S := S1x1024) zero_offsets]
  funext y
  obtain ⟨p, j, rfl⟩ : ∃ (p : Fin 256) (j : Fin 1024), y = ix2 p j := ⟨y 0, y 1, eq_ix2 (n0 := 256) (n1 := 1024) y⟩
  rw [View.read_apply]
  refine (hy_of_blocks (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      (iblk m c 0 t) (iblk m c 1 t) (iblk m c 2 t) (iblk m c 3 t) (iblk m c 4 t) (iblk m c 5 t) (iblk m c 6 t) (iblk m c 7 t) (iblk m c 8 t) (iblk m c 9 t) (iblk m c 10 t) p j (rowAt t p)
      (block0_apply m c t p) (block1_apply m c t p) (block2_apply m c t p)
      (fun n k => block3_apply m c t k n) (fun n k => block4_apply m c t k n) (block5_apply m c t 0) (block6_apply m c t 0) (block7_apply m c t 0) (block8_apply m c t 0)
      (block9_apply m c t 0) (block10_apply m c t 0)).trans ?_
  exact congrArg (Ghy varOne (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (emb_hy t p j).symm

/-- WHAT POINT `t` WRITES BACK through window 12 is block `t` of `Gcy varOne` of the argument arrays. -/
private theorem flushed_cy_eq (c : Dev nD) (t : Fin cfg0.N) :
    (dats m 0 c).flushed 12 t = ((cfg0.win 12).blk t).view.read (Elt Ideal) (Gcy varOne (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) := by
  show (cfg0.win 12).cut (grid0.coords t) ((dats m 0 c).after 12 t) = _
  rw [after0_12]
  unfold out0_12
  rw [View.canon_unit_zero zero_offsets]
  simp only [View.ld_unit_zero (S := S256x1024) zero_offsets, View.ld_unit_zero (S := S1024x4096) zero_offsets, View.ld_unit_zero (S := S1x4096) zero_offsets, View.ld_unit_zero (S := S1x1024) zero_offsets]
  funext y
  obtain ⟨p, j, rfl⟩ : ∃ (p : Fin 256) (j : Fin 1024), y = ix2 p j := ⟨y 0, y 1, eq_ix2 (n0 := 256) (n1 := 1024) y⟩
  rw [View.read_apply]
  refine (cy_of_blocks (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      (iblk m c 0 t) (iblk m c 1 t) (iblk m c 2 t) (iblk m c 3 t) (iblk m c 4 t) (iblk m c 5 t) (iblk m c 6 t) (iblk m c 7 t) (iblk m c 8 t) (iblk m c 9 t) (iblk m c 10 t) p j (rowAt t p)
      (block0_apply m c t p) (block1_apply m c t p) (block2_apply m c t p)
      (fun n k => block3_apply m c t k n) (fun n k => block4_apply m c t k n) (block5_apply m c t 0) (block6_apply m c t 0) (block7_apply m c t 0) (block8_apply m c t 0)
      (block9_apply m c t 0) (block10_apply m c t 0)).trans ?_
  exact congrArg (Gcy varOne (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (emb_cy t p j).symm

/-- An index of the array is in point `t`'s block of window 11 iff each coordinate is in the block's range on its axis. -/
private theorem mem_blk_hy (t : Fin cfg0.N) (i : S8192x1024.Idx) :
    i ∈ ((cfg0.win 11).blk t).view.set ↔ ∀ a : Fin 2, win0_11.index t a * S256x1024.size a ≤ (i a).val ∧ (i a).val < win0_11.index t a * S256x1024.size a + S256x1024.size a := by
  show i ∈ ((View.whole main_v10_0).slice (win0_11.rect t)).set ↔ _
  rw [View.set_slice_whole, Rect.mem_set_unit]
  exact Iff.rfl

/-- Every index of the array is in some point's block of window 11: row `r` is in the block of point `r / 256`. -/
private theorem cover_hy (i : S8192x1024.Idx) : ∃ t : Fin cfg0.N, (cfg0.win 11).flush t = true ∧ i ∈ ((cfg0.win 11).blk t).view.set := by
  have hi0 : (i 0).val < 8192 := (i 0).isLt
  have hi1 : (i 1).val < 1024 := (i 1).isLt
  have hN : cfg0.N = 32 := N_0
  obtain ⟨t, ht⟩ : ∃ t : Fin cfg0.N, t.val = (i 0).val / 256 := ⟨⟨(i 0).val / 256, by omega⟩, rfl⟩
  have hi : win0_11.index t (0 : Fin 2) = t.val ∧ win0_11.index t (1 : Fin 2) = 0 := index_rows11 t
  refine ⟨t, flush0_11 t, ?_⟩
  rw [mem_blk_hy]
  intro a
  match a with
  | ⟨0, _⟩ => show win0_11.index t (0 : Fin 2) * 256 ≤ (i 0).val ∧ (i 0).val < win0_11.index t (0 : Fin 2) * 256 + 256; rw [hi.1, ht]; omega
  | ⟨1, _⟩ => show win0_11.index t (1 : Fin 2) * 1024 ≤ (i 1).val ∧ (i 1).val < win0_11.index t (1 : Fin 2) * 1024 + 1024; rw [hi.2]; omega

/-- An index of the array is in point `t`'s block of window 12 iff each coordinate is in the block's range on its axis. -/
private theorem mem_blk_cy (t : Fin cfg0.N) (i : S8192x1024.Idx) :
    i ∈ ((cfg0.win 12).blk t).view.set ↔ ∀ a : Fin 2, win0_12.index t a * S256x1024.size a ≤ (i a).val ∧ (i a).val < win0_12.index t a * S256x1024.size a + S256x1024.size a := by
  show i ∈ ((View.whole main_v10_1).slice (win0_12.rect t)).set ↔ _
  rw [View.set_slice_whole, Rect.mem_set_unit]
  exact Iff.rfl

/-- Every index of the array is in some point's block of window 12: row `r` is in the block of point `r / 256`. -/
private theorem cover_cy (i : S8192x1024.Idx) : ∃ t : Fin cfg0.N, (cfg0.win 12).flush t = true ∧ i ∈ ((cfg0.win 12).blk t).view.set := by
  have hi0 : (i 0).val < 8192 := (i 0).isLt
  have hi1 : (i 1).val < 1024 := (i 1).isLt
  have hN : cfg0.N = 32 := N_0
  obtain ⟨t, ht⟩ : ∃ t : Fin cfg0.N, t.val = (i 0).val / 256 := ⟨⟨(i 0).val / 256, by omega⟩, rfl⟩
  have hi : win0_12.index t (0 : Fin 2) = t.val ∧ win0_12.index t (1 : Fin 2) = 0 := index_rows12 t
  refine ⟨t, flush0_12 t, ?_⟩
  rw [mem_blk_cy]
  intro a
  match a with
  | ⟨0, _⟩ => show win0_12.index t (0 : Fin 2) * 256 ≤ (i 0).val ∧ (i 0).val < win0_12.index t (0 : Fin 2) * 256 + 256; rw [hi.1, ht]; omega
  | ⟨1, _⟩ => show win0_12.index t (1 : Fin 2) * 1024 ≤ (i 1).val ∧ (i 1).val < win0_12.index t (1 : Fin 2) * 1024 + 1024; rw [hi.2]; omega

/-! ## The frame run's post, array by array -/

/-- After the frame run the first result array is what the write-backs of window 11 left. -/
private theorem post_hy (r : PUnit × MemSt nD τ sig (Elt Ideal)) (h : Pipeline.FramePost cfgs (dats m) 0 (V m) r) (c : Dev nD) :
    r.2.mem ((c.tc : Thread nD τ).loc main_v10_0) = (dats m 0 c).arrAt 11 cfg0.N :=
  (h c).1 11

/-- After the frame run the second result array is what the write-backs of window 12 left. -/
private theorem post_cy (r : PUnit × MemSt nD τ sig (Elt Ideal)) (h : Pipeline.FramePost cfgs (dats m) 0 (V m) r) (c : Dev nD) :
    r.2.mem ((c.tc : Thread nD τ).loc main_v10_1) = (dats m 0 c).arrAt 12 cfg0.N :=
  (h c).1 12

/-- THE FIRST RESULT ARRAY after the run: the new hidden state of the argument arrays. -/
private theorem final_hy (c : Dev nD) : (dats m 0 c).arrAt 11 cfg0.N = Ghy varOne (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (dats m 0 c).arrAt_eq_of_cover 11 (Ghy varOne (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (fun t _ => flushed_hy_eq m c t) cover_hy

/-- THE SECOND RESULT ARRAY after the run: the new cell state of the argument arrays. -/
private theorem final_cy (c : Dev nD) : (dats m 0 c).arrAt 12 cfg0.N = Gcy varOne (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (dats m 0 c).arrAt_eq_of_cover 12 (Gcy varOne (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (fun t _ => flushed_cy_eq m c t) cover_cy

/-! ## The run, read -/

/-- THE KERNEL'S RUN, READ: every weakly fair execution terminates with the first result array at the new hidden
    state and the second at the new cell state of the argument arrays (one-pass variance), the arguments unchanged. -/
theorem run : θ_run (defs (F := Ideal)) (onTc (τ := τ) (main (F := Ideal))) ⟨m, fun _ => 0, ρ⟩ fun r => ∀ c : Dev nD,
      r.2.mem ((c.tc : Thread nD τ).loc main_v10_0) = Ghy varOne (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v10_1) = Gcy varOne (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨(post_hy m r h c).trans (final_hy m c), (post_cy m r h c).trans (final_cy m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩)
    (run_main m ρ)

end Cert.KernelIdeal.KerVal

end
-- ==== Proof.lean ====
/-
  A fused LayerNorm-LSTM cell against its jnp reference, over the extended reals.

  Both programs compute, for every batch row `r`: the two gate pre-activations `x_r · W_ihᵀ` and `h_r · W_hhᵀ`, each
  layer-normalised over its 4096 columns and added; the sigmoid / tanh gates of the four 1024-column slices; the cell
  `σ(f) · c_r + σ(i) · tanh(g)`, layer-normalised over its 1024 columns (the new cell state); and `σ(o) · tanh` of that
  (the new hidden state). At the ideal instance the kernel's bf16 casts are the identity, its matrix products and lane
  sums are the reference's `dot_general` and `reduce add` as plain sums, its `logistic` is the reference's
  `1 / (1 + e^(-x))`, and `rsqrt` and `tanh` are one function on both sides. The ONE difference is the variance: the
  kernel takes `max (E[x²] - E[x]², 0)` in one pass, the reference `E[(x - E[x])²]` in two. On a row of real numbers
  these agree (`Σ (x - μ)² = Σ x² - N μ²`, nonnegative, so the clamp is the identity); the precondition makes every
  input entry real, and realness passes through every stage (sums and products of reals, the inverse square root of a
  positive real, the sigmoid and tanh of a real), so all three layer norms agree.

  Proof/RowSpec.lean states one row of the cell as a function on the extended reals over a variance; Proof/RowLaw.lean
  proves the two variances give the same row on real inputs; Proof/ArraySpec.lean and Proof/ArrayLaw.lean lift both to
  whole arrays; Proof/Finite.lean reads the precondition as "every entry is real". The reference: Proof/RefOps.lean
  lists its operations, Proof/RefRun.lean runs them, Proof/RefArr.lean and Proof/RefTerm.lean name the result buffers'
  contents as whole-array terms, Proof/RefReadLn.lean and Proof/RefRead.lean read those at an index as the row functions
  (two-pass variance). The kernel: Proof/KerLn.lean and Proof/KerPay.lean read the body's stored blocks at an index as
  the row functions (one-pass variance), Proof/KerFinal.lean assembles the 32 blocks into the arrays. The frames of the
  two kernel programs are the generated ones; the reference's frame is its run with the results dropped.
-/
import proofs.«410985_j10685878632881_3_alg».proof.Defs
import proofs.«410985_j10685878632881_3_alg».proof.Proof.Gen.Kernel
import proofs.«410985_j10685878632881_3_alg».proof.Proof.Gen.Kernel.Skeleton
import proofs.«410985_j10685878632881_3_alg».proof.Proof.Gen.Kernel.Launch
import proofs.«410985_j10685878632881_3_alg».proof.Proof.Gen.Kernel.Points
import proofs.«410985_j10685878632881_3_alg».proof.Proof.Gen.Kernel.Frame
import proofs.«410985_j10685878632881_3_alg».proof.Proof.Gen.KernelIdeal
import proofs.«410985_j10685878632881_3_alg».proof.Proof.Gen.KernelIdeal.Skeleton
import proofs.«410985_j10685878632881_3_alg».proof.Proof.Gen.KernelIdeal.Launch
import proofs.«410985_j10685878632881_3_alg».proof.Proof.Gen.KernelIdeal.Points
import proofs.«410985_j10685878632881_3_alg».proof.Proof.Gen.KernelIdeal.Frame
import proofs.«410985_j10685878632881_3_alg».proof.Proof.Gen.ReferenceIdeal
import proofs.«410985_j10685878632881_3_alg».proof.Proof.Gen.Pre_finite_inputs
import proofs.«410985_j10685878632881_3_alg».proof.Proof.ArrayLaw
import proofs.«410985_j10685878632881_3_alg».proof.Proof.Finite
import proofs.«410985_j10685878632881_3_alg».proof.Proof.RefRun
import proofs.«410985_j10685878632881_3_alg».proof.Proof.RefTerm
import proofs.«410985_j10685878632881_3_alg».proof.Proof.RefRead
import proofs.«410985_j10685878632881_3_alg».proof.Proof.KerFinal
import Idealize.ShloMosaic.Adequacy
import Idealize.ShloMosaic.Init

noncomputable section

namespace Cert.Proof

open Idealize.ShloMosaic Idealize.ShloMosaic.TcCoe Idealize.SL.Sem Idealize.ShloMosaic.StableHlo Cert.LstmRow Cert.LstmArr

/-- The word-level kernel runs and keeps its arguments: the generated frame. -/
theorem frame_k : Cert.frame_Kernel := fun m ρ _ => Cert.Kernel.Gen.frame m ρ

/-- The idealized kernel likewise. -/
theorem frame_ki : Cert.frame_KernelIdeal := fun m ρ _ => Cert.KernelIdeal.Gen.frame m ρ

/-- The reference runs and keeps its arguments: no operation of its straight line writes an argument's buffer. -/
theorem frame_ri : Cert.frame_ReferenceIdeal := fun m ρ _ =>
  (θ_run Cert.ReferenceIdeal.defs _ _).mono (fun _ h c =>
    ⟨(h c Cert.ReferenceIdeal.main_arg0).trans (Cert.ReferenceIdeal.RefRun.after_arg0 _),
      (h c Cert.ReferenceIdeal.main_arg1).trans (Cert.ReferenceIdeal.RefRun.after_arg1 _),
      (h c Cert.ReferenceIdeal.main_arg2).trans (Cert.ReferenceIdeal.RefRun.after_arg2 _),
      (h c Cert.ReferenceIdeal.main_arg3).trans (Cert.ReferenceIdeal.RefRun.after_arg3 _),
      (h c Cert.ReferenceIdeal.main_arg4).trans (Cert.ReferenceIdeal.RefRun.after_arg4 _),
      (h c Cert.ReferenceIdeal.main_arg5).trans (Cert.ReferenceIdeal.RefRun.after_arg5 _),
      (h c Cert.ReferenceIdeal.main_arg6).trans (Cert.ReferenceIdeal.RefRun.after_arg6 _),
      (h c Cert.ReferenceIdeal.main_arg7).trans (Cert.ReferenceIdeal.RefRun.after_arg7 _),
      (h c Cert.ReferenceIdeal.main_arg8).trans (Cert.ReferenceIdeal.RefRun.after_arg8 _),
      (h c Cert.ReferenceIdeal.main_arg9).trans (Cert.ReferenceIdeal.RefRun.after_arg9 _),
      (h c Cert.ReferenceIdeal.main_arg10).trans (Cert.ReferenceIdeal.RefRun.after_arg10 _)⟩)
    (Cert.ReferenceIdeal.RefRun.run_after (F := Ideal) m ρ)

/-- From memories agreeing on the arguments both programs end with the new hidden state and the new cell state of
    the kernel's arguments: the kernel's arrays are the one-pass specification, the reference's the two-pass one of
    the same (real) arguments, and those agree. -/
theorem algebraic : Cert.algebraic_KernelIdeal_ReferenceIdeal := by
  intro m ρ m' ρ' hpre hagree
  refine ⟨fun c => Ghy varOne (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Gcy varOne (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.KerVal.run m ρ, ?_⟩
  refine (θ_run Cert.ReferenceIdeal.defs _ _).mono (fun r h c => ?_) (Cert.ReferenceIdeal.RefRun.run_after (F := Ideal) m' ρ')
  have hr : AllReal (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) :=
    allReal_of_pre _ _ _ _ _ _ _ _ _ _ _ (hpre c)
  obtain ⟨e0, e1, e2, e3, e4, e5, e6, e7, e8, e9, e10⟩ := hagree c
  refine ⟨?_, ?_, (h c Cert.ReferenceIdeal.main_arg0).trans (Cert.ReferenceIdeal.RefRun.after_arg0 _),
    (h c Cert.ReferenceIdeal.main_arg1).trans (Cert.ReferenceIdeal.RefRun.after_arg1 _),
    (h c Cert.ReferenceIdeal.main_arg2).trans (Cert.ReferenceIdeal.RefRun.after_arg2 _),
    (h c Cert.ReferenceIdeal.main_arg3).trans (Cert.ReferenceIdeal.RefRun.after_arg3 _),
    (h c Cert.ReferenceIdeal.main_arg4).trans (Cert.ReferenceIdeal.RefRun.after_arg4 _),
    (h c Cert.ReferenceIdeal.main_arg5).trans (Cert.ReferenceIdeal.RefRun.after_arg5 _),
    (h c Cert.ReferenceIdeal.main_arg6).trans (Cert.ReferenceIdeal.RefRun.after_arg6 _),
    (h c Cert.ReferenceIdeal.main_arg7).trans (Cert.ReferenceIdeal.RefRun.after_arg7 _),
    (h c Cert.ReferenceIdeal.main_arg8).trans (Cert.ReferenceIdeal.RefRun.after_arg8 _),
    (h c Cert.ReferenceIdeal.main_arg9).trans (Cert.ReferenceIdeal.RefRun.after_arg9 _),
    (h c Cert.ReferenceIdeal.main_arg10).trans (Cert.ReferenceIdeal.RefRun.after_arg10 _)⟩
  · refine (h c Cert.ReferenceIdeal.main_v86).trans ((Cert.ReferenceIdeal.RefRun.after_v86 _).trans ?_)
    refine (Cert.ReferenceIdeal.RefRead.hy_eq _ _ _ _ _ _ _ _ _ _ _).trans ?_
    show Ghy varTwo (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) = _
    rw [e0, e1, e2, e3, e4, e5, e6, e7, e8, e9, e10]
    exact Ghy_two_eq_one _ _ _ _ _ _ _ _ _ _ _ hr
  · refine (h c Cert.ReferenceIdeal.main_v84).trans ((Cert.ReferenceIdeal.RefRun.after_v84 _).trans ?_)
    refine (Cert.ReferenceIdeal.RefRead.cy_eq _ _ _ _ _ _ _ _ _ _ _).trans ?_
    show Gcy varTwo (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) = _
    rw [e0, e1, e2, e3, e4, e5, e6, e7, e8, e9, e10]
    exact Gcy_two_eq_one _ _ _ _ _ _ _ _ _ _ _ hr

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
